-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_cst) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_cst_4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S64x64 : Shape := ⟨2, ![64, 64]⟩
abbrev S64x128 : Shape := ⟨2, ![64, 128]⟩
abbrev S64 : Shape := ⟨1, ![64]⟩
abbrev S1x64 : Shape := ⟨2, ![1, 64]⟩
abbrev S1048576 : Shape := ⟨1, ![1048576]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S64x128 .f32) (main_arg5 : FVec F S64 .f32) (main_arg6 : FVec F S1x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S16384x64 .f32) (main_arg1 : FVec F S16384x16384 .f32) (main_arg2 : FVec F S64x64 .f32) (main_arg3 : FVec F S64x64 .f32) (main_arg4 : FVec F S64x128 .f32) (main_arg5 : FVec F S64 .f32) (main_arg6 : FVec F S1x64 .f32) (main_arg7 : IVec S1048576 32) (main_arg8 : IVec S1048576 32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S16384x64 : Shape := ⟨2, ![16384, 64]⟩
abbrev S16384x16384 : Shape := ⟨2, ![16384, 16384]⟩
abbrev S64x64 : Shape := ⟨2, ![64, 64]⟩
abbrev S64x128 : Shape := ⟨2, ![64, 128]⟩
abbrev S64 : Shape := ⟨1, ![64]⟩
abbrev S1x64 : Shape := ⟨2, ![1, 64]⟩
abbrev S1048576 : Shape := ⟨1, ![1048576]⟩
abbrev S2048x1024 : Shape := ⟨2, ![2048, 1024]⟩
abbrev S1024x64 : Shape := ⟨2, ![1024, 64]⟩
abbrev S2048x64 : Shape := ⟨2, ![2048, 64]⟩
abbrev S_ : Shape := ⟨0, ![]⟩
abbrev S1048576x1 : Shape := ⟨2, ![1048576, 1]⟩
abbrev S1048576x64 : Shape := ⟨2, ![1048576, 64]⟩
abbrev S64x1 : Shape := ⟨2, ![64, 1]⟩
abbrev S8192x64 : Shape := ⟨2, ![8192, 64]⟩
abbrev S8192x1 : Shape := ⟨2, ![8192, 1]⟩

abbrev nBuf : Space → Nat
  | .hbm => 39
  | .vmem => 26
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S64x64, .f32⟩
  | .hbm, ⟨4, _⟩ => ⟨S64x128, .f32⟩
  | .hbm, ⟨5, _⟩ => ⟨S64, .f32⟩
  | .hbm, ⟨6, _⟩ => ⟨S1x64, .f32⟩
  | .hbm, ⟨7, _⟩ => ⟨S1048576, .i32⟩
  | .hbm, ⟨8, _⟩ => ⟨S1048576, .i32⟩
  | .hbm, ⟨9, _⟩ => ⟨S64x64, .f32⟩
  | .hbm, ⟨10, _⟩ => ⟨S16384x64, .f32⟩
  | .hbm, ⟨11, _⟩ => ⟨S64x64, .f32⟩
  | .hbm, ⟨12, _⟩ => ⟨S16384x64, .f32⟩
  | .hbm, ⟨13, _⟩ => ⟨S_, .i32⟩
  | .hbm, ⟨14, _⟩ => ⟨S1048576, .i32⟩
  | .hbm, ⟨15, _⟩ => ⟨S1048576, .i1⟩
  | .hbm, ⟨16, _⟩ => ⟨S_, .i32⟩
  | .hbm, ⟨17, _⟩ => ⟨S1048576, .i32⟩
  | .hbm, ⟨18, _⟩ => ⟨S1048576, .i32⟩
  | .hbm, ⟨19, _⟩ => ⟨S1048576, .i32⟩
  | .hbm, ⟨20, _⟩ => ⟨S1048576x1, .i32⟩
  | .hbm, ⟨21, _⟩ => ⟨S1048576x64, .f32⟩
  | .hbm, ⟨22, _⟩ => ⟨S_, .i32⟩
  | .hbm, ⟨23, _⟩ => ⟨S1048576, .i32⟩
  | .hbm, ⟨24, _⟩ => ⟨S1048576, .i1⟩
  | .hbm, ⟨25, _⟩ => ⟨S_, .i32⟩
  | .hbm, ⟨26, _⟩ => ⟨S1048576, .i32⟩
  | .hbm, ⟨27, _⟩ => ⟨S1048576, .i32⟩
  | .hbm, ⟨28, _⟩ => ⟨S1048576, .i32⟩
  | .hbm, ⟨29, _⟩ => ⟨S1048576x1, .i32⟩
  | .hbm, ⟨30, _⟩ => ⟨S1048576x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S1x64, .f32⟩
  | .hbm, ⟨36, _⟩ => ⟨S64x1, .f32⟩
  | .hbm, ⟨37, _⟩ => ⟨S1048576x1, .f32⟩
  | .hbm, ⟨38, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S1024x64, .f32⟩
  | .local _ .vmem, ⟨3, _⟩ => ⟨S1024x64, .f32⟩
  | .local _ .vmem, ⟨4, _⟩ => ⟨S64x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x1024, .f32⟩
  | .local _ .vmem, ⟨9, _⟩ => ⟨S2048x1024, .f32⟩
  | .local _ .vmem, ⟨10, _⟩ => ⟨S1024x64, .f32⟩
  | .local _ .vmem, ⟨11, _⟩ => ⟨S1024x64, .f32⟩
  | .local _ .vmem, ⟨12, _⟩ => ⟨S64x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S8192x64, .f32⟩
  | .local _ .vmem, ⟨17, _⟩ => ⟨S8192x64, .f32⟩
  | .local _ .vmem, ⟨18, _⟩ => ⟨S8192x64, .f32⟩
  | .local _ .vmem, ⟨19, _⟩ => ⟨S8192x64, .f32⟩
  | .local _ .vmem, ⟨20, _⟩ => ⟨S64x64, .f32⟩
  | .local _ .vmem, ⟨21, _⟩ => ⟨S64x64, .f32⟩
  | .local _ .vmem, ⟨22, _⟩ => ⟨S1x64, .f32⟩
  | .local _ .vmem, ⟨23, _⟩ => ⟨S64x1, .f32⟩
  | .local _ .vmem, ⟨24, _⟩ => ⟨S8192x1, .f32⟩
  | .local _ .vmem, ⟨25, _⟩ => ⟨S8192x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8192x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  transposes_S64x64_S64x64_1_0 : S64x64.Transposes [1, 0] S64x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S1024x64_S1024x64 : S1024x64.ShapeCasts S1024x64
  bcast_S_S1048576 : S_.BroadcastsInDim S1048576 (![] : Fin 0 → Fin S1048576.rank)
  bcast_S1048576_S1048576x1_0 : S1048576.BroadcastsInDim S1048576x1 (![0] : Fin 1 → Fin S1048576x1.rank)
  slices_S64x128_S64x64_0_0 : S64x128.Slices ![0, 0] S64x64
  slices_S64x128_S64x64_0_64 : S64x128.Slices ![0, 64] S64x64
  shapeCasts_S64_S1x64 : S64.ShapeCasts S1x64
  transposes_S1x64_S64x1_1_0 : S1x64.Transposes [1, 0] S64x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S8192x1_S8192x1_0_0 : ∀ a, (![0, 0] : Fin 2 → Nat) a + S8192x1.size a ≤ S8192x1.size a
  h_S8192x1 : 0 < S8192x1.numel
  dot_S2048x1024_S1024x64_S2048x64_1_0_0_1_n_n_wf : DotDims.WF S2048x1024 S1024x64 S2048x64 [1] [0] [0] [1] [] []
  dot_S2048x64_S64x64_S2048x64_1_0_0_1_n_n_wf : DotDims.WF S2048x64 S64x64 S2048x64 [1] [0] [0] [1] [] []
  gather_S16384x64_S1048576x1_S1048576x64_1_0_n_n_0_1_164_wf : GatherDims.WF S16384x64 S1048576x1 S1048576x64 [1] [0] [] [0] [] 1 ![1, 64]
  dot_S8192x64_S64x64_S8192x64_1_0_0_1_n_n_wf : DotDims.WF S8192x64 S64x64 S8192x64 [1] [0] [0] [1] [] []
  dot_S8192x64_S64x1_S8192x1_1_0_0_1_n_n_wf : DotDims.WF S8192x64 S64x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x16384.size a
  hwx0_0 : ∀ i : grid0.Coords, EltTy.bits .f32 = 32 ∨ (Rect.block (s := S16384x16384) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S16384x64.size a
  hwx0_1 : ∀ i : grid0.Coords, EltTy.bits .f32 = 32 ∨ (Rect.block (s := S16384x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .f32 = 32 ∨ (Rect.block (s := S16384x64) S2048x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S16384x64.size a
  hwx1_1 : ∀ i : grid1.Coords, EltTy.bits .f32 = 32 ∨ (Rect.block (s := S16384x64) S1024x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S16384x64.size a
  hwx1_3 : ∀ i : grid1.Coords, EltTy.bits .f32 = 32 ∨ (Rect.block (s := S16384x64) S2048x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S1048576x64.size a
  hwx2_0 : ∀ i : grid2.Coords, EltTy.bits .f32 = 32 ∨ (Rect.block (s := S1048576x64) S8192x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S1048576x64.size a
  hwx2_1 : ∀ i : grid2.Coords, EltTy.bits .f32 = 32 ∨ (Rect.block (s := S1048576x64) S8192x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8192x1.size a ≤ S1048576x1.size a
  hwx2_6 : ∀ i : grid2.Coords, EltTy.bits .f32 = 32 ∨ (Rect.block (s := S1048576x1) S8192x1.size (cc2_transform_6 i) (hinb2_6 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def gather_S16384x64_S1048576x1_S1048576x64_1_0_n_n_0_1_164 : GatherDims S16384x64 S1048576x1 S1048576x64 where
  offsetDims := [1]
  collapsedSliceDims := [0]
  operandBatchingDims := []
  startIndicesBatchingDims := []
  startIndexMap := [0]
  indexVectorDim := 1
  sliceSizes := ![1, 64]
  wf := gather_S16384x64_S1048576x1_S1048576x64_1_0_n_n_0_1_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v10) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S8192x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v24) S8192x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S16384x64 : Shape := ⟨2, ![16384, 64]⟩
abbrev S16384x16384 : Shape := ⟨2, ![16384, 16384]⟩
abbrev S64x64 : Shape := ⟨2, ![64, 64]⟩
abbrev S64x128 : Shape := ⟨2, ![64, 128]⟩
abbrev S64 : Shape := ⟨1, ![64]⟩
abbrev S1x64 : Shape := ⟨2, ![1, 64]⟩
abbrev S1048576 : Shape := ⟨1, ![1048576]⟩
abbrev S_ : Shape := ⟨0, ![]⟩
abbrev S1048576x1 : Shape := ⟨2, ![1048576, 1]⟩
abbrev S1048576x64 : Shape := ⟨2, ![1048576, 64]⟩
abbrev S1048576x128 : Shape := ⟨2, ![1048576, 128]⟩
abbrev S128x64 : Shape := ⟨2, ![128, 64]⟩
abbrev S64x1 : Shape := ⟨2, ![64, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S64x64, .f32⟩
  | .hbm, ⟨4, _⟩ => ⟨S64x128, .f32⟩
  | .hbm, ⟨5, _⟩ => ⟨S64, .f32⟩
  | .hbm, ⟨6, _⟩ => ⟨S1x64, .f32⟩
  | .hbm, ⟨7, _⟩ => ⟨S1048576, .i32⟩
  | .hbm, ⟨8, _⟩ => ⟨S1048576, .i32⟩
  | .hbm, ⟨9, _⟩ => ⟨S16384x64, .f32⟩
  | .hbm, ⟨10, _⟩ => ⟨S64x64, .f32⟩
  | .hbm, ⟨11, _⟩ => ⟨S16384x64, .f32⟩
  | .hbm, ⟨12, _⟩ => ⟨S_, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S64x64, .f32⟩
  | .hbm, ⟨17, _⟩ => ⟨S16384x64, .f32⟩
  | .hbm, ⟨18, _⟩ => ⟨S_, .f32⟩
  | .hbm, ⟨19, _⟩ => ⟨S16384x64, .f32⟩
  | .hbm, ⟨20, _⟩ => ⟨S16384x64, .f32⟩
  | .hbm, ⟨21, _⟩ => ⟨S_, .i32⟩
  | .hbm, ⟨22, _⟩ => ⟨S1048576, .i32⟩
  | .hbm, ⟨23, _⟩ => ⟨S1048576, .i1⟩
  | .hbm, ⟨24, _⟩ => ⟨S_, .i32⟩
  | .hbm, ⟨25, _⟩ => ⟨S1048576, .i32⟩
  | .hbm, ⟨26, _⟩ => ⟨S1048576, .i32⟩
  | .hbm, ⟨27, _⟩ => ⟨S1048576, .i32⟩
  | .hbm, ⟨28, _⟩ => ⟨S1048576x1, .i32⟩
  | .hbm, ⟨29, _⟩ => ⟨S1048576x64, .f32⟩
  | .hbm, ⟨30, _⟩ => ⟨S_, .i32⟩
  | .hbm, ⟨31, _⟩ => ⟨S1048576, .i32⟩
  | .hbm, ⟨32, _⟩ => ⟨S1048576, .i1⟩
  | .hbm, ⟨33, _⟩ => ⟨S_, .i32⟩
  | .hbm, ⟨34, _⟩ => ⟨S1048576, .i32⟩
  | .hbm, ⟨35, _⟩ => ⟨S1048576, .i32⟩
  | .hbm, ⟨36, _⟩ => ⟨S1048576, .i32⟩
  | .hbm, ⟨37, _⟩ => ⟨S1048576x1, .i32⟩
  | .hbm, ⟨38, _⟩ => ⟨S1048576x64, .f32⟩
  | .hbm, ⟨39, _⟩ => ⟨S1048576x128, .f32⟩
  | .hbm, ⟨40, _⟩ => ⟨S128x64, .f32⟩
  | .hbm, ⟨41, _⟩ => ⟨S1048576x64, .f32⟩
  | .hbm, ⟨42, _⟩ => ⟨S1x64, .f32⟩
  | .hbm, ⟨43, _⟩ => ⟨S1048576x64, .f32⟩
  | .hbm, ⟨44, _⟩ => ⟨S1048576x64, .f32⟩
  | .hbm, ⟨45, _⟩ => ⟨S1048576x64, .f32⟩
  | .hbm, ⟨46, _⟩ => ⟨S1048576x64, .f32⟩
  | .hbm, ⟨47, _⟩ => ⟨S_, .f32⟩
  | .hbm, ⟨48, _⟩ => ⟨S1048576x64, .f32⟩
  | .hbm, ⟨49, _⟩ => ⟨S1048576x64, .f32⟩
  | .hbm, ⟨50, _⟩ => ⟨S_, .f32⟩
  | .hbm, ⟨51, _⟩ => ⟨S1048576x64, .f32⟩
  | .hbm, ⟨52, _⟩ => ⟨S1048576x64, .f32⟩
  | .hbm, ⟨53, _⟩ => ⟨S64x1, .f32⟩
  | .hbm, ⟨54, _⟩ => ⟨S1048576x1, .f32⟩
  | .hbm, ⟨55, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_cst : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call1_cst : Ref sig .tc := ⟨.hbm, 18, rfl⟩
abbrev main_call1_v0 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩

abbrev nD : Nat := 1
abbrev τ : Topo := Topo.v7x

variable {F : FTy → Type} [FloatOps F]

class Facts₀ : Prop where
  transposes_S64x64_S64x64_1_0 : S64x64.Transposes [1, 0] S64x64
  bcast_S_S16384x64 : S_.BroadcastsInDim S16384x64 (![] : Fin 0 → Fin S16384x64.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x64_S1048576x64_S1048576x128_d1 : Shape.Concatenates [S1048576x64, S1048576x64] S1048576x128 1
  transposes_S64x128_S128x64_1_0 : S64x128.Transposes [1, 0] S128x64
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  transposes_S1x64_S64x1_1_0 : S1x64.Transposes [1, 0] S64x1
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []
  gather_S16384x64_S1048576x1_S1048576x64_1_0_n_n_0_1_164_wf : GatherDims.WF S16384x64 S1048576x1 S1048576x64 [1] [0] [] [0] [] 1 ![1, 64]
  dot_S1048576x128_S128x64_S1048576x64_1_0_0_1_n_n_wf : DotDims.WF S1048576x128 S128x64 S1048576x64 [1] [0] [0] [1] [] []
  dot_S1048576x64_S64x1_S1048576x1_1_0_0_1_n_n_wf : DotDims.WF S1048576x64 S64x1 S1048576x1 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def gather_S16384x64_S1048576x1_S1048576x64_1_0_n_n_0_1_164 : GatherDims S16384x64 S1048576x1 S1048576x64 where
  offsetDims := [1]
  collapsedSliceDims := [0]
  operandBatchingDims := []
  startIndicesBatchingDims := []
  startIndexMap := [0]
  indexVectorDim := 1
  sliceSizes := ![1, 64]
  wf := gather_S16384x64_S1048576x1_S1048576x64_1_0_n_n_0_1_164_wf
def dot_S1048576x128_S128x64_S1048576x64_1_0_0_1_n_n : DotDims S1048576x128 S128x64 S1048576x64 where
  lhsContracting := [1]
  rhsContracting := [0]
  lhsNonContracting := [0]
  rhsNonContracting := [1]
  lhsBatch := []
  rhsBatch := []
  wf := dot_S1048576x128_S128x64_S1048576x64_1_0_0_1_n_n_wf
def dot_S1048576x64_S64x1_S1048576x1_1_0_0_1_n_n : DotDims S1048576x64 S64x1 S1048576x1 where
  lhsContracting := [1]
  rhsContracting := [0]
  lhsNonContracting := [0]
  rhsNonContracting := [1]
  lhsBatch := []
  rhsBatch := []
  wf := dot_S1048576x64_S64x1_S1048576x1_1_0_0_1_n_n_wf

class Facts : Prop extends Facts₀ where

variable [Facts]
-- ==== Proof.LibStore.lean ====
/- A buffer stored whole and read back.

   A store through the rectangle that is the whole shape at zero offsets overwrites every element, so whatever was
   stored before it, the buffer then reads as that store's payload; and a load through the same rectangle reads
   the contents themselves. Stated for any view, element type and value family. -/
import Idealize.ShloMosaic.Lib.Pipeline.FrameBody
import Idealize.ShloMosaic.Lib.Pipeline.Value

noncomputable section

namespace Cert.LibStore

open Idealize.ShloMosaic

variable {sig : RefSig} {κ : Kind} {sp : Space} {S : Shape} {e : EltTy} {Val : EltTy → Type} [∀ e, Nonempty (Val e)]

/-- After a list of stores whose LAST one (the head) is through the whole-shape rectangle at zero offsets, the
    buffer reads as that store's payload. -/
theorem read_writes_whole_cons (v : View sig κ sp S e) (f : v.ty.Contents Val) {off : Fin S.rank → Nat}
    (hz : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero hz inb y⟩),
    View.canon_cons_unit_zero hz]

/-- The same for one store. -/
theorem read_writes_whole (v : View sig κ sp S e) (f : v.ty.Contents Val) {off : Fin S.rank → Nat}
    (hz : off = fun _ => 0) (inb : ∀ a, off a + S.size a ≤ S.size a) (w : S.Idx → Val e) :
    v.read Val (v.writes Val f [(⟨Rect.unit off S.size inb, w⟩ : View.Piece Val S e)]) = w :=
  read_writes_whole_cons v f hz inb w []

/-- The offsets `![0, 0]` are the zero offsets. -/
theorem zero2 : (![0, 0] : Fin 2 → Nat) = fun _ => 0 := by
  funext a; fin_cases a <;> rfl

end Cert.LibStore

end
-- ==== Proof.Kernel.Body0.lean ====
/- The first propagation layer's kernel body, run once in each of the three situations a grid point can be in.

   The grid is 8 row tiles by 16 column tiles of `A`, the column tile `k` running fastest. At every point the body
   adds the product of the point's tile of `A` (2048 × 1024) with the matching row tile of the features (1024 × 64)
   into a running sum kept in scratch; at `k = 0` it first sets the running sum to zero, and at `k = 15` it then
   multiplies the finished sum by the weight block and stores the positive part in the output block. So:
   first column tile — the scratch ends at `0 + a · y` whatever it held; a middle one — at `s + a · y` from `s`;
   the last — the same, and the output block at `relu ((s + a · y) · w)`. The three cases are the body's symbolic
   execution with the two conditionals decided; the sums themselves are the payload terms `k0_pay1` (the zeros),
   `k0_pay2` (sum plus product) and `k0_pay3` (the projected, rectified sum), never opened here. Every load and store
   is of a whole buffer, so what a buffer holds afterwards is the last payload stored into it. -/
import proofs.«166696_j11622181503541_1_alg».proof.Proof.Gen.Kernel.Launch
import proofs.«166696_j11622181503541_1_alg».proof.Proof.Gen.Kernel.Skeleton
import proofs.«166696_j11622181503541_1_alg».proof.Proof.Gen.Kernel.Points
import proofs.«166696_j11622181503541_1_alg».proof.Proof.LibStore
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibStore

variable {F : FTy → Type} [FloatOps F]

local notation "𝕄" => MT nD τ sig Unit (Elt F) ℕ (UR sig nD τ) ℕ

/-- The body's first conditional, on the grid coordinates: the column tile is the first. -/
abbrev cond0_0 (i : grid0.Coords) : Prop := (Scalar.cmpi .ne (Scalar.extui (Scalar.cmpi .eq (BitVec.ofNat 32 (i 1).val) 0#32)) 0#32) = 1#1
/-- The body's second conditional: the column tile is the last. -/
abbrev cond0_1 (i : grid0.Coords) : Prop := k0_cond2 i = 1#1

/-- Over the grid's 128 points in order, the column tile is the first exactly at the multiples of 16, -/
theorem hcond0_0 : ∀ t : Fin cfg0.N, cond0_0 (grid0.coords t) ↔ t.val % 16 = 0 :=
  (by decide +kernel : ∀ t : Fin grid0.N, cond0_0 (grid0.coords t) ↔ t.val % 16 = 0)
/-- and the last exactly at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

set_option maxHeartbeats 1000000 in
/-- First column tile: the running sum is reset, then this tile's product added. The weight block and the output
    block are not touched. -/
theorem run0_first (c : Dev nD) (E : Set ℕ) (i : grid0.Coords)
    (arg2 : Memref sig .tc .vmem S2048x1024 .f32) (harg2 : arg2.IsWhole) (arg3 : Memref sig .tc .vmem S1024x64 .f32) (harg3 : arg3.IsWhole)
    (arg4 : Memref sig .tc .vmem S64x64 .f32) (harg4 : arg4.IsWhole) (arg5 : Memref sig .tc .vmem S2048x64 .f32) (harg5 : arg5.IsWhole)
    (arg6 : Memref sig .tc .vmem S2048x64 .f32) (harg6 : arg6.IsWhole)
    (hc0 : cond0_0 i) (hc1 : ¬cond0_1 i)
    (x0 : Vec F S2048x1024 .f32) (x1 : Vec F S1024x64 .f32) (K : PUnit → sProp 𝕄) :
    iprop(owns (c : Thread nD τ) arg2 fullShare x0 ∗ owns (c : Thread nD τ) arg3 fullShare x1
        ∗ (∃ d, owns (c : Thread nD τ) arg6 fullShare d)
        ∗ (iprop(owns (c : Thread nD τ) arg2 fullShare x0 ∗ owns (c : Thread nD τ) arg3 fullShare x1
            ∗ owns (c : Thread nD τ) arg6 fullShare (k0_pay2 x0 x1 k0_pay1)) -∗ K ⟨⟩))
      ⊢ wp frame (wpE (defs₀ (F := F)) Variants.none c none) E (cc0__propagate_kernel i arg2 harg2 arg3 harg3 arg4 harg4 arg5 harg5 arg6 harg6) K := by
  simp only [cc0__propagate_kernel_eq_skeleton]; unfold cc0__propagate_kernel_skel
  unfold owns
  iintro ⟨⟨%f0, %hf0, H0⟩, ⟨%f1, %hf1, H1⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [read_writes_whole_cons _ _ zero2]
  simp only [View.readAt_eq_ld, View.readCov_unit_zero (S := S2048x64) _ zero2, View.ld_unit_zero (S := S2048x64) zero2, View.ld_unit_zero (S := S2048x1024) zero2, View.ld_unit_zero (S := S1024x64) zero2]

set_option maxHeartbeats 1000000 in
/-- A middle column tile: this tile's product is added to the running sum `s`. -/
theorem run0_mid (c : Dev nD) (E : Set ℕ) (i : grid0.Coords)
    (arg2 : Memref sig .tc .vmem S2048x1024 .f32) (harg2 : arg2.IsWhole) (arg3 : Memref sig .tc .vmem S1024x64 .f32) (harg3 : arg3.IsWhole)
    (arg4 : Memref sig .tc .vmem S64x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond0_0 i) (hc1 : ¬cond0_1 i)
    (x0 : Vec F S2048x1024 .f32) (x1 : Vec F S1024x64 .f32) (s : Vec F S2048x64 .f32) (K : PUnit → sProp 𝕄) :
    iprop(owns (c : Thread nD τ) arg2 fullShare x0 ∗ owns (c : Thread nD τ) arg3 fullShare x1
        ∗ owns (c : Thread nD τ) arg6 fullShare s
        ∗ (iprop(owns (c : Thread nD τ) arg2 fullShare x0 ∗ owns (c : Thread nD τ) arg3 fullShare x1
            ∗ owns (c : Thread nD τ) arg6 fullShare (k0_pay2 x0 x1 s)) -∗ K ⟨⟩))
      ⊢ wp frame (wpE (defs₀ (F := F)) Variants.none c none) E (cc0__propagate_kernel i arg2 harg2 arg3 harg3 arg4 harg4 arg5 harg5 arg6 harg6) K := by
  simp only [cc0__propagate_kernel_eq_skeleton]; unfold cc0__propagate_kernel_skel
  unfold owns
  iintro ⟨⟨%f0, %hf0, H0⟩, ⟨%f1, %hf1, H1⟩, ⟨%f6, %hf6, H6⟩, Hk⟩
  subst hf0; subst hf1; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [read_writes_whole _ _ zero2]
  simp only [View.readAt_eq_ld, View.ld_unit_zero (S := S2048x64) zero2, View.ld_unit_zero (S := S2048x1024) zero2, View.ld_unit_zero (S := S1024x64) zero2]

set_option maxHeartbeats 1000000 in
/-- The last column tile: the product is added to the running sum `s`, and the finished sum, multiplied by the
    weight block `x2` and rectified, is stored in the output block. -/
theorem run0_last (c : Dev nD) (E : Set ℕ) (i : grid0.Coords)
    (arg2 : Memref sig .tc .vmem S2048x1024 .f32) (harg2 : arg2.IsWhole) (arg3 : Memref sig .tc .vmem S1024x64 .f32) (harg3 : arg3.IsWhole)
    (arg4 : Memref sig .tc .vmem S64x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond0_0 i) (hc1 : cond0_1 i)
    (x0 : Vec F S2048x1024 .f32) (x1 : Vec F S1024x64 .f32) (x2 : Vec F S64x64 .f32) (s : Vec F S2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 x1 s) x2) ∗ owns (c : Thread nD τ) arg6 fullShare (k0_pay2 x0 x1 s)) -∗ K ⟨⟩))
      ⊢ wp frame (wpE (defs₀ (F := F)) Variants.none c none) E (cc0__propagate_kernel i arg2 harg2 arg3 harg3 arg4 harg4 arg5 harg5 arg6 harg6) K := by
  simp only [cc0__propagate_kernel_eq_skeleton]; unfold cc0__propagate_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [read_writes_whole _ _ zero2]
    simp only [View.readAt_eq_ld, View.readCov_unit_zero (S := S2048x64) _ zero2, View.ld_unit_zero (S := S2048x64) zero2, View.ld_unit_zero (S := S2048x1024) zero2, View.ld_unit_zero (S := S1024x64) zero2, View.ld_unit_zero (S := S64x64) zero2]
  iexists _; isplitr
  swap; · iexact H6
  ipureintro
  sl_unfold_words
  rw [read_writes_whole _ _ zero2]
  simp only [View.readAt_eq_ld, View.ld_unit_zero (S := S2048x64) zero2, View.ld_unit_zero (S := S2048x1024) zero2, View.ld_unit_zero (S := S1024x64) zero2]

end Cert.Kernel.Hand

end
-- ==== Proof.Kernel.Region0.lean ====
/- The first propagation layer as a pipelined region: what every staging buffer and the scratch hold at every grid point.

   Entered with the core's buffers at contents `V`, the region walks the 128 points (row tile `t / 16`, column tile
   `t % 16`). The three input windows' buffers hold their blocks of `V` at every point, fetched there or not. The
   scratch holds the running sum `acc0 n` after point `n`: this point's tile product added to zero at the first
   column tile of a row tile and to what the point before left elsewhere. The output window is idle except at the
   last column tile of each row tile, where its buffer is stored the projected, rectified sum and written back.
   The region invariant is therefore: before the first point, every scoped buffer at some contents; after point
   `n`, the scratch at `acc0 n` and the other scoped buffers at some contents. The body obligation is the case
   analysis on `t % 16` over the three runs of the body. -/
import proofs.«166696_j11622181503541_1_alg».proof.Proof.Gen.Kernel.Launch
import proofs.«166696_j11622181503541_1_alg».proof.Proof.Gen.Kernel.Skeleton
import proofs.«166696_j11622181503541_1_alg».proof.Proof.Gen.Kernel.Points
import proofs.«166696_j11622181503541_1_alg».proof.Proof.LibStore
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«166696_j11622181503541_1_alg».proof.Proof.Kernel.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibStore

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum in scratch after point `n`: this point's tile product added to zero at the first column tile of
    a row tile (`n % 16 = 0`), to the sum the point before left elsewhere. -/
def acc0 (c : Dev nD) : (n : ℕ) → n < cfg0.N → Vec F S2048x64 .f32
  | 0, h => k0_pay2 (iblk0 V c 0 ⟨0, h⟩) (iblk0 V c 1 ⟨0, h⟩) k0_pay1
  | n + 1, h => k0_pay2 (iblk0 V c 0 ⟨n + 1, h⟩) (iblk0 V c 1 ⟨n + 1, h⟩)
      (if (n + 1) % 16 = 0 then k0_pay1 else acc0 c n (Nat.lt_of_succ_lt h))

theorem acc0_reset (c : Dev nD) (n : ℕ) (h : n < cfg0.N) (h0 : n % 16 = 0) :
    acc0 V c n h = k0_pay2 (iblk0 V c 0 ⟨n, h⟩) (iblk0 V c 1 ⟨n, h⟩) k0_pay1 := by
  cases n with
  | zero => rfl
  | succ n => rw [acc0, if_pos h0]

theorem acc0_step (c : Dev nD) (n : ℕ) (h : n + 1 < cfg0.N) (h0 : ¬(n + 1) % 16 = 0) :
    acc0 V c (n + 1) h = k0_pay2 (iblk0 V c 0 ⟨n + 1, h⟩) (iblk0 V c 1 ⟨n + 1, h⟩) (acc0 V c n (Nat.lt_of_succ_lt h)) := by
  rw [acc0, if_neg h0]

/-- The scratch, whole. -/
abbrev scM0 : Memref sig .tc .vmem S2048x64 .f32 := Memref.whole cc0_scratch0

/-- The core's scoped buffers that are neither this region's staging buffers nor its scratch, at some contents. -/
abbrev rest0 (c : Dev nD) : sProp 𝕄 :=
  Pipeline.scopedRestBut (Ix := Unit) (Name := ℕ) (U := UR sig nD τ) (Lvl := ℕ) (Val := Elt F) spec0 c [cc0_scratch0]

/-- Every scoped buffer that is no staging buffer of this region at some contents, with the scratch set apart. -/
theorem PhiA0_eq (c : Dev nD) :
    (Pipeline.ΦA spec0 c : sProp 𝕄)
      = iprop(iprop(∃ d, owns (c : Thread nD τ) scM0 fullShare d) ∗ rest0 c ∗ (∃ r, prngReg c r)) := by
  unfold Pipeline.ΦA
  rw [Pipeline.scopedRest_split_of_list spec0 c [cc0_scratch0] (by decide) (by decide)]
  simp only [scM0, owns_whole, bigSepL_singleton]
  exact BI.equiv_iff.mp ⟨sep_assoc, sep_assoc'⟩

/-! ## Where the output window is idle -/

/-- The input windows are never idle. -/
theorem live0_0 (t : Fin cfg0.N) : cfg0.idle 0 (grid0.coords t) = false := rfl
theorem live0_1 (t : Fin cfg0.N) : cfg0.idle 1 (grid0.coords t) = false := rfl
theorem live0_2 (t : Fin cfg0.N) : cfg0.idle 2 (grid0.coords t) = false := rfl
/-- Away from the last column tile the body stores nothing into the output block, and the block is not written back; -/
theorem idle0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- at the last column tile it is stored. -/
theorem live0_3 : ∀ t : Fin cfg0.N, cond0_1 (grid0.coords t) → cfg0.idle 3 (grid0.coords t) = false := by decide +kernel

/-! ## The invariant and the proof data -/

/-- The region invariant before position `n`: before the first point every scoped buffer that is no staging buffer at
    some contents; afterwards the scratch at the running sum the point before left, the others at some contents. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (acc0 V c n hn) ∗ rest0 c ∗ (∃ r, prngReg c r)) := rfl

theorem PhiS0_pos (c : Dev nD) (n : ℕ) (h : n ≤ cfg0.N) (hz : n ≠ 0) :
    PhiS0 V c n h = iprop(owns (c : Thread nD τ) scM0 fullShare (acc0 V c (n - 1) (by omega)) ∗ rest0 c ∗ (∃ r, prngReg c r)) := by
  cases n with
  | zero => exact absurd rfl hz
  | succ n => rfl

/-- The proof data: the arrays as the region finds them; after the body each input's buffer at its block, the
    output's (where it is stored) at the projected, rectified running sum; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (acc0 V c t.val t.isLt) (iblk0 V c 2 t) := by dsimp only [dat0]

/-- Each input's current staging buffer holds its block at every point, fetched there or not: an input window's
    block index only moves at a point that fetches. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (st0_0 t) fullShare (iblk0 V c 0 t) := by
  unfold Dat.leavesExact; rw [live0_0 t, after0_0]
theorem leaves0_1 (c : Dev nD) (t : Fin cfg0.N) :
    (dat0 V c).leavesExact 1 t = owns (c : Thread nD τ) (st0_1 t) fullShare (iblk0 V c 1 t) := by
  unfold Dat.leavesExact; rw [live0_1 t, after0_1]
theorem leaves0_2 (c : Dev nD) (t : Fin cfg0.N) :
    (dat0 V c).leavesExact 2 t = owns (c : Thread nD τ) (st0_2 t) fullShare (iblk0 V c 2 t) := by
  unfold Dat.leavesExact; rw [live0_2 t, after0_2]

set_option maxHeartbeats 4000000 in
/-- The body at any point, by the column tile: first (`t % 16 = 0`: the scratch is handed over at whatever it holds —
    at the very first point as part of the scoped rest, later at the previous row tile's finished sum — and comes back
    reset and added to), last (`t % 16 = 15`: the scratch at the sum so far, the output block stored) or in between. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 128 := lt_of_lt_of_eq t.isLt (show cfg0.N = 128 from N_0)
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dat0 V c) 3 t (idle0_3 t hc1) (noFlush0_3 t hc1)]
    rw [acc0_reset V c t.val t.isLt h0]
    by_cases hz : t.val = 0
    · rw [PhiS0_castSucc V c t, PhiS0_zero V c _ _ hz, PhiA0_eq]
      iintro ⟨⟨HS, Hr, Hg⟩, Ho, ⟨%d0, H0⟩, ⟨%d1, H1⟩, ⟨%d2, H2⟩, H3⟩
      iapply (run0_first c Set.univ (grid0.coords t) _ _ _ _ _ _ _ _ _ _ hc0 hc1 (iblk0 V c 0 t) (iblk0 V c 1 t) _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · rw [PhiS0_castSucc V c t, PhiS0_pos V c _ _ hz]
      iintro ⟨⟨HS, Hr, Hg⟩, Ho, ⟨%d0, H0⟩, ⟨%d1, H1⟩, ⟨%d2, H2⟩, H3⟩
      iapply (run0_first c Set.univ (grid0.coords t) _ _ _ _ _ _ _ _ _ _ hc0 hc1 (iblk0 V c 0 t) (iblk0 V c 1 t) _)
      isplitl [H0]; · iexact H0
      isplitl [H1]; · iexact H1
      isplitl [HS]; · iexists _; iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
  · have hz : t.val ≠ 0 := fun e => h0 (by rw [e])
    have hc0 : ¬cond0_0 (grid0.coords t) := fun h => h0 ((hcond0_0 t).mp h)
    obtain ⟨n, hn⟩ : ∃ n, t.val = n + 1 := ⟨t.val - 1, by omega⟩
    have hstep : acc0 V c t.val t.isLt
        = k0_pay2 (iblk0 V c 0 t) (iblk0 V c 1 t) (acc0 V c (t.val - 1) (by omega)) := by
      have e : ∀ (u : ℕ) (hu : u < cfg0.N), u = t.val → acc0 V c u hu = acc0 V c t.val t.isLt := fun u hu e => by subst e; rfl
      rw [← e (n + 1) (hn ▸ t.isLt) hn.symm, acc0_step V c n (hn ▸ t.isLt) (hn ▸ h0)]
      have et : (⟨n + 1, hn ▸ t.isLt⟩ : Fin cfg0.N) = t := Fin.ext hn.symm
      have en : n = t.val - 1 := by omega
      subst en
      rw [et]
    rw [PhiS0_castSucc V c t, PhiS0_pos V c _ _ hz]
    by_cases h1 : t.val % 16 = 15
    · have hc1 : cond0_1 (grid0.coords t) := (hcond0_1 t).mpr h1
      rw [show (dat0 V c).leavesExact 3 t = owns (c : Thread nD τ) (st0_3 t) fullShare ((dat0 V c).after 3 t) from by
        unfold Dat.leavesExact; rw [live0_3 t hc1], after0_3]
      rw [hstep]
      iintro ⟨⟨HS, Hr, Hg⟩, Ho, ⟨%d0, H0⟩, ⟨%d1, H1⟩, ⟨%d2, H2⟩, ⟨%d3, H3⟩⟩
      iapply (run0_last c Set.univ (grid0.coords t) _ _ _ _ _ _ _ _ _ _ hc0 hc1 (iblk0 V c 0 t) (iblk0 V c 1 t) (iblk0 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 3 t (idle0_3 t hc1) (noFlush0_3 t hc1)]
      rw [hstep]
      iintro ⟨⟨HS, Hr, Hg⟩, Ho, ⟨%d0, H0⟩, ⟨%d1, H1⟩, ⟨%d2, H2⟩, H3⟩
      iapply (run0_mid c Set.univ (grid0.coords t) _ _ _ _ _ _ _ _ _ _ hc0 hc1 (iblk0 V c 0 t) (iblk0 V c 1 t) _ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- and after the last point the invariant gives it back, the scratch's contents forgotten. -/
theorem hout0 (c : Dev nD) : (dat0 V c).Φ (Fin.last cfg0.N) ⊢ Pipeline.ΦA spec0 c := by
  have hne : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨HS, Hr, Hg⟩
  isplitl [HS]; · iexists _; iexact HS
  isplitl [Hr]; · iexact Hr
  iexact Hg

end Region

end Cert.Kernel.Hand

end
-- ==== Proof.Kernel.Body1.lean ====
/- The second propagation layer's kernel body, run once in each of the three situations a grid point can be in.

   The grid is 8 row tiles by 16 column tiles of `A`, the column tile `k` running fastest. At every point the body
   adds the product of the point's tile of `A` (2048 × 1024) with the matching row tile of the features (1024 × 64)
   into a running sum kept in scratch; at `k = 0` it first sets the running sum to zero, and at `k = 15` it then
   multiplies the finished sum by the weight block and stores the positive part in the output block. So:
   first column tile — the scratch ends at `0 + a · y` whatever it held; a middle one — at `s + a · y` from `s`;
   the last — the same, and the output block at `relu ((s + a · y) · w)`. The three cases are the body's symbolic
   execution with the two conditionals decided; the sums themselves are the payload terms `k1_pay1` (the zeros),
   `k1_pay2` (sum plus product) and `k1_pay3` (the projected, rectified sum), never opened here. Every load and store
   is of a whole buffer, so what a buffer holds afterwards is the last payload stored into it. -/
import proofs.«166696_j11622181503541_1_alg».proof.Proof.Gen.Kernel.Launch
import proofs.«166696_j11622181503541_1_alg».proof.Proof.Gen.Kernel.Skeleton
import proofs.«166696_j11622181503541_1_alg».proof.Proof.Gen.Kernel.Points
import proofs.«166696_j11622181503541_1_alg».proof.Proof.LibStore
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibStore

variable {F : FTy → Type} [FloatOps F]

local notation "𝕄" => MT nD τ sig Unit (Elt F) ℕ (UR sig nD τ) ℕ

/-- The body's first conditional, on the grid coordinates: the column tile is the first. -/
abbrev cond1_0 (i : grid1.Coords) : Prop := (Scalar.cmpi .ne (Scalar.extui (Scalar.cmpi .eq (BitVec.ofNat 32 (i 1).val) 0#32)) 0#32) = 1#1
/-- The body's second conditional: the column tile is the last. -/
abbrev cond1_1 (i : grid1.Coords) : Prop := k1_cond2 i = 1#1

/-- Over the grid's 128 points in order, the column tile is the first exactly at the multiples of 16, -/
theorem hcond1_0 : ∀ t : Fin cfg1.N, cond1_0 (grid1.coords t) ↔ t.val % 16 = 0 :=
  (by decide +kernel : ∀ t : Fin grid1.N, cond1_0 (grid1.coords t) ↔ t.val % 16 = 0)
/-- and the last exactly at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

set_option maxHeartbeats 1000000 in
/-- First column tile: the running sum is reset, then this tile's product added. The weight block and the output
    block are not touched. -/
theorem run1_first (c : Dev nD) (E : Set ℕ) (i : grid1.Coords)
    (arg2 : Memref sig .tc .vmem S2048x1024 .f32) (harg2 : arg2.IsWhole) (arg3 : Memref sig .tc .vmem S1024x64 .f32) (harg3 : arg3.IsWhole)
    (arg4 : Memref sig .tc .vmem S64x64 .f32) (harg4 : arg4.IsWhole) (arg5 : Memref sig .tc .vmem S2048x64 .f32) (harg5 : arg5.IsWhole)
    (arg6 : Memref sig .tc .vmem S2048x64 .f32) (harg6 : arg6.IsWhole)
    (hc0 : cond1_0 i) (hc1 : ¬cond1_1 i)
    (x0 : Vec F S2048x1024 .f32) (x1 : Vec F S1024x64 .f32) (K : PUnit → sProp 𝕄) :
    iprop(owns (c : Thread nD τ) arg2 fullShare x0 ∗ owns (c : Thread nD τ) arg3 fullShare x1
        ∗ (∃ d, owns (c : Thread nD τ) arg6 fullShare d)
        ∗ (iprop(owns (c : Thread nD τ) arg2 fullShare x0 ∗ owns (c : Thread nD τ) arg3 fullShare x1
            ∗ owns (c : Thread nD τ) arg6 fullShare (k1_pay2 x0 x1 k1_pay1)) -∗ K ⟨⟩))
      ⊢ wp frame (wpE (defs₀ (F := F)) Variants.none c none) E (cc1__propagate_kernel i arg2 harg2 arg3 harg3 arg4 harg4 arg5 harg5 arg6 harg6) K := by
  simp only [cc1__propagate_kernel_eq_skeleton]; unfold cc1__propagate_kernel_skel
  unfold owns
  iintro ⟨⟨%f0, %hf0, H0⟩, ⟨%f1, %hf1, H1⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [read_writes_whole_cons _ _ zero2]
  simp only [View.readAt_eq_ld, View.readCov_unit_zero (S := S2048x64) _ zero2, View.ld_unit_zero (S := S2048x64) zero2, View.ld_unit_zero (S := S2048x1024) zero2, View.ld_unit_zero (S := S1024x64) zero2]

set_option maxHeartbeats 1000000 in
/-- A middle column tile: this tile's product is added to the running sum `s`. -/
theorem run1_mid (c : Dev nD) (E : Set ℕ) (i : grid1.Coords)
    (arg2 : Memref sig .tc .vmem S2048x1024 .f32) (harg2 : arg2.IsWhole) (arg3 : Memref sig .tc .vmem S1024x64 .f32) (harg3 : arg3.IsWhole)
    (arg4 : Memref sig .tc .vmem S64x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond1_0 i) (hc1 : ¬cond1_1 i)
    (x0 : Vec F S2048x1024 .f32) (x1 : Vec F S1024x64 .f32) (s : Vec F S2048x64 .f32) (K : PUnit → sProp 𝕄) :
    iprop(owns (c : Thread nD τ) arg2 fullShare x0 ∗ owns (c : Thread nD τ) arg3 fullShare x1
        ∗ owns (c : Thread nD τ) arg6 fullShare s
        ∗ (iprop(owns (c : Thread nD τ) arg2 fullShare x0 ∗ owns (c : Thread nD τ) arg3 fullShare x1
            ∗ owns (c : Thread nD τ) arg6 fullShare (k1_pay2 x0 x1 s)) -∗ K ⟨⟩))
      ⊢ wp frame (wpE (defs₀ (F := F)) Variants.none c none) E (cc1__propagate_kernel i arg2 harg2 arg3 harg3 arg4 harg4 arg5 harg5 arg6 harg6) K := by
  simp only [cc1__propagate_kernel_eq_skeleton]; unfold cc1__propagate_kernel_skel
  unfold owns
  iintro ⟨⟨%f0, %hf0, H0⟩, ⟨%f1, %hf1, H1⟩, ⟨%f6, %hf6, H6⟩, Hk⟩
  subst hf0; subst hf1; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [read_writes_whole _ _ zero2]
  simp only [View.readAt_eq_ld, View.ld_unit_zero (S := S2048x64) zero2, View.ld_unit_zero (S := S2048x1024) zero2, View.ld_unit_zero (S := S1024x64) zero2]

set_option maxHeartbeats 1000000 in
/-- The last column tile: the product is added to the running sum `s`, and the finished sum, multiplied by the
    weight block `x2` and rectified, is stored in the output block. -/
theorem run1_last (c : Dev nD) (E : Set ℕ) (i : grid1.Coords)
    (arg2 : Memref sig .tc .vmem S2048x1024 .f32) (harg2 : arg2.IsWhole) (arg3 : Memref sig .tc .vmem S1024x64 .f32) (harg3 : arg3.IsWhole)
    (arg4 : Memref sig .tc .vmem S64x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond1_0 i) (hc1 : cond1_1 i)
    (x0 : Vec F S2048x1024 .f32) (x1 : Vec F S1024x64 .f32) (x2 : Vec F S64x64 .f32) (s : Vec F S2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x0 x1 s) x2) ∗ owns (c : Thread nD τ) arg6 fullShare (k1_pay2 x0 x1 s)) -∗ K ⟨⟩))
      ⊢ wp frame (wpE (defs₀ (F := F)) Variants.none c none) E (cc1__propagate_kernel i arg2 harg2 arg3 harg3 arg4 harg4 arg5 harg5 arg6 harg6) K := by
  simp only [cc1__propagate_kernel_eq_skeleton]; unfold cc1__propagate_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [read_writes_whole _ _ zero2]
    simp only [View.readAt_eq_ld, View.readCov_unit_zero (S := S2048x64) _ zero2, View.ld_unit_zero (S := S2048x64) zero2, View.ld_unit_zero (S := S2048x1024) zero2, View.ld_unit_zero (S := S1024x64) zero2, View.ld_unit_zero (S := S64x64) zero2]
  iexists _; isplitr
  swap; · iexact H6
  ipureintro
  sl_unfold_words
  rw [read_writes_whole _ _ zero2]
  simp only [View.readAt_eq_ld, View.ld_unit_zero (S := S2048x64) zero2, View.ld_unit_zero (S := S2048x1024) zero2, View.ld_unit_zero (S := S1024x64) zero2]

end Cert.Kernel.Hand

end
-- ==== Proof.Kernel.Region1.lean ====
/- The second propagation layer as a pipelined region: what every staging buffer and the scratch hold at every grid point.

   Entered with the core's buffers at contents `V`, the region walks the 128 points (row tile `t / 16`, column tile
   `t % 16`). The three input windows' buffers hold their blocks of `V` at every point, fetched there or not. The
   scratch holds the running sum `acc1 n` after point `n`: this point's tile product added to zero at the first
   column tile of a row tile and to what the point before left elsewhere. The output window is idle except at the
   last column tile of each row tile, where its buffer is stored the projected, rectified sum and written back.
   The region invariant is therefore: before the first point, every scoped buffer at some contents; after point
   `n`, the scratch at `acc1 n` and the other scoped buffers at some contents. The body obligation is the case
   analysis on `t % 16` over the three runs of the body. -/
import proofs.«166696_j11622181503541_1_alg».proof.Proof.Gen.Kernel.Launch
import proofs.«166696_j11622181503541_1_alg».proof.Proof.Gen.Kernel.Skeleton
import proofs.«166696_j11622181503541_1_alg».proof.Proof.Gen.Kernel.Points
import proofs.«166696_j11622181503541_1_alg».proof.Proof.LibStore
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«166696_j11622181503541_1_alg».proof.Proof.Kernel.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibStore

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running sum in scratch after point `n`: this point's tile product added to zero at the first column tile of
    a row tile (`n % 16 = 0`), to the sum the point before left elsewhere. -/
def acc1 (c : Dev nD) : (n : ℕ) → n < cfg1.N → Vec F S2048x64 .f32
  | 0, h => k1_pay2 (iblk1 V c 0 ⟨0, h⟩) (iblk1 V c 1 ⟨0, h⟩) k1_pay1
  | n + 1, h => k1_pay2 (iblk1 V c 0 ⟨n + 1, h⟩) (iblk1 V c 1 ⟨n + 1, h⟩)
      (if (n + 1) % 16 = 0 then k1_pay1 else acc1 c n (Nat.lt_of_succ_lt h))

theorem acc1_reset (c : Dev nD) (n : ℕ) (h : n < cfg1.N) (h0 : n % 16 = 0) :
    acc1 V c n h = k1_pay2 (iblk1 V c 0 ⟨n, h⟩) (iblk1 V c 1 ⟨n, h⟩) k1_pay1 := by
  cases n with
  | zero => rfl
  | succ n => rw [acc1, if_pos h0]

theorem acc1_step (c : Dev nD) (n : ℕ) (h : n + 1 < cfg1.N) (h0 : ¬(n + 1) % 16 = 0) :
    acc1 V c (n + 1) h = k1_pay2 (iblk1 V c 0 ⟨n + 1, h⟩) (iblk1 V c 1 ⟨n + 1, h⟩) (acc1 V c n (Nat.lt_of_succ_lt h)) := by
  rw [acc1, if_neg h0]

/-- The scratch, whole. -/
abbrev scM1 : Memref sig .tc .vmem S2048x64 .f32 := Memref.whole cc1_scratch0

/-- The core's scoped buffers that are neither this region's staging buffers nor its scratch, at some contents. -/
abbrev rest1 (c : Dev nD) : sProp 𝕄 :=
  Pipeline.scopedRestBut (Ix := Unit) (Name := ℕ) (U := UR sig nD τ) (Lvl := ℕ) (Val := Elt F) spec1 c [cc1_scratch0]

/-- Every scoped buffer that is no staging buffer of this region at some contents, with the scratch set apart. -/
theorem PhiA1_eq (c : Dev nD) :
    (Pipeline.ΦA spec1 c : sProp 𝕄)
      = iprop(iprop(∃ d, owns (c : Thread nD τ) scM1 fullShare d) ∗ rest1 c ∗ (∃ r, prngReg c r)) := by
  unfold Pipeline.ΦA
  rw [Pipeline.scopedRest_split_of_list spec1 c [cc1_scratch0] (by decide) (by decide)]
  simp only [scM1, owns_whole, bigSepL_singleton]
  exact BI.equiv_iff.mp ⟨sep_assoc, sep_assoc'⟩

/-! ## Where the output window is idle -/

/-- The input windows are never idle. -/
theorem live1_0 (t : Fin cfg1.N) : cfg1.idle 0 (grid1.coords t) = false := rfl
theorem live1_1 (t : Fin cfg1.N) : cfg1.idle 1 (grid1.coords t) = false := rfl
theorem live1_2 (t : Fin cfg1.N) : cfg1.idle 2 (grid1.coords t) = false := rfl
/-- Away from the last column tile the body stores nothing into the output block, and the block is not written back; -/
theorem idle1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- at the last column tile it is stored. -/
theorem live1_3 : ∀ t : Fin cfg1.N, cond1_1 (grid1.coords t) → cfg1.idle 3 (grid1.coords t) = false := by decide +kernel

/-! ## The invariant and the proof data -/

/-- The region invariant before position `n`: before the first point every scoped buffer that is no staging buffer at
    some contents; afterwards the scratch at the running sum the point before left, the others at some contents. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ rest1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (acc1 V c n hn) ∗ rest1 c ∗ (∃ r, prngReg c r)) := rfl

theorem PhiS1_pos (c : Dev nD) (n : ℕ) (h : n ≤ cfg1.N) (hz : n ≠ 0) :
    PhiS1 V c n h = iprop(owns (c : Thread nD τ) scM1 fullShare (acc1 V c (n - 1) (by omega)) ∗ rest1 c ∗ (∃ r, prngReg c r)) := by
  cases n with
  | zero => exact absurd rfl hz
  | succ n => rfl

/-- The proof data: the arrays as the region finds them; after the body each input's buffer at its block, the
    output's (where it is stored) at the projected, rectified running sum; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

/-- Each input's current staging buffer holds its block at every point, fetched there or not: an input window's
    block index only moves at a point that fetches. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (st1_0 t) fullShare (iblk1 V c 0 t) := by
  unfold Dat.leavesExact; rw [live1_0 t, after1_0]
theorem leaves1_1 (c : Dev nD) (t : Fin cfg1.N) :
    (dat1 V c).leavesExact 1 t = owns (c : Thread nD τ) (st1_1 t) fullShare (iblk1 V c 1 t) := by
  unfold Dat.leavesExact; rw [live1_1 t, after1_1]
theorem leaves1_2 (c : Dev nD) (t : Fin cfg1.N) :
    (dat1 V c).leavesExact 2 t = owns (c : Thread nD τ) (st1_2 t) fullShare (iblk1 V c 2 t) := by
  unfold Dat.leavesExact; rw [live1_2 t, after1_2]

set_option maxHeartbeats 4000000 in
/-- The body at any point, by the column tile: first (`t % 16 = 0`: the scratch is handed over at whatever it holds —
    at the very first point as part of the scoped rest, later at the previous row tile's finished sum — and comes back
    reset and added to), last (`t % 16 = 15`: the scratch at the sum so far, the output block stored) or in between. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 128 := lt_of_lt_of_eq t.isLt (show cfg1.N = 128 from N_1)
  by_cases h0 : t.val % 16 = 0
  · have h1 : ¬t.val % 16 = 15 := by omega
    have hc0 : cond1_0 (grid1.coords t) := (hcond1_0 t).mpr h0
    have hc1 : ¬cond1_1 (grid1.coords t) := fun h => h1 ((hcond1_1 t).mp h)
    rw [Dat.leavesExact_idle (dat1 V c) 3 t (idle1_3 t hc1) (noFlush1_3 t hc1)]
    rw [acc1_reset V c t.val t.isLt h0]
    by_cases hz : t.val = 0
    · rw [PhiS1_castSucc V c t, PhiS1_zero V c _ _ hz, PhiA1_eq]
      iintro ⟨⟨HS, Hr, Hg⟩, Ho, ⟨%d0, H0⟩, ⟨%d1, H1⟩, ⟨%d2, H2⟩, H3⟩
      iapply (run1_first c Set.univ (grid1.coords t) _ _ _ _ _ _ _ _ _ _ hc0 hc1 (iblk1 V c 0 t) (iblk1 V c 1 t) _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · rw [PhiS1_castSucc V c t, PhiS1_pos V c _ _ hz]
      iintro ⟨⟨HS, Hr, Hg⟩, Ho, ⟨%d0, H0⟩, ⟨%d1, H1⟩, ⟨%d2, H2⟩, H3⟩
      iapply (run1_first c Set.univ (grid1.coords t) _ _ _ _ _ _ _ _ _ _ hc0 hc1 (iblk1 V c 0 t) (iblk1 V c 1 t) _)
      isplitl [H0]; · iexact H0
      isplitl [H1]; · iexact H1
      isplitl [HS]; · iexists _; iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
  · have hz : t.val ≠ 0 := fun e => h0 (by rw [e])
    have hc0 : ¬cond1_0 (grid1.coords t) := fun h => h0 ((hcond1_0 t).mp h)
    obtain ⟨n, hn⟩ : ∃ n, t.val = n + 1 := ⟨t.val - 1, by omega⟩
    have hstep : acc1 V c t.val t.isLt
        = k1_pay2 (iblk1 V c 0 t) (iblk1 V c 1 t) (acc1 V c (t.val - 1) (by omega)) := by
      have e : ∀ (u : ℕ) (hu : u < cfg1.N), u = t.val → acc1 V c u hu = acc1 V c t.val t.isLt := fun u hu e => by subst e; rfl
      rw [← e (n + 1) (hn ▸ t.isLt) hn.symm, acc1_step V c n (hn ▸ t.isLt) (hn ▸ h0)]
      have et : (⟨n + 1, hn ▸ t.isLt⟩ : Fin cfg1.N) = t := Fin.ext hn.symm
      have en : n = t.val - 1 := by omega
      subst en
      rw [et]
    rw [PhiS1_castSucc V c t, PhiS1_pos V c _ _ hz]
    by_cases h1 : t.val % 16 = 15
    · have hc1 : cond1_1 (grid1.coords t) := (hcond1_1 t).mpr h1
      rw [show (dat1 V c).leavesExact 3 t = owns (c : Thread nD τ) (st1_3 t) fullShare ((dat1 V c).after 3 t) from by
        unfold Dat.leavesExact; rw [live1_3 t hc1], after1_3]
      rw [hstep]
      iintro ⟨⟨HS, Hr, Hg⟩, Ho, ⟨%d0, H0⟩, ⟨%d1, H1⟩, ⟨%d2, H2⟩, ⟨%d3, H3⟩⟩
      iapply (run1_last c Set.univ (grid1.coords t) _ _ _ _ _ _ _ _ _ _ hc0 hc1 (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idle1_3 t hc1) (noFlush1_3 t hc1)]
      rw [hstep]
      iintro ⟨⟨HS, Hr, Hg⟩, Ho, ⟨%d0, H0⟩, ⟨%d1, H1⟩, ⟨%d2, H2⟩, H3⟩
      iapply (run1_mid c Set.univ (grid1.coords t) _ _ _ _ _ _ _ _ _ _ hc0 hc1 (iblk1 V c 0 t) (iblk1 V c 1 t) _ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- and after the last point the invariant gives it back, the scratch's contents forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨HS, Hr, Hg⟩
  isplitl [HS]; · iexists _; iexact HS
  isplitl [Hr]; · iexact Hr
  iexact Hg

end Region

end Cert.Kernel.Hand

end
-- ==== Proof.Kernel.Region2.lean ====
/- The edge scorer as a pipelined region.

   The grid is 128 tiles of 8192 edges. At each point the body reads the tile's two blocks of gathered endpoint
   features (8192 × 64 each) and the four small operands, held whole (the two halves of the first linear map, its
   bias row, the second linear map's column), and stores the tile's 8192 scores into the output block, which is
   written back at every point. Nothing is kept between points, so the region invariant is the untouched scoped
   rest, and the body obligation is the one run of the body: the output block ends at the payload `k2_pay1` of the six
   blocks, never opened here. -/
import proofs.«166696_j11622181503541_1_alg».proof.Proof.Gen.Kernel.Launch
import proofs.«166696_j11622181503541_1_alg».proof.Proof.Gen.Kernel.Skeleton
import proofs.«166696_j11622181503541_1_alg».proof.Proof.Gen.Kernel.Points
import proofs.«166696_j11622181503541_1_alg».proof.Proof.LibStore
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibStore

variable {F : FTy → Type} [FloatOps F]

local notation "𝕄" => MT nD τ sig Unit (Elt F) ℕ (UR sig nD τ) ℕ

set_option maxHeartbeats 1000000 in
/-- The body on whole staging buffers: the six inputs stay as they are, the output block ends at the scores. -/
theorem run2 (c : Dev nD) (E : Set ℕ) (i : grid2.Coords)
    (arg1 : Memref sig .tc .vmem S8192x64 .f32) (harg1 : arg1.IsWhole) (arg2 : Memref sig .tc .vmem S8192x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x1 .f32) (harg6 : arg6.IsWhole)
    (arg7 : Memref sig .tc .vmem S8192x1 .f32) (harg7 : arg7.IsWhole)
    (x0 x1 : Vec F S8192x64 .f32) (x2 x3 : Vec F S64x64 .f32) (x4 : Vec F S1x64 .f32) (x5 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k2_pay1 x0 x1 x2 x3 x4 x5)) -∗ K ⟨⟩))
      ⊢ wp frame (wpE (defs₀ (F := F)) Variants.none c none) E (cc2__scorer_kernel i arg1 harg1 arg2 harg2 arg3 harg3 arg4 harg4 arg5 harg5 arg6 harg6 arg7 harg7) K := by
  simp only [cc2__scorer_kernel_eq_skeleton]; unfold cc2__scorer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  rw [read_writes_whole _ _ zero2]
  simp only [View.readAt_eq_ld, View.ld_unit_zero (S := S8192x64) zero2, View.ld_unit_zero (S := S64x64) zero2, View.ld_unit_zero (S := S1x64) zero2, View.ld_unit_zero (S := S64x1) zero2]

section Region

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data: the arrays as the region finds them; after the body each input's buffer at its block, the output's
    at the tile's scores; the untouched scoped rest as invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay1 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = k2_pay1 (iblk2 V c 0 t) (iblk2 V c 1 t) (iblk2 V c 2 t) (iblk2 V c 3 t) (iblk2 V c 4 t) (iblk2 V c 5 t) := by
  dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 2000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.Kernel.Run.lean ====
/- The whole program's run: @main as four stretches of host operations around the three regions.

   Between two items every unscoped buffer of the core is held at named contents: the launch memory, then each host
   stretch's operations applied in order, then, after a region, its arrays at what its write-backs leave (an input
   array as entered, the output array as the region's proof data compute it) and every other buffer untouched. The
   generator register and the fact that the core owes nothing ride along. Each region is entered by splitting its
   arrays out of the unscoped buffers and handing the scoped rest and the generator register to its invariant, and
   left by putting them back. The run ends with every unscoped buffer at the last boundary's contents, which the
   frame claim and the value claim then read. -/
import proofs.«166696_j11622181503541_1_alg».proof.Proof.Gen.Kernel.Launch
import proofs.«166696_j11622181503541_1_alg».proof.Proof.Gen.Kernel.Skeleton
import proofs.«166696_j11622181503541_1_alg».proof.Proof.Gen.Kernel.Points
import proofs.«166696_j11622181503541_1_alg».proof.Proof.LibStore
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«166696_j11622181503541_1_alg».proof.Proof.Gen.Kernel.Regions
import proofs.«166696_j11622181503541_1_alg».proof.Proof.Kernel.Region0
import proofs.«166696_j11622181503541_1_alg».proof.Proof.Kernel.Region1
import proofs.«166696_j11622181503541_1_alg».proof.Proof.Kernel.Region2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibStore

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev at0 : Dev nD → Valuation τ sig (Elt F) := fun c b => m (c, b)
/-- After the first host stretch (region 0's entry). -/
abbrev at1 : Dev nD → Valuation τ sig (Elt F) := fun c => StableHlo.after hostOps0 (at0 m c)
abbrev in1 : (c : Dev nD) → (b : Ref sig .tc) → Buf (Elt F) ((c : Thread nD τ).loc b) := fun c b => at1 m c b

/-- At region 0's exit: its arrays at what the write-backs leave, every other buffer as entered. -/
def at2 (c : Dev nD) : Valuation τ sig (Elt F) :=
  Pipeline.withArrays spec0 c (at1 m c) fun w => (dat0 (in1 m) c).arrAt w cfg0.N
theorem at2_arr (c : Dev nD) (w : Fin cfg0.W) :
    at2 m c (Proc.devRef .tc (Pipeline.arrRef spec0 w)) = (dat0 (in1 m) c).arrAt w cfg0.N := by
  unfold at2; exact Pipeline.withArrays_arr spec0 launch0.win.arr_inj c _ _ w
theorem at2_of_ne (c : Dev nD) (b : Ref sig .tc) (hb : ∀ w, Pipeline.arrRef spec0 w ≠ b) :
    at2 m c (Proc.devRef .tc b) = at1 m c (Proc.devRef .tc b) := by
  unfold at2; exact Pipeline.withArrays_of_ne spec0 c _ _ b hb
/-- The same read at the TensorCore's references. -/
abbrev out2 : (c : Dev nD) → (b : Ref sig .tc) → Buf (Elt F) ((c : Thread nD τ).loc b) := fun c b => at2 m c b
theorem hF0 (c : Dev nD) (w : Fin cfg0.W) : (dat0 (in1 m) c).arrAt w cfg0.N = out2 m c (Pipeline.arrRef spec0 w) :=
  (at2_arr m c w).symm
theorem hrest0 (c : Dev nD) : ∀ b, b ∉ Finset.univ.image (Pipeline.arrRef spec0) → out2 m c b = in1 m c b :=
  fun b hb => at2_of_ne m c b fun w e => hb (Finset.mem_image.mpr ⟨w, Finset.mem_univ _, e⟩)

/-- After the second host stretch (region 1's entry). -/
abbrev at3 : Dev nD → Valuation τ sig (Elt F) := fun c => StableHlo.after hostOps1 (at2 m c)
abbrev in3 : (c : Dev nD) → (b : Ref sig .tc) → Buf (Elt F) ((c : Thread nD τ).loc b) := fun c b => at3 m c b

/-- At region 1's exit: its arrays at what the write-backs leave, every other buffer as entered. -/
def at4 (c : Dev nD) : Valuation τ sig (Elt F) :=
  Pipeline.withArrays spec1 c (at3 m c) fun w => (dat1 (in3 m) c).arrAt w cfg1.N
theorem at4_arr (c : Dev nD) (w : Fin cfg1.W) :
    at4 m c (Proc.devRef .tc (Pipeline.arrRef spec1 w)) = (dat1 (in3 m) c).arrAt w cfg1.N := by
  unfold at4; exact Pipeline.withArrays_arr spec1 launch1.win.arr_inj c _ _ w
theorem at4_of_ne (c : Dev nD) (b : Ref sig .tc) (hb : ∀ w, Pipeline.arrRef spec1 w ≠ b) :
    at4 m c (Proc.devRef .tc b) = at3 m c (Proc.devRef .tc b) := by
  unfold at4; exact Pipeline.withArrays_of_ne spec1 c _ _ b hb
/-- The same read at the TensorCore's references. -/
abbrev out4 : (c : Dev nD) → (b : Ref sig .tc) → Buf (Elt F) ((c : Thread nD τ).loc b) := fun c b => at4 m c b
theorem hF1 (c : Dev nD) (w : Fin cfg1.W) : (dat1 (in3 m) c).arrAt w cfg1.N = out4 m c (Pipeline.arrRef spec1 w) :=
  (at4_arr m c w).symm
theorem hrest1 (c : Dev nD) : ∀ b, b ∉ Finset.univ.image (Pipeline.arrRef spec1) → out4 m c b = in3 m c b :=
  fun b hb => at4_of_ne m c b fun w e => hb (Finset.mem_image.mpr ⟨w, Finset.mem_univ _, e⟩)

/-- After the third host stretch (region 2's entry). -/
abbrev at5 : Dev nD → Valuation τ sig (Elt F) := fun c => StableHlo.after hostOps2 (at4 m c)
abbrev in5 : (c : Dev nD) → (b : Ref sig .tc) → Buf (Elt F) ((c : Thread nD τ).loc b) := fun c b => at5 m c b

/-- At region 2's exit: its arrays at what the write-backs leave, every other buffer as entered. -/
def at6 (c : Dev nD) : Valuation τ sig (Elt F) :=
  Pipeline.withArrays spec2 c (at5 m c) fun w => (dat2 (in5 m) c).arrAt w cfg2.N
theorem at6_arr (c : Dev nD) (w : Fin cfg2.W) :
    at6 m c (Proc.devRef .tc (Pipeline.arrRef spec2 w)) = (dat2 (in5 m) c).arrAt w cfg2.N := by
  unfold at6; exact Pipeline.withArrays_arr spec2 launch2.win.arr_inj c _ _ w
theorem at6_of_ne (c : Dev nD) (b : Ref sig .tc) (hb : ∀ w, Pipeline.arrRef spec2 w ≠ b) :
    at6 m c (Proc.devRef .tc b) = at5 m c (Proc.devRef .tc b) := by
  unfold at6; exact Pipeline.withArrays_of_ne spec2 c _ _ b hb
/-- The same read at the TensorCore's references. -/
abbrev out6 : (c : Dev nD) → (b : Ref sig .tc) → Buf (Elt F) ((c : Thread nD τ).loc b) := fun c b => at6 m c b
theorem hF2 (c : Dev nD) (w : Fin cfg2.W) : (dat2 (in5 m) c).arrAt w cfg2.N = out6 m c (Pipeline.arrRef spec2 w) :=
  (at6_arr m c w).symm
theorem hrest2 (c : Dev nD) : ∀ b, b ∉ Finset.univ.image (Pipeline.arrRef spec2) → out6 m c b = in5 m c b :=
  fun b hb => at6_of_ne m c b fun w e => hb (Finset.mem_image.mpr ⟨w, Finset.mem_univ _, e⟩)

/-- After the last host stretch: the program's end. -/
abbrev at7 : Dev nD → Valuation τ sig (Elt F) := fun c => StableHlo.after hostOps3 (at6 m c)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (in1 m) c
  | ⟨1, _⟩ => fun c => dat1 (in3 m) c
  | ⟨2, _⟩ => fun c => dat2 (in5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (at7 m c) ∗ ∃ r, prngReg c r)

/-! ## The regions as segments -/

set_option backward.isDefEq.respectTransparency.types false in
/-- Region 0 over the thread state: entered from every unscoped buffer at `at1`, left at `at2`. Its arrays are split
    out of the unscoped buffers and put back at their final contents; the generator register goes into the region
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (in1 m) c).loose
  hwaits := Pipeline.hwaits_of_owed_zero _ _ _ _ L lv 0 fun _ _ => rfl
  pre c := iprop(StableHlo.held (c : Thread nD τ) (Pipeline.ucRefs τ sig) (at1 m c) ∗ R c)
  post c := iprop(StableHlo.held (c : Thread nD τ) (Pipeline.ucRefs τ sig) (at2 m c) ∗ R c)
  X c := iprop(∃ r, prngReg c r)
  Y c := iprop(∃ r, prngReg c r)
  Z c := Pipeline.unscopedRest (Ix := Unit) (Name := ℕ) (U := UR sig nD τ) (Lvl := ℕ) spec0 c (in1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (in1 m) c
    unfold Pipeline.ΦA at h
    rw [show (pdats m 0 c).Φ 0 = (dat0 (in1 m) c).Φ 0 from rfl]
    iintro ⟨Hp, -, Hr⟩
    iapply h
    isplitl [Hr]; · iexact Hr
    iexact Hp
  hout c := by
    rw [Pipeline.ownSems0_none]
    have h := hout0 (in1 m) c
    unfold Pipeline.ΦA at h
    have h2 : (iprop(Pipeline.scopedRest (Ix := Unit) (Name := ℕ) (U := UR sig nD τ) (Lvl := ℕ) (Val := Elt F) spec0 c ∗ ∃ r, prngReg c r) : sProp 𝕄)
        ⊢ iprop((∃ r, prngReg c r) ∗ BI.emp ∗ Pipeline.scopedRest (Ix := Unit) (Name := ℕ) (U := UR sig nD τ) (Lvl := ℕ) (Val := Elt F) spec0 c) := by
      iintro ⟨Hr, Hp⟩
      isplitl [Hp]; · iexact Hp
      isplitr; · iempintro
      iexact Hr
    exact h.trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (in1 m c) (out2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `at3`, left at `at4`. Its arrays are split
    out of the unscoped buffers and put back at their final contents; the generator register goes into the region
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (in3 m) c).loose
  hwaits := Pipeline.hwaits_of_owed_zero _ _ _ _ L lv 1 fun _ _ => rfl
  pre c := iprop(StableHlo.held (c : Thread nD τ) (Pipeline.ucRefs τ sig) (at3 m c) ∗ R c)
  post c := iprop(StableHlo.held (c : Thread nD τ) (Pipeline.ucRefs τ sig) (at4 m c) ∗ R c)
  X c := iprop(∃ r, prngReg c r)
  Y c := iprop(∃ r, prngReg c r)
  Z c := Pipeline.unscopedRest (Ix := Unit) (Name := ℕ) (U := UR sig nD τ) (Lvl := ℕ) spec1 c (in3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (in3 m) c
    unfold Pipeline.ΦA at h
    rw [show (pdats m 1 c).Φ 0 = (dat1 (in3 m) c).Φ 0 from rfl]
    iintro ⟨Hp, -, Hr⟩
    iapply h
    isplitl [Hr]; · iexact Hr
    iexact Hp
  hout c := by
    rw [Pipeline.ownSems0_none]
    have h := hout1 (in3 m) c
    unfold Pipeline.ΦA at h
    have h2 : (iprop(Pipeline.scopedRest (Ix := Unit) (Name := ℕ) (U := UR sig nD τ) (Lvl := ℕ) (Val := Elt F) spec1 c ∗ ∃ r, prngReg c r) : sProp 𝕄)
        ⊢ iprop((∃ r, prngReg c r) ∗ BI.emp ∗ Pipeline.scopedRest (Ix := Unit) (Name := ℕ) (U := UR sig nD τ) (Lvl := ℕ) (Val := Elt F) spec1 c) := by
      iintro ⟨Hr, Hp⟩
      isplitl [Hp]; · iexact Hp
      isplitr; · iempintro
      iexact Hr
    exact h.trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in3 m c) (out4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `at5`, left at `at6`. Its arrays are split
    out of the unscoped buffers and put back at their final contents; the generator register goes into the region
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (in5 m) c).loose
  hwaits := Pipeline.hwaits_of_owed_zero _ _ _ _ L lv 2 fun _ _ => rfl
  pre c := iprop(StableHlo.held (c : Thread nD τ) (Pipeline.ucRefs τ sig) (at5 m c) ∗ R c)
  post c := iprop(StableHlo.held (c : Thread nD τ) (Pipeline.ucRefs τ sig) (at6 m c) ∗ R c)
  X c := iprop(∃ r, prngReg c r)
  Y c := iprop(∃ r, prngReg c r)
  Z c := Pipeline.unscopedRest (Ix := Unit) (Name := ℕ) (U := UR sig nD τ) (Lvl := ℕ) spec2 c (in5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (in5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (in5 m c) (out6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven items in order. -/
abbrev segs : List (Pipeline.Seg (pcfgs (F := F)) adm (pdats m) () defs₀ 𝒱₀ L lv) :=
  [ .host (hseg hostOps0 hostOps0_sub hostOps0_fresh (at0 m)),
    .region (reg0 m),
    .host (hseg hostOps1 hostOps1_sub hostOps1_fresh (at2 m)),
    .region (reg1 m),
    .host (hseg hostOps2 hostOps2_sub hostOps2_fresh (at4 m)),
    .region (reg2 m),
    .host (hseg hostOps3 hostOps3_sub hostOps3_fresh (at6 m)) ]
/-- @main is the run of these items. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = at7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (at7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at7 m c b)
    (hfin := fun c s' => by
      iintro ⟨⟨Hh, -⟩, HSI⟩
      unfold StableHlo.held
      imodintro
      iapply (pointsTo_read_all (Pipeline.ucRefs τ sig) (fun b => (((c : Thread nD τ)).1, b)) (at7 m c) s')
      isplitl [Hh] <;> iassumption)
    (hQ := fun s h c => h c)

end Cert.Kernel.Hand

end
-- ==== Proof.Kernel.Ends.lean ====
/- What the run ends with, read off the last boundary: the arguments, and where the results sit.

   A region changes only its output array (its input windows' arrays end as entered), and a host stretch only the
   buffers its operations write. So a buffer that no host stretch writes and that is no region's output ends at its
   launch contents: every argument array does. The scores end at what the scorer's region leaves in its output array,
   the second result is the argument `A` itself, the third the constant the last host operation writes. -/
import proofs.«166696_j11622181503541_1_alg».proof.Proof.Gen.Kernel.Launch
import proofs.«166696_j11622181503541_1_alg».proof.Proof.Gen.Kernel.Skeleton
import proofs.«166696_j11622181503541_1_alg».proof.Proof.Gen.Kernel.Points
import proofs.«166696_j11622181503541_1_alg».proof.Proof.LibStore
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«166696_j11622181503541_1_alg».proof.Proof.Kernel.Run
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibStore

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0 changes its output array `main_v1` only: an input window's array ends as entered, any other buffer is untouched. -/
theorem at2_keep (c : Dev nD) (b : Ref sig .tc) (hb : b ≠ main_v1) :
    at2 m c (Proc.devRef .tc b) = at1 m c (Proc.devRef .tc b) := by
  by_cases h : ∃ w, Pipeline.arrRef spec0 w = b
  · obtain ⟨w, rfl⟩ := h
    rw [at2_arr]
    have hin : (cfg0.win w).isOut = false := by
      revert hb
      fin_cases w <;> intro hb <;> first | rfl | exact absurd rfl hb
    exact ((dat0 (in1 m) c).arrAt_in w hin _).trans (A_eq0 (in1 m) c w)
  · exact at2_of_ne m c b fun w e => h ⟨w, e⟩

/-- Region 1 changes its output array `main_v3` only: an input window's array ends as entered, any other buffer is untouched. -/
theorem at4_keep (c : Dev nD) (b : Ref sig .tc) (hb : b ≠ main_v3) :
    at4 m c (Proc.devRef .tc b) = at3 m c (Proc.devRef .tc b) := by
  by_cases h : ∃ w, Pipeline.arrRef spec1 w = b
  · obtain ⟨w, rfl⟩ := h
    rw [at4_arr]
    have hin : (cfg1.win w).isOut = false := by
      revert hb
      fin_cases w <;> intro hb <;> first | rfl | exact absurd rfl hb
    exact ((dat1 (in3 m) c).arrAt_in w hin _).trans (A_eq1 (in3 m) c w)
  · exact at4_of_ne m c b fun w e => h ⟨w, e⟩

/-- Region 2 changes its output array `main_v24` only: an input window's array ends as entered, any other buffer is untouched. -/
theorem at6_keep (c : Dev nD) (b : Ref sig .tc) (hb : b ≠ main_v24) :
    at6 m c (Proc.devRef .tc b) = at5 m c (Proc.devRef .tc b) := by
  by_cases h : ∃ w, Pipeline.arrRef spec2 w = b
  · obtain ⟨w, rfl⟩ := h
    rw [at6_arr]
    have hin : (cfg2.win w).isOut = false := by
      revert hb
      fin_cases w <;> intro hb <;> first | rfl | exact absurd rfl hb
    exact ((dat2 (in5 m) c).arrAt_in w hin _).trans (A_eq2 (in5 m) c w)
  · exact at6_of_ne m c b fun w e => h ⟨w, e⟩

/-- A buffer no host stretch writes and no region outputs ends at its launch contents. -/
theorem at7_untouched (c : Dev nD) (b : Ref sig .tc) (h0 : b ∉ hostOps0_W) (h1 : b ∉ hostOps1_W) (h2 : b ∉ hostOps2_W)
    (h3 : b ∉ hostOps3_W) (hv1 : b ≠ main_v1) (hv3 : b ≠ main_v3) (hv24 : b ≠ main_v24) :
    at7 m c (Proc.devRef .tc b) = m ((c : Thread nD τ).loc b) :=
  (StableHlo.after_of_writes_sub hostOps3 _ hostOps3_writes h3).trans <|
  (at6_keep m c b hv24).trans <|
  (StableHlo.after_of_writes_sub hostOps2 _ hostOps2_writes h2).trans <|
  (at4_keep m c b hv3).trans <|
  (StableHlo.after_of_writes_sub hostOps1 _ hostOps1_writes h1).trans <|
  (at2_keep m c b hv1).trans <|
  (StableHlo.after_of_writes_sub hostOps0 _ hostOps0_writes h0).trans rfl

/-- THE FRAME: every weakly fair execution terminates, nothing faulting, and every argument array ends unchanged. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (at7_untouched m c main_arg0 (by decide) (by decide) (by decide) (by decide) (by decide) (by decide) (by decide)),
     (h c _ (mem_uc main_arg1 (by decide))).trans (at7_untouched m c main_arg1 (by decide) (by decide) (by decide) (by decide) (by decide) (by decide) (by decide)),
     (h c _ (mem_uc main_arg2 (by decide))).trans (at7_untouched m c main_arg2 (by decide) (by decide) (by decide) (by decide) (by decide) (by decide) (by decide)),
     (h c _ (mem_uc main_arg3 (by decide))).trans (at7_untouched m c main_arg3 (by decide) (by decide) (by decide) (by decide) (by decide) (by decide) (by decide)),
     (h c _ (mem_uc main_arg4 (by decide))).trans (at7_untouched m c main_arg4 (by decide) (by decide) (by decide) (by decide) (by decide) (by decide) (by decide)),
     (h c _ (mem_uc main_arg5 (by decide))).trans (at7_untouched m c main_arg5 (by decide) (by decide) (by decide) (by decide) (by decide) (by decide) (by decide)),
     (h c _ (mem_uc main_arg6 (by decide))).trans (at7_untouched m c main_arg6 (by decide) (by decide) (by decide) (by decide) (by decide) (by decide) (by decide)),
     (h c _ (mem_uc main_arg7 (by decide))).trans (at7_untouched m c main_arg7 (by decide) (by decide) (by decide) (by decide) (by decide) (by decide) (by decide)),
     (h c _ (mem_uc main_arg8 (by decide))).trans (at7_untouched m c main_arg8 (by decide) (by decide) (by decide) (by decide) (by decide) (by decide) (by decide))⟩)
    (run_all m ρ)

/-- The scores end at what the scorer's region leaves in its output array. -/
theorem at7_scores (c : Dev nD) : at7 m c (Proc.devRef .tc main_v24) = (dat2 (in5 m) c).arrAt 6 cfg2.N :=
  (StableHlo.after_of_writes_sub hostOps3 _ hostOps3_writes (by decide)).trans (at6_arr m c 6)

end Cert.Kernel.Hand

end
-- ==== Proof.KernelIdeal.Body0.lean ====
/- The first propagation layer's kernel body, run once in each of the three situations a grid point can be in.

   The grid is 8 row tiles by 16 column tiles of `A`, the column tile `k` running fastest. At every point the body
   adds the product of the point's tile of `A` (2048 × 1024) with the matching row tile of the features (1024 × 64)
   into a running sum kept in scratch; at `k = 0` it first sets the running sum to zero, and at `k = 15` it then
   multiplies the finished sum by the weight block and stores the positive part in the output block. So:
   first column tile — the scratch ends at `0 + a · y` whatever it held; a middle one — at `s + a · y` from `s`;
   the last — the same, and the output block at `relu ((s + a · y) · w)`. The three cases are the body's symbolic
   execution with the two conditionals decided; the sums themselves are the payload terms `k0_pay1` (the zeros),
   `k0_pay2` (sum plus product) and `k0_pay3` (the projected, rectified sum), never opened here. Every load and store
   is of a whole buffer, so what a buffer holds afterwards is the last payload stored into it. -/
import proofs.«166696_j11622181503541_1_alg».proof.Proof.Gen.KernelIdeal.Launch
import proofs.«166696_j11622181503541_1_alg».proof.Proof.Gen.KernelIdeal.Skeleton
import proofs.«166696_j11622181503541_1_alg».proof.Proof.Gen.KernelIdeal.Points
import proofs.«166696_j11622181503541_1_alg».proof.Proof.LibStore
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibStore

variable {F : FTy → Type} [FloatOps F]

local notation "𝕄" => MT nD τ sig Unit (Elt F) ℕ (UR sig nD τ) ℕ

/-- The body's first conditional, on the grid coordinates: the column tile is the first. -/
abbrev cond0_0 (i : grid0.Coords) : Prop := (Scalar.cmpi .ne (Scalar.extui (Scalar.cmpi .eq (BitVec.ofNat 32 (i 1).val) 0#32)) 0#32) = 1#1
/-- The body's second conditional: the column tile is the last. -/
abbrev cond0_1 (i : grid0.Coords) : Prop := k0_cond2 i = 1#1

/-- Over the grid's 128 points in order, the column tile is the first exactly at the multiples of 16, -/
theorem hcond0_0 : ∀ t : Fin cfg0.N, cond0_0 (grid0.coords t) ↔ t.val % 16 = 0 :=
  (by decide +kernel : ∀ t : Fin grid0.N, cond0_0 (grid0.coords t) ↔ t.val % 16 = 0)
/-- and the last exactly at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

set_option maxHeartbeats 1000000 in
/-- First column tile: the running sum is reset, then this tile's product added. The weight block and the output
    block are not touched. -/
theorem run0_first (c : Dev nD) (E : Set ℕ) (i : grid0.Coords)
    (arg2 : Memref sig .tc .vmem S2048x1024 .f32) (harg2 : arg2.IsWhole) (arg3 : Memref sig .tc .vmem S1024x64 .f32) (harg3 : arg3.IsWhole)
    (arg4 : Memref sig .tc .vmem S64x64 .f32) (harg4 : arg4.IsWhole) (arg5 : Memref sig .tc .vmem S2048x64 .f32) (harg5 : arg5.IsWhole)
    (arg6 : Memref sig .tc .vmem S2048x64 .f32) (harg6 : arg6.IsWhole)
    (hc0 : cond0_0 i) (hc1 : ¬cond0_1 i)
    (x0 : Vec F S2048x1024 .f32) (x1 : Vec F S1024x64 .f32) (K : PUnit → sProp 𝕄) :
    iprop(owns (c : Thread nD τ) arg2 fullShare x0 ∗ owns (c : Thread nD τ) arg3 fullShare x1
        ∗ (∃ d, owns (c : Thread nD τ) arg6 fullShare d)
        ∗ (iprop(owns (c : Thread nD τ) arg2 fullShare x0 ∗ owns (c : Thread nD τ) arg3 fullShare x1
            ∗ owns (c : Thread nD τ) arg6 fullShare (k0_pay2 x0 x1 k0_pay1)) -∗ K ⟨⟩))
      ⊢ wp frame (wpE (defs₀ (F := F)) Variants.none c none) E (cc0__propagate_kernel i arg2 harg2 arg3 harg3 arg4 harg4 arg5 harg5 arg6 harg6) K := by
  simp only [cc0__propagate_kernel_eq_skeleton]; unfold cc0__propagate_kernel_skel
  unfold owns
  iintro ⟨⟨%f0, %hf0, H0⟩, ⟨%f1, %hf1, H1⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [read_writes_whole_cons _ _ zero2]
  simp only [View.readAt_eq_ld, View.readCov_unit_zero (S := S2048x64) _ zero2, View.ld_unit_zero (S := S2048x64) zero2, View.ld_unit_zero (S := S2048x1024) zero2, View.ld_unit_zero (S := S1024x64) zero2]

set_option maxHeartbeats 1000000 in
/-- A middle column tile: this tile's product is added to the running sum `s`. -/
theorem run0_mid (c : Dev nD) (E : Set ℕ) (i : grid0.Coords)
    (arg2 : Memref sig .tc .vmem S2048x1024 .f32) (harg2 : arg2.IsWhole) (arg3 : Memref sig .tc .vmem S1024x64 .f32) (harg3 : arg3.IsWhole)
    (arg4 : Memref sig .tc .vmem S64x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond0_0 i) (hc1 : ¬cond0_1 i)
    (x0 : Vec F S2048x1024 .f32) (x1 : Vec F S1024x64 .f32) (s : Vec F S2048x64 .f32) (K : PUnit → sProp 𝕄) :
    iprop(owns (c : Thread nD τ) arg2 fullShare x0 ∗ owns (c : Thread nD τ) arg3 fullShare x1
        ∗ owns (c : Thread nD τ) arg6 fullShare s
        ∗ (iprop(owns (c : Thread nD τ) arg2 fullShare x0 ∗ owns (c : Thread nD τ) arg3 fullShare x1
            ∗ owns (c : Thread nD τ) arg6 fullShare (k0_pay2 x0 x1 s)) -∗ K ⟨⟩))
      ⊢ wp frame (wpE (defs₀ (F := F)) Variants.none c none) E (cc0__propagate_kernel i arg2 harg2 arg3 harg3 arg4 harg4 arg5 harg5 arg6 harg6) K := by
  simp only [cc0__propagate_kernel_eq_skeleton]; unfold cc0__propagate_kernel_skel
  unfold owns
  iintro ⟨⟨%f0, %hf0, H0⟩, ⟨%f1, %hf1, H1⟩, ⟨%f6, %hf6, H6⟩, Hk⟩
  subst hf0; subst hf1; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [read_writes_whole _ _ zero2]
  simp only [View.readAt_eq_ld, View.ld_unit_zero (S := S2048x64) zero2, View.ld_unit_zero (S := S2048x1024) zero2, View.ld_unit_zero (S := S1024x64) zero2]

set_option maxHeartbeats 1000000 in
/-- The last column tile: the product is added to the running sum `s`, and the finished sum, multiplied by the
    weight block `x2` and rectified, is stored in the output block. -/
theorem run0_last (c : Dev nD) (E : Set ℕ) (i : grid0.Coords)
    (arg2 : Memref sig .tc .vmem S2048x1024 .f32) (harg2 : arg2.IsWhole) (arg3 : Memref sig .tc .vmem S1024x64 .f32) (harg3 : arg3.IsWhole)
    (arg4 : Memref sig .tc .vmem S64x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond0_0 i) (hc1 : cond0_1 i)
    (x0 : Vec F S2048x1024 .f32) (x1 : Vec F S1024x64 .f32) (x2 : Vec F S64x64 .f32) (s : Vec F S2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 x1 s) x2) ∗ owns (c : Thread nD τ) arg6 fullShare (k0_pay2 x0 x1 s)) -∗ K ⟨⟩))
      ⊢ wp frame (wpE (defs₀ (F := F)) Variants.none c none) E (cc0__propagate_kernel i arg2 harg2 arg3 harg3 arg4 harg4 arg5 harg5 arg6 harg6) K := by
  simp only [cc0__propagate_kernel_eq_skeleton]; unfold cc0__propagate_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [read_writes_whole _ _ zero2]
    simp only [View.readAt_eq_ld, View.readCov_unit_zero (S := S2048x64) _ zero2, View.ld_unit_zero (S := S2048x64) zero2, View.ld_unit_zero (S := S2048x1024) zero2, View.ld_unit_zero (S := S1024x64) zero2, View.ld_unit_zero (S := S64x64) zero2]
  iexists _; isplitr
  swap; · iexact H6
  ipureintro
  sl_unfold_words
  rw [read_writes_whole _ _ zero2]
  simp only [View.readAt_eq_ld, View.ld_unit_zero (S := S2048x64) zero2, View.ld_unit_zero (S := S2048x1024) zero2, View.ld_unit_zero (S := S1024x64) zero2]

end Cert.KernelIdeal.Hand

end
-- ==== Proof.KernelIdeal.Region0.lean ====
/- The first propagation layer as a pipelined region: what every staging buffer and the scratch hold at every grid point.

   Entered with the core's buffers at contents `V`, the region walks the 128 points (row tile `t / 16`, column tile
   `t % 16`). The three input windows' buffers hold their blocks of `V` at every point, fetched there or not. The
   scratch holds the running sum `acc0 n` after point `n`: this point's tile product added to zero at the first
   column tile of a row tile and to what the point before left elsewhere. The output window is idle except at the
   last column tile of each row tile, where its buffer is stored the projected, rectified sum and written back.
   The region invariant is therefore: before the first point, every scoped buffer at some contents; after point
   `n`, the scratch at `acc0 n` and the other scoped buffers at some contents. The body obligation is the case
   analysis on `t % 16` over the three runs of the body. -/
import proofs.«166696_j11622181503541_1_alg».proof.Proof.Gen.KernelIdeal.Launch
import proofs.«166696_j11622181503541_1_alg».proof.Proof.Gen.KernelIdeal.Skeleton
import proofs.«166696_j11622181503541_1_alg».proof.Proof.Gen.KernelIdeal.Points
import proofs.«166696_j11622181503541_1_alg».proof.Proof.LibStore
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«166696_j11622181503541_1_alg».proof.Proof.KernelIdeal.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibStore

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum in scratch after point `n`: this point's tile product added to zero at the first column tile of
    a row tile (`n % 16 = 0`), to the sum the point before left elsewhere. -/
def acc0 (c : Dev nD) : (n : ℕ) → n < cfg0.N → Vec F S2048x64 .f32
  | 0, h => k0_pay2 (iblk0 V c 0 ⟨0, h⟩) (iblk0 V c 1 ⟨0, h⟩) k0_pay1
  | n + 1, h => k0_pay2 (iblk0 V c 0 ⟨n + 1, h⟩) (iblk0 V c 1 ⟨n + 1, h⟩)
      (if (n + 1) % 16 = 0 then k0_pay1 else acc0 c n (Nat.lt_of_succ_lt h))

theorem acc0_reset (c : Dev nD) (n : ℕ) (h : n < cfg0.N) (h0 : n % 16 = 0) :
    acc0 V c n h = k0_pay2 (iblk0 V c 0 ⟨n, h⟩) (iblk0 V c 1 ⟨n, h⟩) k0_pay1 := by
  cases n with
  | zero => rfl
  | succ n => rw [acc0, if_pos h0]

theorem acc0_step (c : Dev nD) (n : ℕ) (h : n + 1 < cfg0.N) (h0 : ¬(n + 1) % 16 = 0) :
    acc0 V c (n + 1) h = k0_pay2 (iblk0 V c 0 ⟨n + 1, h⟩) (iblk0 V c 1 ⟨n + 1, h⟩) (acc0 V c n (Nat.lt_of_succ_lt h)) := by
  rw [acc0, if_neg h0]

/-- The scratch, whole. -/
abbrev scM0 : Memref sig .tc .vmem S2048x64 .f32 := Memref.whole cc0_scratch0

/-- The core's scoped buffers that are neither this region's staging buffers nor its scratch, at some contents. -/
abbrev rest0 (c : Dev nD) : sProp 𝕄 :=
  Pipeline.scopedRestBut (Ix := Unit) (Name := ℕ) (U := UR sig nD τ) (Lvl := ℕ) (Val := Elt F) spec0 c [cc0_scratch0]

/-- Every scoped buffer that is no staging buffer of this region at some contents, with the scratch set apart. -/
theorem PhiA0_eq (c : Dev nD) :
    (Pipeline.ΦA spec0 c : sProp 𝕄)
      = iprop(iprop(∃ d, owns (c : Thread nD τ) scM0 fullShare d) ∗ rest0 c ∗ (∃ r, prngReg c r)) := by
  unfold Pipeline.ΦA
  rw [Pipeline.scopedRest_split_of_list spec0 c [cc0_scratch0] (by decide) (by decide)]
  simp only [scM0, owns_whole, bigSepL_singleton]
  exact BI.equiv_iff.mp ⟨sep_assoc, sep_assoc'⟩

/-! ## Where the output window is idle -/

/-- The input windows are never idle. -/
theorem live0_0 (t : Fin cfg0.N) : cfg0.idle 0 (grid0.coords t) = false := rfl
theorem live0_1 (t : Fin cfg0.N) : cfg0.idle 1 (grid0.coords t) = false := rfl
theorem live0_2 (t : Fin cfg0.N) : cfg0.idle 2 (grid0.coords t) = false := rfl
/-- Away from the last column tile the body stores nothing into the output block, and the block is not written back; -/
theorem idle0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- at the last column tile it is stored. -/
theorem live0_3 : ∀ t : Fin cfg0.N, cond0_1 (grid0.coords t) → cfg0.idle 3 (grid0.coords t) = false := by decide +kernel

/-! ## The invariant and the proof data -/

/-- The region invariant before position `n`: before the first point every scoped buffer that is no staging buffer at
    some contents; afterwards the scratch at the running sum the point before left, the others at some contents. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (acc0 V c n hn) ∗ rest0 c ∗ (∃ r, prngReg c r)) := rfl

theorem PhiS0_pos (c : Dev nD) (n : ℕ) (h : n ≤ cfg0.N) (hz : n ≠ 0) :
    PhiS0 V c n h = iprop(owns (c : Thread nD τ) scM0 fullShare (acc0 V c (n - 1) (by omega)) ∗ rest0 c ∗ (∃ r, prngReg c r)) := by
  cases n with
  | zero => exact absurd rfl hz
  | succ n => rfl

/-- The proof data: the arrays as the region finds them; after the body each input's buffer at its block, the
    output's (where it is stored) at the projected, rectified running sum; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (acc0 V c t.val t.isLt) (iblk0 V c 2 t) := by dsimp only [dat0]

/-- Each input's current staging buffer holds its block at every point, fetched there or not: an input window's
    block index only moves at a point that fetches. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (st0_0 t) fullShare (iblk0 V c 0 t) := by
  unfold Dat.leavesExact; rw [live0_0 t, after0_0]
theorem leaves0_1 (c : Dev nD) (t : Fin cfg0.N) :
    (dat0 V c).leavesExact 1 t = owns (c : Thread nD τ) (st0_1 t) fullShare (iblk0 V c 1 t) := by
  unfold Dat.leavesExact; rw [live0_1 t, after0_1]
theorem leaves0_2 (c : Dev nD) (t : Fin cfg0.N) :
    (dat0 V c).leavesExact 2 t = owns (c : Thread nD τ) (st0_2 t) fullShare (iblk0 V c 2 t) := by
  unfold Dat.leavesExact; rw [live0_2 t, after0_2]

set_option maxHeartbeats 4000000 in
/-- The body at any point, by the column tile: first (`t % 16 = 0`: the scratch is handed over at whatever it holds —
    at the very first point as part of the scoped rest, later at the previous row tile's finished sum — and comes back
    reset and added to), last (`t % 16 = 15`: the scratch at the sum so far, the output block stored) or in between. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 128 := lt_of_lt_of_eq t.isLt (show cfg0.N = 128 from N_0)
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dat0 V c) 3 t (idle0_3 t hc1) (noFlush0_3 t hc1)]
    rw [acc0_reset V c t.val t.isLt h0]
    by_cases hz : t.val = 0
    · rw [PhiS0_castSucc V c t, PhiS0_zero V c _ _ hz, PhiA0_eq]
      iintro ⟨⟨HS, Hr, Hg⟩, Ho, ⟨%d0, H0⟩, ⟨%d1, H1⟩, ⟨%d2, H2⟩, H3⟩
      iapply (run0_first c Set.univ (grid0.coords t) _ _ _ _ _ _ _ _ _ _ hc0 hc1 (iblk0 V c 0 t) (iblk0 V c 1 t) _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · rw [PhiS0_castSucc V c t, PhiS0_pos V c _ _ hz]
      iintro ⟨⟨HS, Hr, Hg⟩, Ho, ⟨%d0, H0⟩, ⟨%d1, H1⟩, ⟨%d2, H2⟩, H3⟩
      iapply (run0_first c Set.univ (grid0.coords t) _ _ _ _ _ _ _ _ _ _ hc0 hc1 (iblk0 V c 0 t) (iblk0 V c 1 t) _)
      isplitl [H0]; · iexact H0
      isplitl [H1]; · iexact H1
      isplitl [HS]; · iexists _; iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
  · have hz : t.val ≠ 0 := fun e => h0 (by rw [e])
    have hc0 : ¬cond0_0 (grid0.coords t) := fun h => h0 ((hcond0_0 t).mp h)
    obtain ⟨n, hn⟩ : ∃ n, t.val = n + 1 := ⟨t.val - 1, by omega⟩
    have hstep : acc0 V c t.val t.isLt
        = k0_pay2 (iblk0 V c 0 t) (iblk0 V c 1 t) (acc0 V c (t.val - 1) (by omega)) := by
      have e : ∀ (u : ℕ) (hu : u < cfg0.N), u = t.val → acc0 V c u hu = acc0 V c t.val t.isLt := fun u hu e => by subst e; rfl
      rw [← e (n + 1) (hn ▸ t.isLt) hn.symm, acc0_step V c n (hn ▸ t.isLt) (hn ▸ h0)]
      have et : (⟨n + 1, hn ▸ t.isLt⟩ : Fin cfg0.N) = t := Fin.ext hn.symm
      have en : n = t.val - 1 := by omega
      subst en
      rw [et]
    rw [PhiS0_castSucc V c t, PhiS0_pos V c _ _ hz]
    by_cases h1 : t.val % 16 = 15
    · have hc1 : cond0_1 (grid0.coords t) := (hcond0_1 t).mpr h1
      rw [show (dat0 V c).leavesExact 3 t = owns (c : Thread nD τ) (st0_3 t) fullShare ((dat0 V c).after 3 t) from by
        unfold Dat.leavesExact; rw [live0_3 t hc1], after0_3]
      rw [hstep]
      iintro ⟨⟨HS, Hr, Hg⟩, Ho, ⟨%d0, H0⟩, ⟨%d1, H1⟩, ⟨%d2, H2⟩, ⟨%d3, H3⟩⟩
      iapply (run0_last c Set.univ (grid0.coords t) _ _ _ _ _ _ _ _ _ _ hc0 hc1 (iblk0 V c 0 t) (iblk0 V c 1 t) (iblk0 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 3 t (idle0_3 t hc1) (noFlush0_3 t hc1)]
      rw [hstep]
      iintro ⟨⟨HS, Hr, Hg⟩, Ho, ⟨%d0, H0⟩, ⟨%d1, H1⟩, ⟨%d2, H2⟩, H3⟩
      iapply (run0_mid c Set.univ (grid0.coords t) _ _ _ _ _ _ _ _ _ _ hc0 hc1 (iblk0 V c 0 t) (iblk0 V c 1 t) _ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- and after the last point the invariant gives it back, the scratch's contents forgotten. -/
theorem hout0 (c : Dev nD) : (dat0 V c).Φ (Fin.last cfg0.N) ⊢ Pipeline.ΦA spec0 c := by
  have hne : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨HS, Hr, Hg⟩
  isplitl [HS]; · iexists _; iexact HS
  isplitl [Hr]; · iexact Hr
  iexact Hg

end Region

end Cert.KernelIdeal.Hand

end
-- ==== Proof.KernelIdeal.Body1.lean ====
/- The second propagation layer's kernel body, run once in each of the three situations a grid point can be in.

   The grid is 8 row tiles by 16 column tiles of `A`, the column tile `k` running fastest. At every point the body
   adds the product of the point's tile of `A` (2048 × 1024) with the matching row tile of the features (1024 × 64)
   into a running sum kept in scratch; at `k = 0` it first sets the running sum to zero, and at `k = 15` it then
   multiplies the finished sum by the weight block and stores the positive part in the output block. So:
   first column tile — the scratch ends at `0 + a · y` whatever it held; a middle one — at `s + a · y` from `s`;
   the last — the same, and the output block at `relu ((s + a · y) · w)`. The three cases are the body's symbolic
   execution with the two conditionals decided; the sums themselves are the payload terms `k1_pay1` (the zeros),
   `k1_pay2` (sum plus product) and `k1_pay3` (the projected, rectified sum), never opened here. Every load and store
   is of a whole buffer, so what a buffer holds afterwards is the last payload stored into it. -/
import proofs.«166696_j11622181503541_1_alg».proof.Proof.Gen.KernelIdeal.Launch
import proofs.«166696_j11622181503541_1_alg».proof.Proof.Gen.KernelIdeal.Skeleton
import proofs.«166696_j11622181503541_1_alg».proof.Proof.Gen.KernelIdeal.Points
import proofs.«166696_j11622181503541_1_alg».proof.Proof.LibStore
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibStore

variable {F : FTy → Type} [FloatOps F]

local notation "𝕄" => MT nD τ sig Unit (Elt F) ℕ (UR sig nD τ) ℕ

/-- The body's first conditional, on the grid coordinates: the column tile is the first. -/
abbrev cond1_0 (i : grid1.Coords) : Prop := (Scalar.cmpi .ne (Scalar.extui (Scalar.cmpi .eq (BitVec.ofNat 32 (i 1).val) 0#32)) 0#32) = 1#1
/-- The body's second conditional: the column tile is the last. -/
abbrev cond1_1 (i : grid1.Coords) : Prop := k1_cond2 i = 1#1

/-- Over the grid's 128 points in order, the column tile is the first exactly at the multiples of 16, -/
theorem hcond1_0 : ∀ t : Fin cfg1.N, cond1_0 (grid1.coords t) ↔ t.val % 16 = 0 :=
  (by decide +kernel : ∀ t : Fin grid1.N, cond1_0 (grid1.coords t) ↔ t.val % 16 = 0)
/-- and the last exactly at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

set_option maxHeartbeats 1000000 in
/-- First column tile: the running sum is reset, then this tile's product added. The weight block and the output
    block are not touched. -/
theorem run1_first (c : Dev nD) (E : Set ℕ) (i : grid1.Coords)
    (arg2 : Memref sig .tc .vmem S2048x1024 .f32) (harg2 : arg2.IsWhole) (arg3 : Memref sig .tc .vmem S1024x64 .f32) (harg3 : arg3.IsWhole)
    (arg4 : Memref sig .tc .vmem S64x64 .f32) (harg4 : arg4.IsWhole) (arg5 : Memref sig .tc .vmem S2048x64 .f32) (harg5 : arg5.IsWhole)
    (arg6 : Memref sig .tc .vmem S2048x64 .f32) (harg6 : arg6.IsWhole)
    (hc0 : cond1_0 i) (hc1 : ¬cond1_1 i)
    (x0 : Vec F S2048x1024 .f32) (x1 : Vec F S1024x64 .f32) (K : PUnit → sProp 𝕄) :
    iprop(owns (c : Thread nD τ) arg2 fullShare x0 ∗ owns (c : Thread nD τ) arg3 fullShare x1
        ∗ (∃ d, owns (c : Thread nD τ) arg6 fullShare d)
        ∗ (iprop(owns (c : Thread nD τ) arg2 fullShare x0 ∗ owns (c : Thread nD τ) arg3 fullShare x1
            ∗ owns (c : Thread nD τ) arg6 fullShare (k1_pay2 x0 x1 k1_pay1)) -∗ K ⟨⟩))
      ⊢ wp frame (wpE (defs₀ (F := F)) Variants.none c none) E (cc1__propagate_kernel i arg2 harg2 arg3 harg3 arg4 harg4 arg5 harg5 arg6 harg6) K := by
  simp only [cc1__propagate_kernel_eq_skeleton]; unfold cc1__propagate_kernel_skel
  unfold owns
  iintro ⟨⟨%f0, %hf0, H0⟩, ⟨%f1, %hf1, H1⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [read_writes_whole_cons _ _ zero2]
  simp only [View.readAt_eq_ld, View.readCov_unit_zero (S := S2048x64) _ zero2, View.ld_unit_zero (S := S2048x64) zero2, View.ld_unit_zero (S := S2048x1024) zero2, View.ld_unit_zero (S := S1024x64) zero2]

set_option maxHeartbeats 1000000 in
/-- A middle column tile: this tile's product is added to the running sum `s`. -/
theorem run1_mid (c : Dev nD) (E : Set ℕ) (i : grid1.Coords)
    (arg2 : Memref sig .tc .vmem S2048x1024 .f32) (harg2 : arg2.IsWhole) (arg3 : Memref sig .tc .vmem S1024x64 .f32) (harg3 : arg3.IsWhole)
    (arg4 : Memref sig .tc .vmem S64x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond1_0 i) (hc1 : ¬cond1_1 i)
    (x0 : Vec F S2048x1024 .f32) (x1 : Vec F S1024x64 .f32) (s : Vec F S2048x64 .f32) (K : PUnit → sProp 𝕄) :
    iprop(owns (c : Thread nD τ) arg2 fullShare x0 ∗ owns (c : Thread nD τ) arg3 fullShare x1
        ∗ owns (c : Thread nD τ) arg6 fullShare s
        ∗ (iprop(owns (c : Thread nD τ) arg2 fullShare x0 ∗ owns (c : Thread nD τ) arg3 fullShare x1
            ∗ owns (c : Thread nD τ) arg6 fullShare (k1_pay2 x0 x1 s)) -∗ K ⟨⟩))
      ⊢ wp frame (wpE (defs₀ (F := F)) Variants.none c none) E (cc1__propagate_kernel i arg2 harg2 arg3 harg3 arg4 harg4 arg5 harg5 arg6 harg6) K := by
  simp only [cc1__propagate_kernel_eq_skeleton]; unfold cc1__propagate_kernel_skel
  unfold owns
  iintro ⟨⟨%f0, %hf0, H0⟩, ⟨%f1, %hf1, H1⟩, ⟨%f6, %hf6, H6⟩, Hk⟩
  subst hf0; subst hf1; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [read_writes_whole _ _ zero2]
  simp only [View.readAt_eq_ld, View.ld_unit_zero (S := S2048x64) zero2, View.ld_unit_zero (S := S2048x1024) zero2, View.ld_unit_zero (S := S1024x64) zero2]

set_option maxHeartbeats 1000000 in
/-- The last column tile: the product is added to the running sum `s`, and the finished sum, multiplied by the
    weight block `x2` and rectified, is stored in the output block. -/
theorem run1_last (c : Dev nD) (E : Set ℕ) (i : grid1.Coords)
    (arg2 : Memref sig .tc .vmem S2048x1024 .f32) (harg2 : arg2.IsWhole) (arg3 : Memref sig .tc .vmem S1024x64 .f32) (harg3 : arg3.IsWhole)
    (arg4 : Memref sig .tc .vmem S64x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond1_0 i) (hc1 : cond1_1 i)
    (x0 : Vec F S2048x1024 .f32) (x1 : Vec F S1024x64 .f32) (x2 : Vec F S64x64 .f32) (s : Vec F S2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x0 x1 s) x2) ∗ owns (c : Thread nD τ) arg6 fullShare (k1_pay2 x0 x1 s)) -∗ K ⟨⟩))
      ⊢ wp frame (wpE (defs₀ (F := F)) Variants.none c none) E (cc1__propagate_kernel i arg2 harg2 arg3 harg3 arg4 harg4 arg5 harg5 arg6 harg6) K := by
  simp only [cc1__propagate_kernel_eq_skeleton]; unfold cc1__propagate_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [read_writes_whole _ _ zero2]
    simp only [View.readAt_eq_ld, View.readCov_unit_zero (S := S2048x64) _ zero2, View.ld_unit_zero (S := S2048x64) zero2, View.ld_unit_zero (S := S2048x1024) zero2, View.ld_unit_zero (S := S1024x64) zero2, View.ld_unit_zero (S := S64x64) zero2]
  iexists _; isplitr
  swap; · iexact H6
  ipureintro
  sl_unfold_words
  rw [read_writes_whole _ _ zero2]
  simp only [View.readAt_eq_ld, View.ld_unit_zero (S := S2048x64) zero2, View.ld_unit_zero (S := S2048x1024) zero2, View.ld_unit_zero (S := S1024x64) zero2]

end Cert.KernelIdeal.Hand

end
-- ==== Proof.KernelIdeal.Region1.lean ====
/- The second propagation layer as a pipelined region: what every staging buffer and the scratch hold at every grid point.

   Entered with the core's buffers at contents `V`, the region walks the 128 points (row tile `t / 16`, column tile
   `t % 16`). The three input windows' buffers hold their blocks of `V` at every point, fetched there or not. The
   scratch holds the running sum `acc1 n` after point `n`: this point's tile product added to zero at the first
   column tile of a row tile and to what the point before left elsewhere. The output window is idle except at the
   last column tile of each row tile, where its buffer is stored the projected, rectified sum and written back.
   The region invariant is therefore: before the first point, every scoped buffer at some contents; after point
   `n`, the scratch at `acc1 n` and the other scoped buffers at some contents. The body obligation is the case
   analysis on `t % 16` over the three runs of the body. -/
import proofs.«166696_j11622181503541_1_alg».proof.Proof.Gen.KernelIdeal.Launch
import proofs.«166696_j11622181503541_1_alg».proof.Proof.Gen.KernelIdeal.Skeleton
import proofs.«166696_j11622181503541_1_alg».proof.Proof.Gen.KernelIdeal.Points
import proofs.«166696_j11622181503541_1_alg».proof.Proof.LibStore
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«166696_j11622181503541_1_alg».proof.Proof.KernelIdeal.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibStore

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running sum in scratch after point `n`: this point's tile product added to zero at the first column tile of
    a row tile (`n % 16 = 0`), to the sum the point before left elsewhere. -/
def acc1 (c : Dev nD) : (n : ℕ) → n < cfg1.N → Vec F S2048x64 .f32
  | 0, h => k1_pay2 (iblk1 V c 0 ⟨0, h⟩) (iblk1 V c 1 ⟨0, h⟩) k1_pay1
  | n + 1, h => k1_pay2 (iblk1 V c 0 ⟨n + 1, h⟩) (iblk1 V c 1 ⟨n + 1, h⟩)
      (if (n + 1) % 16 = 0 then k1_pay1 else acc1 c n (Nat.lt_of_succ_lt h))

theorem acc1_reset (c : Dev nD) (n : ℕ) (h : n < cfg1.N) (h0 : n % 16 = 0) :
    acc1 V c n h = k1_pay2 (iblk1 V c 0 ⟨n, h⟩) (iblk1 V c 1 ⟨n, h⟩) k1_pay1 := by
  cases n with
  | zero => rfl
  | succ n => rw [acc1, if_pos h0]

theorem acc1_step (c : Dev nD) (n : ℕ) (h : n + 1 < cfg1.N) (h0 : ¬(n + 1) % 16 = 0) :
    acc1 V c (n + 1) h = k1_pay2 (iblk1 V c 0 ⟨n + 1, h⟩) (iblk1 V c 1 ⟨n + 1, h⟩) (acc1 V c n (Nat.lt_of_succ_lt h)) := by
  rw [acc1, if_neg h0]

/-- The scratch, whole. -/
abbrev scM1 : Memref sig .tc .vmem S2048x64 .f32 := Memref.whole cc1_scratch0

/-- The core's scoped buffers that are neither this region's staging buffers nor its scratch, at some contents. -/
abbrev rest1 (c : Dev nD) : sProp 𝕄 :=
  Pipeline.scopedRestBut (Ix := Unit) (Name := ℕ) (U := UR sig nD τ) (Lvl := ℕ) (Val := Elt F) spec1 c [cc1_scratch0]

/-- Every scoped buffer that is no staging buffer of this region at some contents, with the scratch set apart. -/
theorem PhiA1_eq (c : Dev nD) :
    (Pipeline.ΦA spec1 c : sProp 𝕄)
      = iprop(iprop(∃ d, owns (c : Thread nD τ) scM1 fullShare d) ∗ rest1 c ∗ (∃ r, prngReg c r)) := by
  unfold Pipeline.ΦA
  rw [Pipeline.scopedRest_split_of_list spec1 c [cc1_scratch0] (by decide) (by decide)]
  simp only [scM1, owns_whole, bigSepL_singleton]
  exact BI.equiv_iff.mp ⟨sep_assoc, sep_assoc'⟩

/-! ## Where the output window is idle -/

/-- The input windows are never idle. -/
theorem live1_0 (t : Fin cfg1.N) : cfg1.idle 0 (grid1.coords t) = false := rfl
theorem live1_1 (t : Fin cfg1.N) : cfg1.idle 1 (grid1.coords t) = false := rfl
theorem live1_2 (t : Fin cfg1.N) : cfg1.idle 2 (grid1.coords t) = false := rfl
/-- Away from the last column tile the body stores nothing into the output block, and the block is not written back; -/
theorem idle1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- at the last column tile it is stored. -/
theorem live1_3 : ∀ t : Fin cfg1.N, cond1_1 (grid1.coords t) → cfg1.idle 3 (grid1.coords t) = false := by decide +kernel

/-! ## The invariant and the proof data -/

/-- The region invariant before position `n`: before the first point every scoped buffer that is no staging buffer at
    some contents; afterwards the scratch at the running sum the point before left, the others at some contents. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ rest1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (acc1 V c n hn) ∗ rest1 c ∗ (∃ r, prngReg c r)) := rfl

theorem PhiS1_pos (c : Dev nD) (n : ℕ) (h : n ≤ cfg1.N) (hz : n ≠ 0) :
    PhiS1 V c n h = iprop(owns (c : Thread nD τ) scM1 fullShare (acc1 V c (n - 1) (by omega)) ∗ rest1 c ∗ (∃ r, prngReg c r)) := by
  cases n with
  | zero => exact absurd rfl hz
  | succ n => rfl

/-- The proof data: the arrays as the region finds them; after the body each input's buffer at its block, the
    output's (where it is stored) at the projected, rectified running sum; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

/-- Each input's current staging buffer holds its block at every point, fetched there or not: an input window's
    block index only moves at a point that fetches. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (st1_0 t) fullShare (iblk1 V c 0 t) := by
  unfold Dat.leavesExact; rw [live1_0 t, after1_0]
theorem leaves1_1 (c : Dev nD) (t : Fin cfg1.N) :
    (dat1 V c).leavesExact 1 t = owns (c : Thread nD τ) (st1_1 t) fullShare (iblk1 V c 1 t) := by
  unfold Dat.leavesExact; rw [live1_1 t, after1_1]
theorem leaves1_2 (c : Dev nD) (t : Fin cfg1.N) :
    (dat1 V c).leavesExact 2 t = owns (c : Thread nD τ) (st1_2 t) fullShare (iblk1 V c 2 t) := by
  unfold Dat.leavesExact; rw [live1_2 t, after1_2]

set_option maxHeartbeats 4000000 in
/-- The body at any point, by the column tile: first (`t % 16 = 0`: the scratch is handed over at whatever it holds —
    at the very first point as part of the scoped rest, later at the previous row tile's finished sum — and comes back
    reset and added to), last (`t % 16 = 15`: the scratch at the sum so far, the output block stored) or in between. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 128 := lt_of_lt_of_eq t.isLt (show cfg1.N = 128 from N_1)
  by_cases h0 : t.val % 16 = 0
  · have h1 : ¬t.val % 16 = 15 := by omega
    have hc0 : cond1_0 (grid1.coords t) := (hcond1_0 t).mpr h0
    have hc1 : ¬cond1_1 (grid1.coords t) := fun h => h1 ((hcond1_1 t).mp h)
    rw [Dat.leavesExact_idle (dat1 V c) 3 t (idle1_3 t hc1) (noFlush1_3 t hc1)]
    rw [acc1_reset V c t.val t.isLt h0]
    by_cases hz : t.val = 0
    · rw [PhiS1_castSucc V c t, PhiS1_zero V c _ _ hz, PhiA1_eq]
      iintro ⟨⟨HS, Hr, Hg⟩, Ho, ⟨%d0, H0⟩, ⟨%d1, H1⟩, ⟨%d2, H2⟩, H3⟩
      iapply (run1_first c Set.univ (grid1.coords t) _ _ _ _ _ _ _ _ _ _ hc0 hc1 (iblk1 V c 0 t) (iblk1 V c 1 t) _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · rw [PhiS1_castSucc V c t, PhiS1_pos V c _ _ hz]
      iintro ⟨⟨HS, Hr, Hg⟩, Ho, ⟨%d0, H0⟩, ⟨%d1, H1⟩, ⟨%d2, H2⟩, H3⟩
      iapply (run1_first c Set.univ (grid1.coords t) _ _ _ _ _ _ _ _ _ _ hc0 hc1 (iblk1 V c 0 t) (iblk1 V c 1 t) _)
      isplitl [H0]; · iexact H0
      isplitl [H1]; · iexact H1
      isplitl [HS]; · iexists _; iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
  · have hz : t.val ≠ 0 := fun e => h0 (by rw [e])
    have hc0 : ¬cond1_0 (grid1.coords t) := fun h => h0 ((hcond1_0 t).mp h)
    obtain ⟨n, hn⟩ : ∃ n, t.val = n + 1 := ⟨t.val - 1, by omega⟩
    have hstep : acc1 V c t.val t.isLt
        = k1_pay2 (iblk1 V c 0 t) (iblk1 V c 1 t) (acc1 V c (t.val - 1) (by omega)) := by
      have e : ∀ (u : ℕ) (hu : u < cfg1.N), u = t.val → acc1 V c u hu = acc1 V c t.val t.isLt := fun u hu e => by subst e; rfl
      rw [← e (n + 1) (hn ▸ t.isLt) hn.symm, acc1_step V c n (hn ▸ t.isLt) (hn ▸ h0)]
      have et : (⟨n + 1, hn ▸ t.isLt⟩ : Fin cfg1.N) = t := Fin.ext hn.symm
      have en : n = t.val - 1 := by omega
      subst en
      rw [et]
    rw [PhiS1_castSucc V c t, PhiS1_pos V c _ _ hz]
    by_cases h1 : t.val % 16 = 15
    · have hc1 : cond1_1 (grid1.coords t) := (hcond1_1 t).mpr h1
      rw [show (dat1 V c).leavesExact 3 t = owns (c : Thread nD τ) (st1_3 t) fullShare ((dat1 V c).after 3 t) from by
        unfold Dat.leavesExact; rw [live1_3 t hc1], after1_3]
      rw [hstep]
      iintro ⟨⟨HS, Hr, Hg⟩, Ho, ⟨%d0, H0⟩, ⟨%d1, H1⟩, ⟨%d2, H2⟩, ⟨%d3, H3⟩⟩
      iapply (run1_last c Set.univ (grid1.coords t) _ _ _ _ _ _ _ _ _ _ hc0 hc1 (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idle1_3 t hc1) (noFlush1_3 t hc1)]
      rw [hstep]
      iintro ⟨⟨HS, Hr, Hg⟩, Ho, ⟨%d0, H0⟩, ⟨%d1, H1⟩, ⟨%d2, H2⟩, H3⟩
      iapply (run1_mid c Set.univ (grid1.coords t) _ _ _ _ _ _ _ _ _ _ hc0 hc1 (iblk1 V c 0 t) (iblk1 V c 1 t) _ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- and after the last point the invariant gives it back, the scratch's contents forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨HS, Hr, Hg⟩
  isplitl [HS]; · iexists _; iexact HS
  isplitl [Hr]; · iexact Hr
  iexact Hg

end Region

end Cert.KernelIdeal.Hand

end
-- ==== Proof.KernelIdeal.Region2.lean ====
/- The edge scorer as a pipelined region.

   The grid is 128 tiles of 8192 edges. At each point the body reads the tile's two blocks of gathered endpoint
   features (8192 × 64 each) and the four small operands, held whole (the two halves of the first linear map, its
   bias row, the second linear map's column), and stores the tile's 8192 scores into the output block, which is
   written back at every point. Nothing is kept between points, so the region invariant is the untouched scoped
   rest, and the body obligation is the one run of the body: the output block ends at the payload `k2_pay1` of the six
   blocks, never opened here. -/
import proofs.«166696_j11622181503541_1_alg».proof.Proof.Gen.KernelIdeal.Launch
import proofs.«166696_j11622181503541_1_alg».proof.Proof.Gen.KernelIdeal.Skeleton
import proofs.«166696_j11622181503541_1_alg».proof.Proof.Gen.KernelIdeal.Points
import proofs.«166696_j11622181503541_1_alg».proof.Proof.LibStore
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibStore

variable {F : FTy → Type} [FloatOps F]

local notation "𝕄" => MT nD τ sig Unit (Elt F) ℕ (UR sig nD τ) ℕ

set_option maxHeartbeats 1000000 in
/-- The body on whole staging buffers: the six inputs stay as they are, the output block ends at the scores. -/
theorem run2 (c : Dev nD) (E : Set ℕ) (i : grid2.Coords)
    (arg1 : Memref sig .tc .vmem S8192x64 .f32) (harg1 : arg1.IsWhole) (arg2 : Memref sig .tc .vmem S8192x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x1 .f32) (harg6 : arg6.IsWhole)
    (arg7 : Memref sig .tc .vmem S8192x1 .f32) (harg7 : arg7.IsWhole)
    (x0 x1 : Vec F S8192x64 .f32) (x2 x3 : Vec F S64x64 .f32) (x4 : Vec F S1x64 .f32) (x5 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k2_pay1 x0 x1 x2 x3 x4 x5)) -∗ K ⟨⟩))
      ⊢ wp frame (wpE (defs₀ (F := F)) Variants.none c none) E (cc2__scorer_kernel i arg1 harg1 arg2 harg2 arg3 harg3 arg4 harg4 arg5 harg5 arg6 harg6 arg7 harg7) K := by
  simp only [cc2__scorer_kernel_eq_skeleton]; unfold cc2__scorer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  rw [read_writes_whole _ _ zero2]
  simp only [View.readAt_eq_ld, View.ld_unit_zero (S := S8192x64) zero2, View.ld_unit_zero (S := S64x64) zero2, View.ld_unit_zero (S := S1x64) zero2, View.ld_unit_zero (S := S64x1) zero2]

section Region

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data: the arrays as the region finds them; after the body each input's buffer at its block, the output's
    at the tile's scores; the untouched scoped rest as invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay1 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = k2_pay1 (iblk2 V c 0 t) (iblk2 V c 1 t) (iblk2 V c 2 t) (iblk2 V c 3 t) (iblk2 V c 4 t) (iblk2 V c 5 t) := by
  dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 2000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KernelIdeal.Run.lean ====
/- The whole program's run: @main as four stretches of host operations around the three regions.

   Between two items every unscoped buffer of the core is held at named contents: the launch memory, then each host
   stretch's operations applied in order, then, after a region, its arrays at what its write-backs leave (an input
   array as entered, the output array as the region's proof data compute it) and every other buffer untouched. The
   generator register and the fact that the core owes nothing ride along. Each region is entered by splitting its
   arrays out of the unscoped buffers and handing the scoped rest and the generator register to its invariant, and
   left by putting them back. The run ends with every unscoped buffer at the last boundary's contents, which the
   frame claim and the value claim then read. -/
import proofs.«166696_j11622181503541_1_alg».proof.Proof.Gen.KernelIdeal.Launch
import proofs.«166696_j11622181503541_1_alg».proof.Proof.Gen.KernelIdeal.Skeleton
import proofs.«166696_j11622181503541_1_alg».proof.Proof.Gen.KernelIdeal.Points
import proofs.«166696_j11622181503541_1_alg».proof.Proof.LibStore
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«166696_j11622181503541_1_alg».proof.Proof.Gen.KernelIdeal.Regions
import proofs.«166696_j11622181503541_1_alg».proof.Proof.KernelIdeal.Region0
import proofs.«166696_j11622181503541_1_alg».proof.Proof.KernelIdeal.Region1
import proofs.«166696_j11622181503541_1_alg».proof.Proof.KernelIdeal.Region2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibStore

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev at0 : Dev nD → Valuation τ sig (Elt F) := fun c b => m (c, b)
/-- After the first host stretch (region 0's entry). -/
abbrev at1 : Dev nD → Valuation τ sig (Elt F) := fun c => StableHlo.after hostOps0 (at0 m c)
abbrev in1 : (c : Dev nD) → (b : Ref sig .tc) → Buf (Elt F) ((c : Thread nD τ).loc b) := fun c b => at1 m c b

/-- At region 0's exit: its arrays at what the write-backs leave, every other buffer as entered. -/
def at2 (c : Dev nD) : Valuation τ sig (Elt F) :=
  Pipeline.withArrays spec0 c (at1 m c) fun w => (dat0 (in1 m) c).arrAt w cfg0.N
theorem at2_arr (c : Dev nD) (w : Fin cfg0.W) :
    at2 m c (Proc.devRef .tc (Pipeline.arrRef spec0 w)) = (dat0 (in1 m) c).arrAt w cfg0.N := by
  unfold at2; exact Pipeline.withArrays_arr spec0 launch0.win.arr_inj c _ _ w
theorem at2_of_ne (c : Dev nD) (b : Ref sig .tc) (hb : ∀ w, Pipeline.arrRef spec0 w ≠ b) :
    at2 m c (Proc.devRef .tc b) = at1 m c (Proc.devRef .tc b) := by
  unfold at2; exact Pipeline.withArrays_of_ne spec0 c _ _ b hb
/-- The same read at the TensorCore's references. -/
abbrev out2 : (c : Dev nD) → (b : Ref sig .tc) → Buf (Elt F) ((c : Thread nD τ).loc b) := fun c b => at2 m c b
theorem hF0 (c : Dev nD) (w : Fin cfg0.W) : (dat0 (in1 m) c).arrAt w cfg0.N = out2 m c (Pipeline.arrRef spec0 w) :=
  (at2_arr m c w).symm
theorem hrest0 (c : Dev nD) : ∀ b, b ∉ Finset.univ.image (Pipeline.arrRef spec0) → out2 m c b = in1 m c b :=
  fun b hb => at2_of_ne m c b fun w e => hb (Finset.mem_image.mpr ⟨w, Finset.mem_univ _, e⟩)

/-- After the second host stretch (region 1's entry). -/
abbrev at3 : Dev nD → Valuation τ sig (Elt F) := fun c => StableHlo.after hostOps1 (at2 m c)
abbrev in3 : (c : Dev nD) → (b : Ref sig .tc) → Buf (Elt F) ((c : Thread nD τ).loc b) := fun c b => at3 m c b

/-- At region 1's exit: its arrays at what the write-backs leave, every other buffer as entered. -/
def at4 (c : Dev nD) : Valuation τ sig (Elt F) :=
  Pipeline.withArrays spec1 c (at3 m c) fun w => (dat1 (in3 m) c).arrAt w cfg1.N
theorem at4_arr (c : Dev nD) (w : Fin cfg1.W) :
    at4 m c (Proc.devRef .tc (Pipeline.arrRef spec1 w)) = (dat1 (in3 m) c).arrAt w cfg1.N := by
  unfold at4; exact Pipeline.withArrays_arr spec1 launch1.win.arr_inj c _ _ w
theorem at4_of_ne (c : Dev nD) (b : Ref sig .tc) (hb : ∀ w, Pipeline.arrRef spec1 w ≠ b) :
    at4 m c (Proc.devRef .tc b) = at3 m c (Proc.devRef .tc b) := by
  unfold at4; exact Pipeline.withArrays_of_ne spec1 c _ _ b hb
/-- The same read at the TensorCore's references. -/
abbrev out4 : (c : Dev nD) → (b : Ref sig .tc) → Buf (Elt F) ((c : Thread nD τ).loc b) := fun c b => at4 m c b
theorem hF1 (c : Dev nD) (w : Fin cfg1.W) : (dat1 (in3 m) c).arrAt w cfg1.N = out4 m c (Pipeline.arrRef spec1 w) :=
  (at4_arr m c w).symm
theorem hrest1 (c : Dev nD) : ∀ b, b ∉ Finset.univ.image (Pipeline.arrRef spec1) → out4 m c b = in3 m c b :=
  fun b hb => at4_of_ne m c b fun w e => hb (Finset.mem_image.mpr ⟨w, Finset.mem_univ _, e⟩)

/-- After the third host stretch (region 2's entry). -/
abbrev at5 : Dev nD → Valuation τ sig (Elt F) := fun c => StableHlo.after hostOps2 (at4 m c)
abbrev in5 : (c : Dev nD) → (b : Ref sig .tc) → Buf (Elt F) ((c : Thread nD τ).loc b) := fun c b => at5 m c b

/-- At region 2's exit: its arrays at what the write-backs leave, every other buffer as entered. -/
def at6 (c : Dev nD) : Valuation τ sig (Elt F) :=
  Pipeline.withArrays spec2 c (at5 m c) fun w => (dat2 (in5 m) c).arrAt w cfg2.N
theorem at6_arr (c : Dev nD) (w : Fin cfg2.W) :
    at6 m c (Proc.devRef .tc (Pipeline.arrRef spec2 w)) = (dat2 (in5 m) c).arrAt w cfg2.N := by
  unfold at6; exact Pipeline.withArrays_arr spec2 launch2.win.arr_inj c _ _ w
theorem at6_of_ne (c : Dev nD) (b : Ref sig .tc) (hb : ∀ w, Pipeline.arrRef spec2 w ≠ b) :
    at6 m c (Proc.devRef .tc b) = at5 m c (Proc.devRef .tc b) := by
  unfold at6; exact Pipeline.withArrays_of_ne spec2 c _ _ b hb
/-- The same read at the TensorCore's references. -/
abbrev out6 : (c : Dev nD) → (b : Ref sig .tc) → Buf (Elt F) ((c : Thread nD τ).loc b) := fun c b => at6 m c b
theorem hF2 (c : Dev nD) (w : Fin cfg2.W) : (dat2 (in5 m) c).arrAt w cfg2.N = out6 m c (Pipeline.arrRef spec2 w) :=
  (at6_arr m c w).symm
theorem hrest2 (c : Dev nD) : ∀ b, b ∉ Finset.univ.image (Pipeline.arrRef spec2) → out6 m c b = in5 m c b :=
  fun b hb => at6_of_ne m c b fun w e => hb (Finset.mem_image.mpr ⟨w, Finset.mem_univ _, e⟩)

/-- After the last host stretch: the program's end. -/
abbrev at7 : Dev nD → Valuation τ sig (Elt F) := fun c => StableHlo.after hostOps3 (at6 m c)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (in1 m) c
  | ⟨1, _⟩ => fun c => dat1 (in3 m) c
  | ⟨2, _⟩ => fun c => dat2 (in5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (at7 m c) ∗ ∃ r, prngReg c r)

/-! ## The regions as segments -/

set_option backward.isDefEq.respectTransparency.types false in
/-- Region 0 over the thread state: entered from every unscoped buffer at `at1`, left at `at2`. Its arrays are split
    out of the unscoped buffers and put back at their final contents; the generator register goes into the region
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (in1 m) c).loose
  hwaits := Pipeline.hwaits_of_owed_zero _ _ _ _ L lv 0 fun _ _ => rfl
  pre c := iprop(StableHlo.held (c : Thread nD τ) (Pipeline.ucRefs τ sig) (at1 m c) ∗ R c)
  post c := iprop(StableHlo.held (c : Thread nD τ) (Pipeline.ucRefs τ sig) (at2 m c) ∗ R c)
  X c := iprop(∃ r, prngReg c r)
  Y c := iprop(∃ r, prngReg c r)
  Z c := Pipeline.unscopedRest (Ix := Unit) (Name := ℕ) (U := UR sig nD τ) (Lvl := ℕ) spec0 c (in1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (in1 m) c
    unfold Pipeline.ΦA at h
    rw [show (pdats m 0 c).Φ 0 = (dat0 (in1 m) c).Φ 0 from rfl]
    iintro ⟨Hp, -, Hr⟩
    iapply h
    isplitl [Hr]; · iexact Hr
    iexact Hp
  hout c := by
    rw [Pipeline.ownSems0_none]
    have h := hout0 (in1 m) c
    unfold Pipeline.ΦA at h
    have h2 : (iprop(Pipeline.scopedRest (Ix := Unit) (Name := ℕ) (U := UR sig nD τ) (Lvl := ℕ) (Val := Elt F) spec0 c ∗ ∃ r, prngReg c r) : sProp 𝕄)
        ⊢ iprop((∃ r, prngReg c r) ∗ BI.emp ∗ Pipeline.scopedRest (Ix := Unit) (Name := ℕ) (U := UR sig nD τ) (Lvl := ℕ) (Val := Elt F) spec0 c) := by
      iintro ⟨Hr, Hp⟩
      isplitl [Hp]; · iexact Hp
      isplitr; · iempintro
      iexact Hr
    exact h.trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (in1 m c) (out2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `at3`, left at `at4`. Its arrays are split
    out of the unscoped buffers and put back at their final contents; the generator register goes into the region
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (in3 m) c).loose
  hwaits := Pipeline.hwaits_of_owed_zero _ _ _ _ L lv 1 fun _ _ => rfl
  pre c := iprop(StableHlo.held (c : Thread nD τ) (Pipeline.ucRefs τ sig) (at3 m c) ∗ R c)
  post c := iprop(StableHlo.held (c : Thread nD τ) (Pipeline.ucRefs τ sig) (at4 m c) ∗ R c)
  X c := iprop(∃ r, prngReg c r)
  Y c := iprop(∃ r, prngReg c r)
  Z c := Pipeline.unscopedRest (Ix := Unit) (Name := ℕ) (U := UR sig nD τ) (Lvl := ℕ) spec1 c (in3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (in3 m) c
    unfold Pipeline.ΦA at h
    rw [show (pdats m 1 c).Φ 0 = (dat1 (in3 m) c).Φ 0 from rfl]
    iintro ⟨Hp, -, Hr⟩
    iapply h
    isplitl [Hr]; · iexact Hr
    iexact Hp
  hout c := by
    rw [Pipeline.ownSems0_none]
    have h := hout1 (in3 m) c
    unfold Pipeline.ΦA at h
    have h2 : (iprop(Pipeline.scopedRest (Ix := Unit) (Name := ℕ) (U := UR sig nD τ) (Lvl := ℕ) (Val := Elt F) spec1 c ∗ ∃ r, prngReg c r) : sProp 𝕄)
        ⊢ iprop((∃ r, prngReg c r) ∗ BI.emp ∗ Pipeline.scopedRest (Ix := Unit) (Name := ℕ) (U := UR sig nD τ) (Lvl := ℕ) (Val := Elt F) spec1 c) := by
      iintro ⟨Hr, Hp⟩
      isplitl [Hp]; · iexact Hp
      isplitr; · iempintro
      iexact Hr
    exact h.trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in3 m c) (out4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `at5`, left at `at6`. Its arrays are split
    out of the unscoped buffers and put back at their final contents; the generator register goes into the region
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (in5 m) c).loose
  hwaits := Pipeline.hwaits_of_owed_zero _ _ _ _ L lv 2 fun _ _ => rfl
  pre c := iprop(StableHlo.held (c : Thread nD τ) (Pipeline.ucRefs τ sig) (at5 m c) ∗ R c)
  post c := iprop(StableHlo.held (c : Thread nD τ) (Pipeline.ucRefs τ sig) (at6 m c) ∗ R c)
  X c := iprop(∃ r, prngReg c r)
  Y c := iprop(∃ r, prngReg c r)
  Z c := Pipeline.unscopedRest (Ix := Unit) (Name := ℕ) (U := UR sig nD τ) (Lvl := ℕ) spec2 c (in5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (in5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (in5 m c) (out6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven items in order. -/
abbrev segs : List (Pipeline.Seg (pcfgs (F := F)) adm (pdats m) () defs₀ 𝒱₀ L lv) :=
  [ .host (hseg hostOps0 hostOps0_sub hostOps0_fresh (at0 m)),
    .region (reg0 m),
    .host (hseg hostOps1 hostOps1_sub hostOps1_fresh (at2 m)),
    .region (reg1 m),
    .host (hseg hostOps2 hostOps2_sub hostOps2_fresh (at4 m)),
    .region (reg2 m),
    .host (hseg hostOps3 hostOps3_sub hostOps3_fresh (at6 m)) ]
/-- @main is the run of these items. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = at7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (at7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at7 m c b)
    (hfin := fun c s' => by
      iintro ⟨⟨Hh, -⟩, HSI⟩
      unfold StableHlo.held
      imodintro
      iapply (pointsTo_read_all (Pipeline.ucRefs τ sig) (fun b => (((c : Thread nD τ)).1, b)) (at7 m c) s')
      isplitl [Hh] <;> iassumption)
    (hQ := fun s h c => h c)

end Cert.KernelIdeal.Hand

end
-- ==== Proof.KernelIdeal.Ends.lean ====
/- What the run ends with, read off the last boundary: the arguments, and where the results sit.

   A region changes only its output array (its input windows' arrays end as entered), and a host stretch only the
   buffers its operations write. So a buffer that no host stretch writes and that is no region's output ends at its
   launch contents: every argument array does. The scores end at what the scorer's region leaves in its output array,
   the second result is the argument `A` itself, the third the constant the last host operation writes. -/
import proofs.«166696_j11622181503541_1_alg».proof.Proof.Gen.KernelIdeal.Launch
import proofs.«166696_j11622181503541_1_alg».proof.Proof.Gen.KernelIdeal.Skeleton
import proofs.«166696_j11622181503541_1_alg».proof.Proof.Gen.KernelIdeal.Points
import proofs.«166696_j11622181503541_1_alg».proof.Proof.LibStore
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«166696_j11622181503541_1_alg».proof.Proof.KernelIdeal.Run
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibStore

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0 changes its output array `main_v1` only: an input window's array ends as entered, any other buffer is untouched. -/
theorem at2_keep (c : Dev nD) (b : Ref sig .tc) (hb : b ≠ main_v1) :
    at2 m c (Proc.devRef .tc b) = at1 m c (Proc.devRef .tc b) := by
  by_cases h : ∃ w, Pipeline.arrRef spec0 w = b
  · obtain ⟨w, rfl⟩ := h
    rw [at2_arr]
    have hin : (cfg0.win w).isOut = false := by
      revert hb
      fin_cases w <;> intro hb <;> first | rfl | exact absurd rfl hb
    exact ((dat0 (in1 m) c).arrAt_in w hin _).trans (A_eq0 (in1 m) c w)
  · exact at2_of_ne m c b fun w e => h ⟨w, e⟩

/-- Region 1 changes its output array `main_v3` only: an input window's array ends as entered, any other buffer is untouched. -/
theorem at4_keep (c : Dev nD) (b : Ref sig .tc) (hb : b ≠ main_v3) :
    at4 m c (Proc.devRef .tc b) = at3 m c (Proc.devRef .tc b) := by
  by_cases h : ∃ w, Pipeline.arrRef spec1 w = b
  · obtain ⟨w, rfl⟩ := h
    rw [at4_arr]
    have hin : (cfg1.win w).isOut = false := by
      revert hb
      fin_cases w <;> intro hb <;> first | rfl | exact absurd rfl hb
    exact ((dat1 (in3 m) c).arrAt_in w hin _).trans (A_eq1 (in3 m) c w)
  · exact at4_of_ne m c b fun w e => h ⟨w, e⟩

/-- Region 2 changes its output array `main_v24` only: an input window's array ends as entered, any other buffer is untouched. -/
theorem at6_keep (c : Dev nD) (b : Ref sig .tc) (hb : b ≠ main_v24) :
    at6 m c (Proc.devRef .tc b) = at5 m c (Proc.devRef .tc b) := by
  by_cases h : ∃ w, Pipeline.arrRef spec2 w = b
  · obtain ⟨w, rfl⟩ := h
    rw [at6_arr]
    have hin : (cfg2.win w).isOut = false := by
      revert hb
      fin_cases w <;> intro hb <;> first | rfl | exact absurd rfl hb
    exact ((dat2 (in5 m) c).arrAt_in w hin _).trans (A_eq2 (in5 m) c w)
  · exact at6_of_ne m c b fun w e => h ⟨w, e⟩

/-- A buffer no host stretch writes and no region outputs ends at its launch contents. -/
theorem at7_untouched (c : Dev nD) (b : Ref sig .tc) (h0 : b ∉ hostOps0_W) (h1 : b ∉ hostOps1_W) (h2 : b ∉ hostOps2_W)
    (h3 : b ∉ hostOps3_W) (hv1 : b ≠ main_v1) (hv3 : b ≠ main_v3) (hv24 : b ≠ main_v24) :
    at7 m c (Proc.devRef .tc b) = m ((c : Thread nD τ).loc b) :=
  (StableHlo.after_of_writes_sub hostOps3 _ hostOps3_writes h3).trans <|
  (at6_keep m c b hv24).trans <|
  (StableHlo.after_of_writes_sub hostOps2 _ hostOps2_writes h2).trans <|
  (at4_keep m c b hv3).trans <|
  (StableHlo.after_of_writes_sub hostOps1 _ hostOps1_writes h1).trans <|
  (at2_keep m c b hv1).trans <|
  (StableHlo.after_of_writes_sub hostOps0 _ hostOps0_writes h0).trans rfl

/-- THE FRAME: every weakly fair execution terminates, nothing faulting, and every argument array ends unchanged. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (at7_untouched m c main_arg0 (by decide) (by decide) (by decide) (by decide) (by decide) (by decide) (by decide)),
     (h c _ (mem_uc main_arg1 (by decide))).trans (at7_untouched m c main_arg1 (by decide) (by decide) (by decide) (by decide) (by decide) (by decide) (by decide)),
     (h c _ (mem_uc main_arg2 (by decide))).trans (at7_untouched m c main_arg2 (by decide) (by decide) (by decide) (by decide) (by decide) (by decide) (by decide)),
     (h c _ (mem_uc main_arg3 (by decide))).trans (at7_untouched m c main_arg3 (by decide) (by decide) (by decide) (by decide) (by decide) (by decide) (by decide)),
     (h c _ (mem_uc main_arg4 (by decide))).trans (at7_untouched m c main_arg4 (by decide) (by decide) (by decide) (by decide) (by decide) (by decide) (by decide)),
     (h c _ (mem_uc main_arg5 (by decide))).trans (at7_untouched m c main_arg5 (by decide) (by decide) (by decide) (by decide) (by decide) (by decide) (by decide)),
     (h c _ (mem_uc main_arg6 (by decide))).trans (at7_untouched m c main_arg6 (by decide) (by decide) (by decide) (by decide) (by decide) (by decide) (by decide)),
     (h c _ (mem_uc main_arg7 (by decide))).trans (at7_untouched m c main_arg7 (by decide) (by decide) (by decide) (by decide) (by decide) (by decide) (by decide)),
     (h c _ (mem_uc main_arg8 (by decide))).trans (at7_untouched m c main_arg8 (by decide) (by decide) (by decide) (by decide) (by decide) (by decide) (by decide))⟩)
    (run_all m ρ)

/-- The scores end at what the scorer's region leaves in its output array. -/
theorem at7_scores (c : Dev nD) : at7 m c (Proc.devRef .tc main_v24) = (dat2 (in5 m) c).arrAt 6 cfg2.N :=
  (StableHlo.after_of_writes_sub hostOps3 _ hostOps3_writes (by decide)).trans (at6_arr m c 6)

end Cert.KernelIdeal.Hand

end
-- ==== Proof.Spec.lean ====
/- The two programs' common value, as functions of the argument arrays over the extended reals.

   One propagation layer sends node features `Y` (16384 × 64) to `relu ((A · Y) · Wᵀ)`: row `r`, column `o` is
   `max (∑ d, (∑ j, A r j · Y j d) · W o d) 0`. The edge scorer sends the gathered endpoint features `hs`, `hd`
   (1048576 × 64 each) to `∑ o, σ ((∑ d, hs e d · L o d) + (∑ d, hd e d · L o (64 + d)) + b o) · w 0 o`, with
   `σ x = 1 / (1 + e⁻ˣ)` on the extended reals (`σ ⊥ = 0`, `σ ⊤ = 1`). Both are stated index by index over the
   literal shapes; every sum is a finite sum in the additive commutative monoid of the extended reals, so
   regrouping a sum (by blocks of its index range, or into its two halves) changes nothing, infinite terms or not. -/
import Idealize.ShloMosaic.PureOps.Ideal
import Idealize.ShloMosaic.Lib.ValueIdx

noncomputable section

open scoped BigOperators

namespace Cert.Spec

open Idealize.ShloMosaic Idealize.ShloMosaic.ValueIdx

/-- Row `r`, column `o` of `relu ((A · Y) · Wᵀ)`: `W` is stored output-feature by input-feature. -/
def layerAt (A : (⟨2, ![16384, 16384]⟩ : Shape).Idx → EReal) (Y : (⟨2, ![16384, 64]⟩ : Shape).Idx → EReal)
    (W : (⟨2, ![64, 64]⟩ : Shape).Idx → EReal) (r : Fin 16384) (o : Fin 64) : EReal :=
  max (∑ d : Fin 64, (∑ j : Fin 16384, A (ix2 r j) * Y (ix2 j d)) * W (ix2 o d)) 0

/-- One propagation layer, as an array. -/
def layer (A : (⟨2, ![16384, 16384]⟩ : Shape).Idx → EReal) (Y : (⟨2, ![16384, 64]⟩ : Shape).Idx → EReal)
    (W : (⟨2, ![64, 64]⟩ : Shape).Idx → EReal) : (⟨2, ![16384, 64]⟩ : Shape).Idx → EReal :=
  fun i => layerAt A Y W (i 0) (i 1)

/-- The score of edge `e`: the first linear map reads the source endpoint against the first 64 columns of `L` and the
    destination endpoint against the last 64, adds the bias, and the logistic of that is contracted with `w`. -/
def scoreAt (hs hd : (⟨2, ![1048576, 64]⟩ : Shape).Idx → EReal) (L : (⟨2, ![64, 128]⟩ : Shape).Idx → EReal)
    (b : (⟨1, ![64]⟩ : Shape).Idx → EReal) (w : (⟨2, ![1, 64]⟩ : Shape).Idx → EReal) (e : Fin 1048576) : EReal :=
  ∑ o : Fin 64,
    Ideal.logistic ((∑ d : Fin 64, hs (ix2 e d) * L (ix2 o (Fin.castAdd 64 d)))
        + (∑ d : Fin 64, hd (ix2 e d) * L (ix2 o (Fin.natAdd 64 d))) + b (ix1 o))
      * w (ix2 0 o)

/-- The edge scores, as an array with one column. -/
def score (hs hd : (⟨2, ![1048576, 64]⟩ : Shape).Idx → EReal) (L : (⟨2, ![64, 128]⟩ : Shape).Idx → EReal)
    (b : (⟨1, ![64]⟩ : Shape).Idx → EReal) (w : (⟨2, ![1, 64]⟩ : Shape).Idx → EReal) :
    (⟨2, ![1048576, 1]⟩ : Shape).Idx → EReal :=
  fun i => scoreAt hs hd L b w (i 0)

/-- A sum over 128 indices is the sum over the first 64 plus the sum over the last 64 (any additive commutative monoid). -/
theorem sum_halves {M : Type*} [AddCommMonoid M] (f : Fin 128 → M) :
    ∑ j : Fin 128, f j = (∑ d : Fin 64, f (Fin.castAdd 64 d)) + ∑ d : Fin 64, f (Fin.natAdd 64 d) :=
  Fin.sum_univ_add (a := 64) (b := 64) (f : Fin (64 + 64) → M)

/-- A sum over `16 · 1024` indices, taken block by block. -/
theorem sum_blocks {M : Type*} [AddCommMonoid M] (f : Fin 16384 → M) :
    ∑ j : Fin 16384, f j
      = ∑ s ∈ Finset.range 16, ∑ k : Fin 1024, f ⟨1024 * (s % 16) + k.val, by have := k.isLt; have := Nat.mod_lt s (show 0 < 16 by decide); omega⟩ := by
  rw [Finset.sum_range fun s => ∑ k : Fin 1024, f ⟨1024 * (s % 16) + k.val, by have := k.isLt; have := Nat.mod_lt s (show 0 < 16 by decide); omega⟩]
  rw [← Finset.sum_product']
  refine (Finset.sum_bij' (fun (p : Fin 16 × Fin 1024) _ => (⟨1024 * (p.1.val % 16) + p.2.val, by have := p.2.isLt; have := p.1.isLt; omega⟩ : Fin 16384))
    (fun (j : Fin 16384) _ => ((⟨j.val / 1024, by have := j.isLt; omega⟩ : Fin 16), (⟨j.val % 1024, Nat.mod_lt _ (by decide)⟩ : Fin 1024)))
    (fun _ _ => Finset.mem_univ _) (fun _ _ => Finset.mem_univ _) ?_ ?_ ?_).symm
  · rintro ⟨s, k⟩ _
    have hs := s.isLt; have hk := k.isLt
    refine Prod.ext (Fin.ext ?_) (Fin.ext ?_)
    · show (1024 * (s.val % 16) + k.val) / 1024 = s.val
      rw [Nat.mod_eq_of_lt hs]; omega
    · show (1024 * (s.val % 16) + k.val) % 1024 = k.val
      rw [Nat.mod_eq_of_lt hs]; omega
  · intro j _
    refine Fin.ext ?_
    show 1024 * (j.val / 1024 % 16) + j.val % 1024 = j.val
    have := j.isLt
    rw [Nat.mod_eq_of_lt (by omega : j.val / 1024 < 16)]; omega
  · rintro ⟨s, k⟩ _; rfl

end Cert.Spec

end
-- ==== Proof.KernelIdeal.Layer0Value.lean ====
/- What the first propagation layer's region leaves in its output array, over the extended reals.

   The region walks 8 row tiles by 16 column tiles; point `t` is row tile `q = t / 16`, column tile `s = t % 16`. There it
   holds the 2048 × 1024 block of `A` at `(q, s)`, the 1024 × 64 block of `Y` at `s` and the whole 64 × 64 weight array
   `Wt`, where `Wt (d, o) = W (o, d)`. Narrowing a format is the identity on the extended reals, and the zero word is `0`.

   The running sum. One step adds the tile product `∑ k < 1024, a (p, k) · y (k, d)` to what the point before left, and to
   zero at the first column tile of a row tile. Block entry `a (p, k)` is `A (2048 q + p, 1024 s + k)` and `y (k, d)` is
   `Y (1024 s + k, d)`, so after point `16 q + j` the sum at `(p, d)` is
   `∑ s ≤ j, ∑ k < 1024, A (2048 q + p, 1024 s + k) · Y (1024 s + k, d)` (induction on the point, `0 + x = x`). At `j = 15`
   this is `∑ j' < 16384, A (2048 q + p, j') · Y (j', d)`: one sum over `16 · 1024` indices taken block by block, an
   identity of any additive commutative monoid, so no entry need be finite.

   The output block. At the last column tile the block stored at `(p, o)` is `max (∑ d < 64, sum (p, d) · Wt (d, o)) 0`,
   which is the layer at row `2048 q + p`, column `o`, once `Wt (d, o)` is read as `W (o, d)`.

   The array. Only the last column tile of a row tile writes its block back, onto rows `2048 q … 2048 q + 2047`; the
   eight blocks tile the 16384 rows, so the array ends holding the layer everywhere. -/
import proofs.«166696_j11622181503541_1_alg».proof.Proof.KernelIdeal.Region0
import proofs.«166696_j11622181503541_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibStore Idealize.ShloMosaic.ValueIdx
open scoped BigOperators

variable {F : FTy → Type} [FloatOps F]

local notation "𝕄" => MT nD τ sig Unit (Elt F) ℕ (UR sig nD τ) ℕ

/-! ## The two contractions, read at an index -/

private theorem lhs_tile0_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
private theorem lhs_tile0_1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
private theorem rhs_tile0_0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
private theorem rhs_tile0_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- A row tile of `A` times a column tile's rows of `Y`, into zero: entry `(p, d)` is `∑ k, a (p, k) · y (k, d)`. -/
private theorem tile0_apply (a : FVec Ideal S2048x1024 .bf16) (y : FVec Ideal S1024x64 .bf16) (p : Fin 2048) (d : Fin 64) :
    matmul (F := Ideal) dot_S2048x1024_S1024x64_S2048x64_1_0_0_1_n_n none a y (constant (F := Ideal) S2048x64 .f32 0x00000000#32) (ix2 p d)
      = ∑ k : Fin 1024, a (ix2 p k) * y (ix2 k d) := by
  refine (Ideal.matmul_constant_zero_apply dot_S2048x1024_S1024x64_S2048x64_1_0_0_1_n_n none a y (ix2 p d)).trans ?_
  rw [← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 p d) ((contrEquiv1 dot_S2048x1024_S1024x64_S2048x64_1_0_0_1_n_n 1024 rfl rfl).symm k) = ix2 p k := funext fun b => Fin.ext (by
    match b with
    | ⟨0, _⟩ => exact lhs_tile0_0 _ _
    | ⟨1, _⟩ => exact (lhs_tile0_1 _ _).trans hk)
  have er : dot_S2048x1024_S1024x64_S2048x64_1_0_0_1_n_n.rhsIdx (ix2 p d) ((contrEquiv1 dot_S2048x1024_S1024x64_S2048x64_1_0_0_1_n_n 1024 rfl rfl).symm k) = ix2 k d := funext fun b => Fin.ext (by
    match b with
    | ⟨0, _⟩ => exact (rhs_tile0_0 _ _).trans hk
    | ⟨1, _⟩ => exact rhs_tile0_1 _ _)
  rw [el, er]

private theorem lhs_proj0_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
private theorem lhs_proj0_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
private theorem rhs_proj0_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
private theorem rhs_proj0_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- The summed tile times the weight block, into zero: entry `(p, o)` is `∑ d, s (p, d) · w (d, o)`. -/
private theorem proj0_apply (s : FVec Ideal S2048x64 .bf16) (w : FVec Ideal S64x64 .bf16) (p : Fin 2048) (o : Fin 64) :
    matmul (F := Ideal) dot_S2048x64_S64x64_S2048x64_1_0_0_1_n_n none s w (constant (F := Ideal) S2048x64 .f32 0x00000000#32) (ix2 p o)
      = ∑ d : Fin 64, s (ix2 p d) * w (ix2 d o) := by
  refine (Ideal.matmul_constant_zero_apply dot_S2048x64_S64x64_S2048x64_1_0_0_1_n_n none s w (ix2 p o)).trans ?_
  rw [← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 p o) ((contrEquiv1 dot_S2048x64_S64x64_S2048x64_1_0_0_1_n_n 64 rfl rfl).symm k) = ix2 p k := funext fun b => Fin.ext (by
    match b with
    | ⟨0, _⟩ => exact lhs_proj0_0 _ _
    | ⟨1, _⟩ => exact (lhs_proj0_1 _ _).trans hk)
  have er : dot_S2048x64_S64x64_S2048x64_1_0_0_1_n_n.rhsIdx (ix2 p o) ((contrEquiv1 dot_S2048x64_S64x64_S2048x64_1_0_0_1_n_n 64 rfl rfl).symm k) = ix2 k o := funext fun b => Fin.ext (by
    match b with
    | ⟨0, _⟩ => exact (rhs_proj0_0 _ _).trans hk
    | ⟨1, _⟩ => exact rhs_proj0_1 _ _)
  rw [el, er]

/-! ## The three payloads at an index -/

/-- The reset value is zero everywhere. -/
private theorem pay1_0_apply (i : S2048x64.Idx) : (k0_pay1 (F := Ideal)) i = (0 : EReal) := by
  unfold k0_pay1
  simp only [shapeCast_self]
  exact Ideal.ofBits_zero_f32

/-- One accumulation step adds the tile product to what was there. -/
private theorem pay2_0_apply (a : Vec Ideal S2048x1024 .f32) (y : Vec Ideal S1024x64 .f32) (z : Vec Ideal S2048x64 .f32) (p : Fin 2048) (d : Fin 64) :
    k0_pay2 a y z (ix2 p d) = z (ix2 p d) + ∑ k : Fin 1024, a (ix2 p k) * y (ix2 k d) := by
  unfold k0_pay2
  simp only [shapeCast_self]
  refine (addf_apply _ _ (ix2 p d)).trans ?_
  exact congrArg (z (ix2 p d) + ·) (tile0_apply _ _ p d)

/-- The output block is the positive part of the summed tile times the weight block. -/
private theorem pay3_0_apply (s : Vec Ideal S2048x64 .f32) (w : Vec Ideal S64x64 .f32) (p : Fin 2048) (o : Fin 64) :
    k0_pay3 s w (ix2 p o) = max (∑ d : Fin 64, s (ix2 p d) * w (ix2 d o)) (0 : EReal) := by
  unfold k0_pay3
  simp only [shapeCast_self]
  refine (maximumf_apply _ _ (ix2 p o)).trans ?_
  refine congrArg₂ max (proj0_apply _ _ p o) ?_
  exact Ideal.ofBits_zero_f32

/-! ## The blocks, read off the arrays -/

section Blocks

variable (V : (c : Dev nD) → (b : Ref sig .tc) → Buf (Elt Ideal) ((c : Thread nD τ).loc b))

/-- The block indices of the four windows at point `t`: row tile `t / 16`, column tile `t % 16`. -/
private theorem tiles0 : ∀ t : Fin cfg0.N,
    win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = 0 ∧ win0_2.index t (1 : Fin 2) = 0
    ∧ win0_3.index t (0 : Fin 2) = t.val / 16 ∧ win0_3.index t (1 : Fin 2) = 0 :=
  (by decide +kernel : ∀ t : Fin grid0.N, _)

/-- The block of `A` at point `t`, -/
private abbrev ablk0 (c : Dev nD) (t : Fin cfg0.N) : Vec Ideal S2048x1024 .f32 := iblk0 V c 0 t
/-- the block of `Y`, -/
private abbrev yblk0 (c : Dev nD) (t : Fin cfg0.N) : Vec Ideal S1024x64 .f32 := iblk0 V c 1 t
/-- the weight block, -/
private abbrev wblk0 (c : Dev nD) (t : Fin cfg0.N) : Vec Ideal S64x64 .f32 := iblk0 V c 2 t
/-- and the three arrays. -/
private abbrev aarr0 (c : Dev nD) : Vec Ideal S16384x16384 .f32 := V c main_arg1
private abbrev yarr0 (c : Dev nD) : Vec Ideal S16384x64 .f32 := V c main_arg0
private abbrev warr0 (c : Dev nD) : Vec Ideal S64x64 .f32 := V c main_v0

/-- Entry `(p, k)` of the block of `A` at row tile `t / 16`, column tile `t % 16` is `A (2048 (t / 16) + p, 1024 (t % 16) + k)`. -/
private theorem ablk0_apply (c : Dev nD) (t : Fin cfg0.N) (p : Fin 2048) (k : Fin 1024) (r j : Fin 16384)
    (hr : r.val = 2048 * (t.val / 16) + p.val) (hj : j.val = 1024 * (t.val % 16) + k.val) :
    ablk0 V c t (ix2 p k) = aarr0 V c (ix2 r j) := by
  obtain ⟨e0, e1, -⟩ := tiles0 t
  unfold ablk0 aarr0 iblk0
  rw [View.read_apply]
  show V c main_arg1 _ = V c main_arg1 _
  congr 1
  funext a
  apply Fin.ext
  match a with
  | ⟨0, _⟩ => show win0_0.index t (0 : Fin 2) * 2048 + 1 * p.val = r.val; rw [e0]; omega
  | ⟨1, _⟩ => show win0_0.index t (1 : Fin 2) * 1024 + 1 * k.val = j.val; rw [e1]; omega

/-- Entry `(k, d)` of the block of `Y` at column tile `t % 16` is `Y (1024 (t % 16) + k, d)`. -/
private theorem yblk0_apply (c : Dev nD) (t : Fin cfg0.N) (k : Fin 1024) (d : Fin 64) (j : Fin 16384)
    (hj : j.val = 1024 * (t.val % 16) + k.val) :
    yblk0 V c t (ix2 k d) = yarr0 V c (ix2 j d) := by
  obtain ⟨-, -, e0, e1, -⟩ := tiles0 t
  unfold yblk0 yarr0 iblk0
  rw [View.read_apply]
  show V c main_arg0 _ = V c main_arg0 _
  congr 1
  funext a
  apply Fin.ext
  match a with
  | ⟨0, _⟩ => show win0_1.index t (0 : Fin 2) * 1024 + 1 * k.val = j.val; rw [e0]; omega
  | ⟨1, _⟩ => show win0_1.index t (1 : Fin 2) * 64 + 1 * d.val = d.val; rw [e1]; omega

/-- The weight block is the whole weight array. -/
private theorem wblk0_apply (c : Dev nD) (t : Fin cfg0.N) (d o : Fin 64) :
    wblk0 V c t (ix2 d o) = warr0 V c (ix2 d o) := by
  obtain ⟨-, -, -, -, e0, e1, -⟩ := tiles0 t
  unfold wblk0 warr0 iblk0
  rw [View.read_apply]
  show V c main_v0 _ = V c main_v0 _
  congr 1
  funext a
  apply Fin.ext
  match a with
  | ⟨0, _⟩ => show win0_2.index t (0 : Fin 2) * 64 + 1 * d.val = d.val; rw [e0]; omega
  | ⟨1, _⟩ => show win0_2.index t (1 : Fin 2) * 64 + 1 * o.val = o.val; rw [e1]; omega

end Blocks

/-! ## The running sum, and the output block -/

section Fold

variable (V : (c : Dev nD) → (b : Ref sig .tc) → Buf (Elt Ideal) ((c : Thread nD τ).loc b))

/-- The tile product of point `t` at `(p, d)`, in the arrays' own coordinates: row `r = 2048 (t / 16) + p` of `A` against
    column `d` of `Y` over the 1024 columns of column tile `s % 16 = t % 16`. -/
private theorem tile0_sum (c : Dev nD) (t : Fin cfg0.N) (p : Fin 2048) (d : Fin 64) (r : Fin 16384) (s : ℕ)
    (hr : r.val = 2048 * (t.val / 16) + p.val) (hs : s % 16 = t.val % 16) :
    ∑ k : Fin 1024, ablk0 V c t (ix2 p k) * yblk0 V c t (ix2 k d)
      = ∑ k : Fin 1024, aarr0 V c (ix2 r ⟨1024 * (s % 16) + k.val, by have := k.isLt; have := Nat.mod_lt s (show 0 < 16 by decide); omega⟩)
          * yarr0 V c (ix2 ⟨1024 * (s % 16) + k.val, by have := k.isLt; have := Nat.mod_lt s (show 0 < 16 by decide); omega⟩ d) := by
  refine Finset.sum_congr rfl fun k _ => ?_
  rw [ablk0_apply V c t p k r ⟨1024 * (s % 16) + k.val, by have := k.isLt; have := Nat.mod_lt s (show 0 < 16 by decide); omega⟩ hr (by show 1024 * (s % 16) + k.val = _; rw [hs]),
    yblk0_apply V c t k d ⟨1024 * (s % 16) + k.val, by have := k.isLt; have := Nat.mod_lt s (show 0 < 16 by decide); omega⟩ (by show 1024 * (s % 16) + k.val = _; rw [hs])]

/-- THE RUNNING SUM after point `n`, at `(p, d)` of row tile `n / 16`: zero plus the tile products of column tiles
    `0 … n % 16` — by induction on the point, the sum starting afresh at each multiple of 16. -/
private theorem acc0_apply (c : Dev nD) : ∀ (n : ℕ) (h : n < cfg0.N) (p : Fin 2048) (d : Fin 64) (r : Fin 16384),
    r.val = 2048 * (n / 16) + p.val →
    acc0 V c n h (ix2 p d)
      = ∑ s ∈ Finset.range (n % 16 + 1), ∑ k : Fin 1024, aarr0 V c (ix2 r ⟨1024 * (s % 16) + k.val, by have := k.isLt; have := Nat.mod_lt s (show 0 < 16 by decide); omega⟩)
          * yarr0 V c (ix2 ⟨1024 * (s % 16) + k.val, by have := k.isLt; have := Nat.mod_lt s (show 0 < 16 by decide); omega⟩ d)
  | 0, h, p, d, r, hr => by
    rw [acc0_reset V c 0 h rfl]
    refine (pay2_0_apply (ablk0 V c ⟨0, h⟩) (yblk0 V c ⟨0, h⟩) (k0_pay1 (F := Ideal)) p d).trans ?_
    rw [pay1_0_apply, zero_add]
    show _ = ∑ s ∈ Finset.range 1, _
    rw [Finset.sum_range_one]
    exact tile0_sum V c ⟨0, h⟩ p d r 0 hr rfl
  | n + 1, h, p, d, r, hr => by
    by_cases h0 : (n + 1) % 16 = 0
    · rw [acc0_reset V c (n + 1) h h0]
      refine (pay2_0_apply (ablk0 V c ⟨n + 1, h⟩) (yblk0 V c ⟨n + 1, h⟩) (k0_pay1 (F := Ideal)) p d).trans ?_
      rw [pay1_0_apply, zero_add, h0]
      show _ = ∑ s ∈ Finset.range 1, _
      rw [Finset.sum_range_one]
      exact tile0_sum V c ⟨n + 1, h⟩ p d r 0 hr (by show 0 % 16 = (n + 1) % 16; omega)
    · rw [acc0_step V c n h h0]
      refine (pay2_0_apply (ablk0 V c ⟨n + 1, h⟩) (yblk0 V c ⟨n + 1, h⟩) (acc0 V c n (Nat.lt_of_succ_lt h)) p d).trans ?_
      rw [acc0_apply c n (Nat.lt_of_succ_lt h) p d r (by omega),
        show (n + 1) % 16 + 1 = (n % 16 + 1) + 1 by omega, Finset.sum_range_succ _ (n % 16 + 1)]
      exact congrArg (_ + ·) (tile0_sum V c ⟨n + 1, h⟩ p d r (n % 16 + 1) hr (by show (n % 16 + 1) % 16 = (n + 1) % 16; omega))

/-- At the last column tile of a row tile the sum runs over all 16384 columns of `A`: the sixteen blocks of 1024 regroup
    the one sum. -/
private theorem acc0_last (c : Dev nD) (t : Fin cfg0.N) (ht : t.val % 16 = 15) (p : Fin 2048) (d : Fin 64) (r : Fin 16384)
    (hr : r.val = 2048 * (t.val / 16) + p.val) :
    acc0 V c t.val t.isLt (ix2 p d) = ∑ j : Fin 16384, aarr0 V c (ix2 r j) * yarr0 V c (ix2 j d) := by
  rw [acc0_apply V c t.val t.isLt p d r hr, ht]
  exact (Cert.Spec.sum_blocks fun j => aarr0 V c (ix2 r j) * yarr0 V c (ix2 j d)).symm

/-- THE OUTPUT BLOCK stored at the last column tile of row tile `t / 16`, at `(p, o)`: the layer at row
    `2048 (t / 16) + p`, column `o` — the weight block read at `(d, o)` is `W (o, d)`. -/
private theorem out0_apply (c : Dev nD) (W : (⟨2, ![64, 64]⟩ : Shape).Idx → EReal)
    (hW : ∀ (d o : Fin 64), V c main_v0 (ix2 d o) = W (ix2 o d))
    (t : Fin cfg0.N) (ht : t.val % 16 = 15) (p : Fin 2048) (o : Fin 64) (r : Fin 16384)
    (hr : r.val = 2048 * (t.val / 16) + p.val) :
    k0_pay3 (acc0 V c t.val t.isLt) (wblk0 V c t) (ix2 p o) = Cert.Spec.layerAt (aarr0 V c) (yarr0 V c) W r o := by
  refine (pay3_0_apply (acc0 V c t.val t.isLt) (wblk0 V c t) p o).trans ?_
  unfold Cert.Spec.layerAt
  refine congrArg (max · (0 : EReal)) (Finset.sum_congr rfl fun d _ => ?_)
  rw [acc0_last V c t ht p d r hr, wblk0_apply V c t d o]
  exact congrArg (_ * ·) (hW d o)

end Fold

/-! ## From the blocks to the array -/

section Array

variable (V : (c : Dev nD) → (b : Ref sig .tc) → Buf (Elt Ideal) ((c : Thread nD τ).loc b))

/-- WHAT A POINT WRITES BACK (only the last column tile of a row tile does) is its block of the layer's array. -/
private theorem flushed0_eq (c : Dev nD) (W : (⟨2, ![64, 64]⟩ : Shape).Idx → EReal)
    (hW : ∀ (d o : Fin 64), V c main_v0 (ix2 d o) = W (ix2 o d)) (t : Fin cfg0.N) (hf : (cfg0.win 3).flush t = true) :
    (dat0 (F := Ideal) V c).flushed 3 t
      = ((cfg0.win 3).blk t).view.read (Elt Ideal) (Cert.Spec.layer (V c main_arg1) (V c main_arg0) W) := by
  have ht : t.val % 16 = 15 := (flush0_3 t).mp hf
  have hN : t.val < 128 := lt_of_lt_of_eq t.isLt (show cfg0.N = 128 from N_0)
  obtain ⟨-, -, -, -, -, -, e0, e1⟩ := tiles0 t
  show (cfg0.win 3).cut (grid0.coords t) ((dat0 (F := Ideal) V c).after 3 t) = _
  rw [after0_3]
  funext j
  obtain ⟨p, o, rfl⟩ : ∃ (p : Fin 2048) (o : Fin 64), j = ix2 p o := ⟨j 0, j 1, eq_ix2 j⟩
  rw [View.read_apply]
  refine (out0_apply V c W hW t ht p o ⟨2048 * (t.val / 16) + p.val, by have := p.isLt; omega⟩ rfl).trans ?_
  show Cert.Spec.layerAt (V c main_arg1) (V c main_arg0) W _ o
    = Cert.Spec.layer (V c main_arg1) (V c main_arg0) W (((cfg0.win 3).blk t).view.emb (ix2 p o))
  unfold Cert.Spec.layer
  congr 1
  · apply Fin.ext
    show 2048 * (t.val / 16) + p.val = win0_3.index t (0 : Fin 2) * 2048 + 1 * p.val
    rw [e0]; omega
  · apply Fin.ext
    show o.val = win0_3.index t (1 : Fin 2) * 64 + 1 * o.val
    rw [e1]; omega

/-- An index of the output array is in point `t`'s block iff each coordinate is in the block's range on its axis. -/
private theorem mem_blk0 (t : Fin cfg0.N) (i : S16384x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole (Pipeline.arrRef spec0 3)).slice (win0_3.rect t)).set ↔ _
  rw [View.set_slice_whole, Rect.mem_set_unit]
  exact Iff.rfl

/-- THE EIGHT OUTPUT BLOCKS TILE THE ARRAY: row `r` lies in the block written back at the last column tile of row tile
    `r / 2048`. -/
private theorem cover0 (i : S16384x64.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  have hN : cfg0.N = 128 := N_0
  obtain ⟨t, ht⟩ : ∃ t : Fin cfg0.N, t.val = 16 * ((i 0).val / 2048) + 15 := ⟨⟨16 * ((i 0).val / 2048) + 15, by rw [hN]; omega⟩, rfl⟩
  obtain ⟨-, -, -, -, -, -, e0, e1⟩ := tiles0 t
  refine ⟨t, (flush0_3 t).mpr (by omega), ?_⟩
  rw [mem_blk0]
  intro a
  match a with
  | ⟨0, _⟩ =>
    show win0_3.index t (0 : Fin 2) * 2048 ≤ (i 0).val ∧ (i 0).val < win0_3.index t (0 : Fin 2) * 2048 + 2048
    rw [e0]; omega
  | ⟨1, _⟩ =>
    show win0_3.index t (1 : Fin 2) * 64 ≤ (i 1).val ∧ (i 1).val < win0_3.index t (1 : Fin 2) * 64 + 64
    rw [e1]; omega

end Array

/-- THE LAYER'S VALUE: entered with the core's buffers at `V`, the region leaves in its output array
    `relu ((A · Y) · Wᵀ)`, where `A`, `Y` are the first two windows' arrays and the third window's array, read at
    `(d, o)`, is `W` at `(o, d)`. -/
theorem layer0_value (V : (c : Dev nD) → (b : Ref sig .tc) → Buf (Elt Ideal) ((c : Thread nD τ).loc b)) (c : Dev nD)
    (W : (⟨2, ![64, 64]⟩ : Shape).Idx → EReal)
    (hW : ∀ (d o : Fin 64), V c main_v0 (ix2 d o) = W (ix2 o d)) :
    (dat0 (F := Ideal) V c).arrAt 3 cfg0.N = Cert.Spec.layer (V c main_arg1) (V c main_arg0) W := by
  exact (dat0 (F := Ideal) V c).arrAt_eq_of_cover 3 (Cert.Spec.layer (V c main_arg1) (V c main_arg0) W)
    (fun t hf => flushed0_eq V c W hW t hf) cover0

end Cert.KernelIdeal.Hand

end
-- ==== Proof.KernelIdeal.Layer1Value.lean ====
/- What the second propagation layer's region leaves in its output array, over the extended reals.

   The region walks 8 row tiles by 16 column tiles; point `t` is row tile `q = t / 16`, column tile `s = t % 16`. There it
   holds the 2048 × 1024 block of `A` at `(q, s)`, the 1024 × 64 block of `Y` at `s` and the whole 64 × 64 weight array
   `Wt`, where `Wt (d, o) = W (o, d)`. Narrowing a format is the identity on the extended reals, and the zero word is `0`.

   The running sum. One step adds the tile product `∑ k < 1024, a (p, k) · y (k, d)` to what the point before left, and to
   zero at the first column tile of a row tile. Block entry `a (p, k)` is `A (2048 q + p, 1024 s + k)` and `y (k, d)` is
   `Y (1024 s + k, d)`, so after point `16 q + j` the sum at `(p, d)` is
   `∑ s ≤ j, ∑ k < 1024, A (2048 q + p, 1024 s + k) · Y (1024 s + k, d)` (induction on the point, `0 + x = x`). At `j = 15`
   this is `∑ j' < 16384, A (2048 q + p, j') · Y (j', d)`: one sum over `16 · 1024` indices taken block by block, an
   identity of any additive commutative monoid, so no entry need be finite.

   The output block. At the last column tile the block stored at `(p, o)` is `max (∑ d < 64, sum (p, d) · Wt (d, o)) 0`,
   which is the layer at row `2048 q + p`, column `o`, once `Wt (d, o)` is read as `W (o, d)`.

   The array. Only the last column tile of a row tile writes its block back, onto rows `2048 q … 2048 q + 2047`; the
   eight blocks tile the 16384 rows, so the array ends holding the layer everywhere. -/
import proofs.«166696_j11622181503541_1_alg».proof.Proof.KernelIdeal.Region1
import proofs.«166696_j11622181503541_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibStore Idealize.ShloMosaic.ValueIdx
open scoped BigOperators

variable {F : FTy → Type} [FloatOps F]

local notation "𝕄" => MT nD τ sig Unit (Elt F) ℕ (UR sig nD τ) ℕ

/-! ## The two contractions, read at an index -/

private theorem lhs_tile0_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
private theorem lhs_tile0_1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
private theorem rhs_tile0_0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
private theorem rhs_tile0_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- A row tile of `A` times a column tile's rows of `Y`, into zero: entry `(p, d)` is `∑ k, a (p, k) · y (k, d)`. -/
private theorem tile0_apply (a : FVec Ideal S2048x1024 .bf16) (y : FVec Ideal S1024x64 .bf16) (p : Fin 2048) (d : Fin 64) :
    matmul (F := Ideal) dot_S2048x1024_S1024x64_S2048x64_1_0_0_1_n_n none a y (constant (F := Ideal) S2048x64 .f32 0x00000000#32) (ix2 p d)
      = ∑ k : Fin 1024, a (ix2 p k) * y (ix2 k d) := by
  refine (Ideal.matmul_constant_zero_apply dot_S2048x1024_S1024x64_S2048x64_1_0_0_1_n_n none a y (ix2 p d)).trans ?_
  rw [← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 p d) ((contrEquiv1 dot_S2048x1024_S1024x64_S2048x64_1_0_0_1_n_n 1024 rfl rfl).symm k) = ix2 p k := funext fun b => Fin.ext (by
    match b with
    | ⟨0, _⟩ => exact lhs_tile0_0 _ _
    | ⟨1, _⟩ => exact (lhs_tile0_1 _ _).trans hk)
  have er : dot_S2048x1024_S1024x64_S2048x64_1_0_0_1_n_n.rhsIdx (ix2 p d) ((contrEquiv1 dot_S2048x1024_S1024x64_S2048x64_1_0_0_1_n_n 1024 rfl rfl).symm k) = ix2 k d := funext fun b => Fin.ext (by
    match b with
    | ⟨0, _⟩ => exact (rhs_tile0_0 _ _).trans hk
    | ⟨1, _⟩ => exact rhs_tile0_1 _ _)
  rw [el, er]

private theorem lhs_proj0_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
private theorem lhs_proj0_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
private theorem rhs_proj0_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
private theorem rhs_proj0_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- The summed tile times the weight block, into zero: entry `(p, o)` is `∑ d, s (p, d) · w (d, o)`. -/
private theorem proj0_apply (s : FVec Ideal S2048x64 .bf16) (w : FVec Ideal S64x64 .bf16) (p : Fin 2048) (o : Fin 64) :
    matmul (F := Ideal) dot_S2048x64_S64x64_S2048x64_1_0_0_1_n_n none s w (constant (F := Ideal) S2048x64 .f32 0x00000000#32) (ix2 p o)
      = ∑ d : Fin 64, s (ix2 p d) * w (ix2 d o) := by
  refine (Ideal.matmul_constant_zero_apply dot_S2048x64_S64x64_S2048x64_1_0_0_1_n_n none s w (ix2 p o)).trans ?_
  rw [← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 p o) ((contrEquiv1 dot_S2048x64_S64x64_S2048x64_1_0_0_1_n_n 64 rfl rfl).symm k) = ix2 p k := funext fun b => Fin.ext (by
    match b with
    | ⟨0, _⟩ => exact lhs_proj0_0 _ _
    | ⟨1, _⟩ => exact (lhs_proj0_1 _ _).trans hk)
  have er : dot_S2048x64_S64x64_S2048x64_1_0_0_1_n_n.rhsIdx (ix2 p o) ((contrEquiv1 dot_S2048x64_S64x64_S2048x64_1_0_0_1_n_n 64 rfl rfl).symm k) = ix2 k o := funext fun b => Fin.ext (by
    match b with
    | ⟨0, _⟩ => exact (rhs_proj0_0 _ _).trans hk
    | ⟨1, _⟩ => exact rhs_proj0_1 _ _)
  rw [el, er]

/-! ## The three payloads at an index -/

/-- The reset value is zero everywhere. -/
private theorem pay1_0_apply (i : S2048x64.Idx) : (k1_pay1 (F := Ideal)) i = (0 : EReal) := by
  unfold k1_pay1
  simp only [shapeCast_self]
  exact Ideal.ofBits_zero_f32

/-- One accumulation step adds the tile product to what was there. -/
private theorem pay2_0_apply (a : Vec Ideal S2048x1024 .f32) (y : Vec Ideal S1024x64 .f32) (z : Vec Ideal S2048x64 .f32) (p : Fin 2048) (d : Fin 64) :
    k1_pay2 a y z (ix2 p d) = z (ix2 p d) + ∑ k : Fin 1024, a (ix2 p k) * y (ix2 k d) := by
  unfold k1_pay2
  simp only [shapeCast_self]
  refine (addf_apply _ _ (ix2 p d)).trans ?_
  exact congrArg (z (ix2 p d) + ·) (tile0_apply _ _ p d)

/-- The output block is the positive part of the summed tile times the weight block. -/
private theorem pay3_0_apply (s : Vec Ideal S2048x64 .f32) (w : Vec Ideal S64x64 .f32) (p : Fin 2048) (o : Fin 64) :
    k1_pay3 s w (ix2 p o) = max (∑ d : Fin 64, s (ix2 p d) * w (ix2 d o)) (0 : EReal) := by
  unfold k1_pay3
  simp only [shapeCast_self]
  refine (maximumf_apply _ _ (ix2 p o)).trans ?_
  refine congrArg₂ max (proj0_apply _ _ p o) ?_
  exact Ideal.ofBits_zero_f32

/-! ## The blocks, read off the arrays -/

section Blocks

variable (V : (c : Dev nD) → (b : Ref sig .tc) → Buf (Elt Ideal) ((c : Thread nD τ).loc b))

/-- The block indices of the four windows at point `t`: row tile `t / 16`, column tile `t % 16`. -/
private theorem tiles0 : ∀ t : Fin cfg1.N,
    win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = 0 ∧ win1_2.index t (1 : Fin 2) = 0
    ∧ win1_3.index t (0 : Fin 2) = t.val / 16 ∧ win1_3.index t (1 : Fin 2) = 0 :=
  (by decide +kernel : ∀ t : Fin grid1.N, _)

/-- The block of `A` at point `t`, -/
private abbrev ablk0 (c : Dev nD) (t : Fin cfg1.N) : Vec Ideal S2048x1024 .f32 := iblk1 V c 0 t
/-- the block of `Y`, -/
private abbrev yblk0 (c : Dev nD) (t : Fin cfg1.N) : Vec Ideal S1024x64 .f32 := iblk1 V c 1 t
/-- the weight block, -/
private abbrev wblk0 (c : Dev nD) (t : Fin cfg1.N) : Vec Ideal S64x64 .f32 := iblk1 V c 2 t
/-- and the three arrays. -/
private abbrev aarr0 (c : Dev nD) : Vec Ideal S16384x16384 .f32 := V c main_arg1
private abbrev yarr0 (c : Dev nD) : Vec Ideal S16384x64 .f32 := V c main_v1
private abbrev warr0 (c : Dev nD) : Vec Ideal S64x64 .f32 := V c main_v2

/-- Entry `(p, k)` of the block of `A` at row tile `t / 16`, column tile `t % 16` is `A (2048 (t / 16) + p, 1024 (t % 16) + k)`. -/
private theorem ablk0_apply (c : Dev nD) (t : Fin cfg1.N) (p : Fin 2048) (k : Fin 1024) (r j : Fin 16384)
    (hr : r.val = 2048 * (t.val / 16) + p.val) (hj : j.val = 1024 * (t.val % 16) + k.val) :
    ablk0 V c t (ix2 p k) = aarr0 V c (ix2 r j) := by
  obtain ⟨e0, e1, -⟩ := tiles0 t
  unfold ablk0 aarr0 iblk1
  rw [View.read_apply]
  show V c main_arg1 _ = V c main_arg1 _
  congr 1
  funext a
  apply Fin.ext
  match a with
  | ⟨0, _⟩ => show win1_0.index t (0 : Fin 2) * 2048 + 1 * p.val = r.val; rw [e0]; omega
  | ⟨1, _⟩ => show win1_0.index t (1 : Fin 2) * 1024 + 1 * k.val = j.val; rw [e1]; omega

/-- Entry `(k, d)` of the block of `Y` at column tile `t % 16` is `Y (1024 (t % 16) + k, d)`. -/
private theorem yblk0_apply (c : Dev nD) (t : Fin cfg1.N) (k : Fin 1024) (d : Fin 64) (j : Fin 16384)
    (hj : j.val = 1024 * (t.val % 16) + k.val) :
    yblk0 V c t (ix2 k d) = yarr0 V c (ix2 j d) := by
  obtain ⟨-, -, e0, e1, -⟩ := tiles0 t
  unfold yblk0 yarr0 iblk1
  rw [View.read_apply]
  show V c main_v1 _ = V c main_v1 _
  congr 1
  funext a
  apply Fin.ext
  match a with
  | ⟨0, _⟩ => show win1_1.index t (0 : Fin 2) * 1024 + 1 * k.val = j.val; rw [e0]; omega
  | ⟨1, _⟩ => show win1_1.index t (1 : Fin 2) * 64 + 1 * d.val = d.val; rw [e1]; omega

/-- The weight block is the whole weight array. -/
private theorem wblk0_apply (c : Dev nD) (t : Fin cfg1.N) (d o : Fin 64) :
    wblk0 V c t (ix2 d o) = warr0 V c (ix2 d o) := by
  obtain ⟨-, -, -, -, e0, e1, -⟩ := tiles0 t
  unfold wblk0 warr0 iblk1
  rw [View.read_apply]
  show V c main_v2 _ = V c main_v2 _
  congr 1
  funext a
  apply Fin.ext
  match a with
  | ⟨0, _⟩ => show win1_2.index t (0 : Fin 2) * 64 + 1 * d.val = d.val; rw [e0]; omega
  | ⟨1, _⟩ => show win1_2.index t (1 : Fin 2) * 64 + 1 * o.val = o.val; rw [e1]; omega

end Blocks

/-! ## The running sum, and the output block -/

section Fold

variable (V : (c : Dev nD) → (b : Ref sig .tc) → Buf (Elt Ideal) ((c : Thread nD τ).loc b))

/-- The tile product of point `t` at `(p, d)`, in the arrays' own coordinates: row `r = 2048 (t / 16) + p` of `A` against
    column `d` of `Y` over the 1024 columns of column tile `s % 16 = t % 16`. -/
private theorem tile0_sum (c : Dev nD) (t : Fin cfg1.N) (p : Fin 2048) (d : Fin 64) (r : Fin 16384) (s : ℕ)
    (hr : r.val = 2048 * (t.val / 16) + p.val) (hs : s % 16 = t.val % 16) :
    ∑ k : Fin 1024, ablk0 V c t (ix2 p k) * yblk0 V c t (ix2 k d)
      = ∑ k : Fin 1024, aarr0 V c (ix2 r ⟨1024 * (s % 16) + k.val, by have := k.isLt; have := Nat.mod_lt s (show 0 < 16 by decide); omega⟩)
          * yarr0 V c (ix2 ⟨1024 * (s % 16) + k.val, by have := k.isLt; have := Nat.mod_lt s (show 0 < 16 by decide); omega⟩ d) := by
  refine Finset.sum_congr rfl fun k _ => ?_
  rw [ablk0_apply V c t p k r ⟨1024 * (s % 16) + k.val, by have := k.isLt; have := Nat.mod_lt s (show 0 < 16 by decide); omega⟩ hr (by show 1024 * (s % 16) + k.val = _; rw [hs]),
    yblk0_apply V c t k d ⟨1024 * (s % 16) + k.val, by have := k.isLt; have := Nat.mod_lt s (show 0 < 16 by decide); omega⟩ (by show 1024 * (s % 16) + k.val = _; rw [hs])]

/-- THE RUNNING SUM after point `n`, at `(p, d)` of row tile `n / 16`: zero plus the tile products of column tiles
    `0 … n % 16` — by induction on the point, the sum starting afresh at each multiple of 16. -/
private theorem acc1_apply (c : Dev nD) : ∀ (n : ℕ) (h : n < cfg1.N) (p : Fin 2048) (d : Fin 64) (r : Fin 16384),
    r.val = 2048 * (n / 16) + p.val →
    acc1 V c n h (ix2 p d)
      = ∑ s ∈ Finset.range (n % 16 + 1), ∑ k : Fin 1024, aarr0 V c (ix2 r ⟨1024 * (s % 16) + k.val, by have := k.isLt; have := Nat.mod_lt s (show 0 < 16 by decide); omega⟩)
          * yarr0 V c (ix2 ⟨1024 * (s % 16) + k.val, by have := k.isLt; have := Nat.mod_lt s (show 0 < 16 by decide); omega⟩ d)
  | 0, h, p, d, r, hr => by
    rw [acc1_reset V c 0 h rfl]
    refine (pay2_0_apply (ablk0 V c ⟨0, h⟩) (yblk0 V c ⟨0, h⟩) (k1_pay1 (F := Ideal)) p d).trans ?_
    rw [pay1_0_apply, zero_add]
    show _ = ∑ s ∈ Finset.range 1, _
    rw [Finset.sum_range_one]
    exact tile0_sum V c ⟨0, h⟩ p d r 0 hr rfl
  | n + 1, h, p, d, r, hr => by
    by_cases h0 : (n + 1) % 16 = 0
    · rw [acc1_reset V c (n + 1) h h0]
      refine (pay2_0_apply (ablk0 V c ⟨n + 1, h⟩) (yblk0 V c ⟨n + 1, h⟩) (k1_pay1 (F := Ideal)) p d).trans ?_
      rw [pay1_0_apply, zero_add, h0]
      show _ = ∑ s ∈ Finset.range 1, _
      rw [Finset.sum_range_one]
      exact tile0_sum V c ⟨n + 1, h⟩ p d r 0 hr (by show 0 % 16 = (n + 1) % 16; omega)
    · rw [acc1_step V c n h h0]
      refine (pay2_0_apply (ablk0 V c ⟨n + 1, h⟩) (yblk0 V c ⟨n + 1, h⟩) (acc1 V c n (Nat.lt_of_succ_lt h)) p d).trans ?_
      rw [acc1_apply c n (Nat.lt_of_succ_lt h) p d r (by omega),
        show (n + 1) % 16 + 1 = (n % 16 + 1) + 1 by omega, Finset.sum_range_succ _ (n % 16 + 1)]
      exact congrArg (_ + ·) (tile0_sum V c ⟨n + 1, h⟩ p d r (n % 16 + 1) hr (by show (n % 16 + 1) % 16 = (n + 1) % 16; omega))

/-- At the last column tile of a row tile the sum runs over all 16384 columns of `A`: the sixteen blocks of 1024 regroup
    the one sum. -/
private theorem acc1_last (c : Dev nD) (t : Fin cfg1.N) (ht : t.val % 16 = 15) (p : Fin 2048) (d : Fin 64) (r : Fin 16384)
    (hr : r.val = 2048 * (t.val / 16) + p.val) :
    acc1 V c t.val t.isLt (ix2 p d) = ∑ j : Fin 16384, aarr0 V c (ix2 r j) * yarr0 V c (ix2 j d) := by
  rw [acc1_apply V c t.val t.isLt p d r hr, ht]
  exact (Cert.Spec.sum_blocks fun j => aarr0 V c (ix2 r j) * yarr0 V c (ix2 j d)).symm

/-- THE OUTPUT BLOCK stored at the last column tile of row tile `t / 16`, at `(p, o)`: the layer at row
    `2048 (t / 16) + p`, column `o` — the weight block read at `(d, o)` is `W (o, d)`. -/
private theorem out0_apply (c : Dev nD) (W : (⟨2, ![64, 64]⟩ : Shape).Idx → EReal)
    (hW : ∀ (d o : Fin 64), V c main_v2 (ix2 d o) = W (ix2 o d))
    (t : Fin cfg1.N) (ht : t.val % 16 = 15) (p : Fin 2048) (o : Fin 64) (r : Fin 16384)
    (hr : r.val = 2048 * (t.val / 16) + p.val) :
    k1_pay3 (acc1 V c t.val t.isLt) (wblk0 V c t) (ix2 p o) = Cert.Spec.layerAt (aarr0 V c) (yarr0 V c) W r o := by
  refine (pay3_0_apply (acc1 V c t.val t.isLt) (wblk0 V c t) p o).trans ?_
  unfold Cert.Spec.layerAt
  refine congrArg (max · (0 : EReal)) (Finset.sum_congr rfl fun d _ => ?_)
  rw [acc1_last V c t ht p d r hr, wblk0_apply V c t d o]
  exact congrArg (_ * ·) (hW d o)

end Fold

/-! ## From the blocks to the array -/

section Array

variable (V : (c : Dev nD) → (b : Ref sig .tc) → Buf (Elt Ideal) ((c : Thread nD τ).loc b))

/-- WHAT A POINT WRITES BACK (only the last column tile of a row tile does) is its block of the layer's array. -/
private theorem flushed0_eq (c : Dev nD) (W : (⟨2, ![64, 64]⟩ : Shape).Idx → EReal)
    (hW : ∀ (d o : Fin 64), V c main_v2 (ix2 d o) = W (ix2 o d)) (t : Fin cfg1.N) (hf : (cfg1.win 3).flush t = true) :
    (dat1 (F := Ideal) V c).flushed 3 t
      = ((cfg1.win 3).blk t).view.read (Elt Ideal) (Cert.Spec.layer (V c main_arg1) (V c main_v1) W) := by
  have ht : t.val % 16 = 15 := (flush1_3 t).mp hf
  have hN : t.val < 128 := lt_of_lt_of_eq t.isLt (show cfg1.N = 128 from N_1)
  obtain ⟨-, -, -, -, -, -, e0, e1⟩ := tiles0 t
  show (cfg1.win 3).cut (grid1.coords t) ((dat1 (F := Ideal) V c).after 3 t) = _
  rw [after1_3]
  funext j
  obtain ⟨p, o, rfl⟩ : ∃ (p : Fin 2048) (o : Fin 64), j = ix2 p o := ⟨j 0, j 1, eq_ix2 j⟩
  rw [View.read_apply]
  refine (out0_apply V c W hW t ht p o ⟨2048 * (t.val / 16) + p.val, by have := p.isLt; omega⟩ rfl).trans ?_
  show Cert.Spec.layerAt (V c main_arg1) (V c main_v1) W _ o
    = Cert.Spec.layer (V c main_arg1) (V c main_v1) W (((cfg1.win 3).blk t).view.emb (ix2 p o))
  unfold Cert.Spec.layer
  congr 1
  · apply Fin.ext
    show 2048 * (t.val / 16) + p.val = win1_3.index t (0 : Fin 2) * 2048 + 1 * p.val
    rw [e0]; omega
  · apply Fin.ext
    show o.val = win1_3.index t (1 : Fin 2) * 64 + 1 * o.val
    rw [e1]; omega

/-- An index of the output array is in point `t`'s block iff each coordinate is in the block's range on its axis. -/
private theorem mem_blk0 (t : Fin cfg1.N) (i : S16384x64.Idx) :
    i ∈ ((cfg1.win 3).blk t).view.set ↔ ∀ a : Fin 2, win1_3.index t a * S2048x64.size a ≤ (i a).val ∧ (i a).val < win1_3.index t a * S2048x64.size a + S2048x64.size a := by
  show i ∈ ((View.whole (Pipeline.arrRef spec1 3)).slice (win1_3.rect t)).set ↔ _
  rw [View.set_slice_whole, Rect.mem_set_unit]
  exact Iff.rfl

/-- THE EIGHT OUTPUT BLOCKS TILE THE ARRAY: row `r` lies in the block written back at the last column tile of row tile
    `r / 2048`. -/
private theorem cover0 (i : S16384x64.Idx) :
    ∃ t : Fin cfg1.N, (cfg1.win 3).flush t = true ∧ i ∈ ((cfg1.win 3).blk t).view.set := by
  have hi0 : (i 0).val < 16384 := (i 0).isLt
  have hi1 : (i 1).val < 64 := (i 1).isLt
  have hN : cfg1.N = 128 := N_1
  obtain ⟨t, ht⟩ : ∃ t : Fin cfg1.N, t.val = 16 * ((i 0).val / 2048) + 15 := ⟨⟨16 * ((i 0).val / 2048) + 15, by rw [hN]; omega⟩, rfl⟩
  obtain ⟨-, -, -, -, -, -, e0, e1⟩ := tiles0 t
  refine ⟨t, (flush1_3 t).mpr (by omega), ?_⟩
  rw [mem_blk0]
  intro a
  match a with
  | ⟨0, _⟩ =>
    show win1_3.index t (0 : Fin 2) * 2048 ≤ (i 0).val ∧ (i 0).val < win1_3.index t (0 : Fin 2) * 2048 + 2048
    rw [e0]; omega
  | ⟨1, _⟩ =>
    show win1_3.index t (1 : Fin 2) * 64 ≤ (i 1).val ∧ (i 1).val < win1_3.index t (1 : Fin 2) * 64 + 64
    rw [e1]; omega

end Array

/-- THE LAYER'S VALUE: entered with the core's buffers at `V`, the region leaves in its output array
    `relu ((A · Y) · Wᵀ)`, where `A`, `Y` are the first two windows' arrays and the third window's array, read at
    `(d, o)`, is `W` at `(o, d)`. -/
theorem layer1_value (V : (c : Dev nD) → (b : Ref sig .tc) → Buf (Elt Ideal) ((c : Thread nD τ).loc b)) (c : Dev nD)
    (W : (⟨2, ![64, 64]⟩ : Shape).Idx → EReal)
    (hW : ∀ (d o : Fin 64), V c main_v2 (ix2 d o) = W (ix2 o d)) :
    (dat1 (F := Ideal) V c).arrAt 3 cfg1.N = Cert.Spec.layer (V c main_arg1) (V c main_v1) W := by
  exact (dat1 (F := Ideal) V c).arrAt_eq_of_cover 3 (Cert.Spec.layer (V c main_arg1) (V c main_v1) W)
    (fun t hf => flushed0_eq V c W hW t hf) cover0

end Cert.KernelIdeal.Hand

end
-- ==== Proof.KernelIdeal.ScoreValue.lean ====
/- What the edge scorer's region leaves in its output array, over the extended reals.

   The 1048576 edges are cut into 128 tiles of 8192. On tile `t` the body holds rows `8192 t … 8192 t + 8191` of the two
   gathered endpoint arrays `hs`, `hd` (8192 × 64 each) and, whole, the four small operands `w1s`, `w1d` (64 × 64), the bias
   row `b1` (1 × 64) and the column `w3` (64 × 1). Each of its three matrix products starts from the zero matrix, so at
   an entry it is the plain finite sum of the operands' products over the 64 contracted indices; the bias row is
   repeated down the 8192 rows; the logistic acts entry by entry; the changes of number format are the identity on
   extended reals. So row `p` of the tile's result is

     `∑ o < 64, σ ((∑ d < 64, hs (8192 t + p, d) · w1s (d, o)) + (∑ d < 64, hd (8192 t + p, d) · w1d (d, o)) + b1 (0, o)) · w3 (o, 0)`.

   With `w1s (d, o) = L (o, d)`, `w1d (d, o) = L (o, 64 + d)`, `b1 (0, o) = b o` and `w3 (o, 0) = w (0, o)` this is, summand by
   summand, the score of edge `e = 8192 t + p`. Every tile is written back, tile `t` onto rows `8192 t … 8192 t + 8191` of the
   output, and edge `e` lies in tile `e / 8192`: the tiles cover the array, which therefore ends holding the scores. -/
import proofs.«166696_j11622181503541_1_alg».proof.Proof.KernelIdeal.Region2
import proofs.«166696_j11622181503541_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibStore Idealize.ShloMosaic.ValueIdx
open scoped BigOperators

variable {F : FTy → Type} [FloatOps F]

local notation "𝕄" => MT nD τ sig Unit (Elt F) ℕ (UR sig nD τ) ℕ

/-! ## The two matrix products at an entry

For an 8192 × 64 left operand and a 64 × n right operand, contracted over the left's columns and the right's rows, the
left index of output entry `(p, o)` at contraction index `k` is `(p, k)` and the right index is `(k, o)`. -/

private theorem feat_lhs_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
private theorem feat_lhs_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
private theorem feat_rhs_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
private theorem feat_rhs_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- The 8192 × 64 by 64 × 64 product into the zero matrix: entry `(p, o)` is `∑ d < 64, a (p, d) · b (d, o)`. -/
private theorem feat_product_apply (a : FVec Ideal S8192x64 .bf16) (b : FVec Ideal S64x64 .bf16) (p : Fin 8192) (o : Fin 64) :
    matmul dot_S8192x64_S64x64_S8192x64_1_0_0_1_n_n none a b (constant (F := Ideal) S8192x64 .f32 0x00000000#32) (ix2 p o)
      = ∑ d : Fin 64, a (ix2 p d) * b (ix2 d o) := by
  simp only [matmul]
  rw [Ideal.matmul_constant_zero_apply, ← Equiv.sum_comp (ValueIdx.contrEquiv1 dot_S8192x64_S64x64_S8192x64_1_0_0_1_n_n 64 rfl rfl).symm]
  refine Finset.sum_congr rfl fun k _ => ?_
  have hk := ValueIdx.contrEquiv1_symm_val dot_S8192x64_S64x64_S8192x64_1_0_0_1_n_n 64 rfl rfl k
  have el : dot_S8192x64_S64x64_S8192x64_1_0_0_1_n_n.lhsIdx (ix2 p o) ((ValueIdx.contrEquiv1 dot_S8192x64_S64x64_S8192x64_1_0_0_1_n_n 64 rfl rfl).symm k) = ix2 p k := funext fun a => Fin.ext (by
    match a with
    | ⟨0, _⟩ => exact feat_lhs_0 _ _
    | ⟨1, _⟩ => exact (feat_lhs_1 _ _).trans hk)
  have er : dot_S8192x64_S64x64_S8192x64_1_0_0_1_n_n.rhsIdx (ix2 p o) ((ValueIdx.contrEquiv1 dot_S8192x64_S64x64_S8192x64_1_0_0_1_n_n 64 rfl rfl).symm k) = ix2 k o := funext fun a => Fin.ext (by
    match a with
    | ⟨0, _⟩ => exact (feat_rhs_0 _ _).trans hk
    | ⟨1, _⟩ => exact feat_rhs_1 _ _)
  rw [el, er]

private theorem out_lhs_0 (i : S8192x1.Idx) (q : dot_S8192x64_S64x1_S8192x1_1_0_0_1_n_n.contr.Idx) :
    (dot_S8192x64_S64x1_S8192x1_1_0_0_1_n_n.lhsIdx i q 0).val = (i 0).val := by
  unfold DotDims.lhsIdx
  rw [dif_neg (show ¬(0 : Fin S8192x64.rank) ∈ dot_S8192x64_S64x1_S8192x1_1_0_0_1_n_n.lhsBatch by decide), dif_pos (show (0 : Fin S8192x64.rank) ∈ dot_S8192x64_S64x1_S8192x1_1_0_0_1_n_n.lhsNonContracting by decide)]
  rfl
private theorem out_lhs_1 (i : S8192x1.Idx) (q : dot_S8192x64_S64x1_S8192x1_1_0_0_1_n_n.contr.Idx) :
    (dot_S8192x64_S64x1_S8192x1_1_0_0_1_n_n.lhsIdx i q 1).val = (q ⟨0, by decide⟩).val :=
  dot_S8192x64_S64x1_S8192x1_1_0_0_1_n_n.lhsIdx_val_of_single rfl i q
private theorem out_rhs_0 (i : S8192x1.Idx) (q : dot_S8192x64_S64x1_S8192x1_1_0_0_1_n_n.contr.Idx) :
    (dot_S8192x64_S64x1_S8192x1_1_0_0_1_n_n.rhsIdx i q 0).val = (q ⟨0, by decide⟩).val :=
  dot_S8192x64_S64x1_S8192x1_1_0_0_1_n_n.rhsIdx_val_of_single rfl i q
private theorem out_rhs_1 (i : S8192x1.Idx) (q : dot_S8192x64_S64x1_S8192x1_1_0_0_1_n_n.contr.Idx) :
    (dot_S8192x64_S64x1_S8192x1_1_0_0_1_n_n.rhsIdx i q 1).val = (i 1).val := by
  unfold DotDims.rhsIdx
  rw [dif_neg (show ¬(1 : Fin S64x1.rank) ∈ dot_S8192x64_S64x1_S8192x1_1_0_0_1_n_n.rhsBatch by decide), dif_pos (show (1 : Fin S64x1.rank) ∈ dot_S8192x64_S64x1_S8192x1_1_0_0_1_n_n.rhsNonContracting by decide)]
  rfl

/-- The 8192 × 64 by 64 × 1 product into the zero column: entry `(p, z)` is `∑ o < 64, a (p, o) · b (o, z)`. -/
private theorem out_product_apply (a : FVec Ideal S8192x64 .bf16) (b : FVec Ideal S64x1 .bf16) (p : Fin 8192) (z : Fin 1) :
    matmul dot_S8192x64_S64x1_S8192x1_1_0_0_1_n_n none a b (constant (F := Ideal) S8192x1 .f32 0x00000000#32) (ix2 p z)
      = ∑ o : Fin 64, a (ix2 p o) * b (ix2 o z) := by
  simp only [matmul]
  rw [Ideal.matmul_constant_zero_apply, ← Equiv.sum_comp (ValueIdx.contrEquiv1 dot_S8192x64_S64x1_S8192x1_1_0_0_1_n_n 64 rfl rfl).symm]
  refine Finset.sum_congr rfl fun k _ => ?_
  have hk := ValueIdx.contrEquiv1_symm_val dot_S8192x64_S64x1_S8192x1_1_0_0_1_n_n 64 rfl rfl k
  have el : dot_S8192x64_S64x1_S8192x1_1_0_0_1_n_n.lhsIdx (ix2 p z) ((ValueIdx.contrEquiv1 dot_S8192x64_S64x1_S8192x1_1_0_0_1_n_n 64 rfl rfl).symm k) = ix2 p k := funext fun a => Fin.ext (by
    match a with
    | ⟨0, _⟩ => exact out_lhs_0 _ _
    | ⟨1, _⟩ => exact (out_lhs_1 _ _).trans hk)
  have er : dot_S8192x64_S64x1_S8192x1_1_0_0_1_n_n.rhsIdx (ix2 p z) ((ValueIdx.contrEquiv1 dot_S8192x64_S64x1_S8192x1_1_0_0_1_n_n 64 rfl rfl).symm k) = ix2 k z := funext fun a => Fin.ext (by
    match a with
    | ⟨0, _⟩ => exact (out_rhs_0 _ _).trans hk
    | ⟨1, _⟩ => exact out_rhs_1 _ _)
  rw [el, er]

/-- The 1 × 64 bias row repeated down 8192 rows: entry `(p, o)` is the row's entry `(0, o)`. -/
private theorem bias_rows_apply (x : FVec Ideal S1x64 .f32) (p : Fin 8192) (o : Fin 64) :
    broadcastTo S8192x64 x broadcasts_S1x64_S8192x64 (ix2 p o) = x (ix2 (0 : Fin 1) o) := by
  refine broadcastTo_apply x broadcasts_S1x64_S8192x64 (ix2 p o) (ix2 (0 : Fin 1) o) fun a => ?_
  match a with
  | ⟨0, _⟩ => rfl
  | ⟨1, _⟩ => rfl

/-- ONE TILE'S RESULT at row `p`: the logistic of the two 64-term sums plus the bias, contracted with the column — the
    three products read as sums, the bias row read at its column, everything else entry by entry. -/
private theorem tile_score_apply (x0 x1 : Vec Ideal S8192x64 .f32) (x2 x3 : Vec Ideal S64x64 .f32) (x4 : Vec Ideal S1x64 .f32)
    (x5 : Vec Ideal S64x1 .f32) (p : Fin 8192) (z : Fin 1) :
    k2_pay1 x0 x1 x2 x3 x4 x5 (ix2 p z)
      = ∑ o : Fin 64, Ideal.logistic ((∑ d : Fin 64, x0 (ix2 p d) * x2 (ix2 d o)) + (∑ d : Fin 64, x1 (ix2 p d) * x3 (ix2 d o))
          + x4 (ix2 (0 : Fin 1) o)) * x5 (ix2 o z) := by
  unfold k2_pay1
  simp only [shapeCast_self]
  refine (out_product_apply _ _ p z).trans ?_
  refine Finset.sum_congr rfl fun o _ => ?_
  refine congrArg (· * x5 (ix2 o z)) ?_
  refine congrArg Ideal.logistic ?_
  refine congrArg₂ (· + ·) (congrArg₂ (· + ·) (feat_product_apply _ _ p o) (feat_product_apply _ _ p o)) (bias_rows_apply _ p o)

/-! ## The tiles' blocks as rows of the arrays -/

section Tiles

variable (V : (c : Dev nD) → (b : Ref sig .tc) → Buf (Elt Ideal) ((c : Thread nD τ).loc b)) (c : Dev nD)

/-- At tile `t` the two endpoint arrays and the output are at row block `t`, column block 0; the four small operands
    are at block (0, 0). -/
private theorem block_index : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row `p` of tile `t`'s source-endpoint block is row `8192 t + p` of the array. -/
private theorem src_block_apply (t : Fin cfg2.N) (p : Fin 8192) (d : Fin 64) (e : Fin 1048576) (he : e.val = 8192 * t.val + p.val) :
    (iblk2 V c 0 t : Vec Ideal S8192x64 .f32) (ix2 p d) = V c main_v10 (ix2 e d) := by
  unfold iblk2
  rw [View.read_apply]
  show V c main_v10 _ = V c main_v10 _
  congr 1
  funext a
  apply Fin.ext
  obtain ⟨h0, h1, -⟩ := block_index t
  match a with
  | ⟨0, _⟩ => show win2_0.index t (0 : Fin 2) * 8192 + 1 * p.val = e.val; rw [h0, he]; omega
  | ⟨1, _⟩ => show win2_0.index t (1 : Fin 2) * 64 + 1 * d.val = d.val; rw [h1]; omega

/-- Row `p` of tile `t`'s destination-endpoint block is row `8192 t + p` of the array. -/
private theorem dst_block_apply (t : Fin cfg2.N) (p : Fin 8192) (d : Fin 64) (e : Fin 1048576) (he : e.val = 8192 * t.val + p.val) :
    (iblk2 V c 1 t : Vec Ideal S8192x64 .f32) (ix2 p d) = V c main_v17 (ix2 e d) := by
  unfold iblk2
  rw [View.read_apply]
  show V c main_v17 _ = V c main_v17 _
  congr 1
  funext a
  apply Fin.ext
  obtain ⟨-, -, h0, h1, -⟩ := block_index t
  match a with
  | ⟨0, _⟩ => show win2_1.index t (0 : Fin 2) * 8192 + 1 * p.val = e.val; rw [h0, he]; omega
  | ⟨1, _⟩ => show win2_1.index t (1 : Fin 2) * 64 + 1 * d.val = d.val; rw [h1]; omega

/-- The first 64 × 64 operand's block is the whole array, at every tile. -/
private theorem w1s_block_apply (t : Fin cfg2.N) (d o : Fin 64) :
    (iblk2 V c 2 t : Vec Ideal S64x64 .f32) (ix2 d o) = V c main_v19 (ix2 d o) := by
  unfold iblk2
  rw [View.read_apply]
  show V c main_v19 _ = V c main_v19 _
  congr 1
  funext a
  apply Fin.ext
  obtain ⟨-, -, -, -, h0, h1, -⟩ := block_index t
  match a with
  | ⟨0, _⟩ => show win2_2.index t (0 : Fin 2) * 64 + 1 * d.val = d.val; rw [h0]; omega
  | ⟨1, _⟩ => show win2_2.index t (1 : Fin 2) * 64 + 1 * o.val = o.val; rw [h1]; omega

/-- The second 64 × 64 operand's block is the whole array. -/
private theorem w1d_block_apply (t : Fin cfg2.N) (d o : Fin 64) :
    (iblk2 V c 3 t : Vec Ideal S64x64 .f32) (ix2 d o) = V c main_v21 (ix2 d o) := by
  unfold iblk2
  rw [View.read_apply]
  show V c main_v21 _ = V c main_v21 _
  congr 1
  funext a
  apply Fin.ext
  obtain ⟨-, -, -, -, -, -, h0, h1, -⟩ := block_index t
  match a with
  | ⟨0, _⟩ => show win2_3.index t (0 : Fin 2) * 64 + 1 * d.val = d.val; rw [h0]; omega
  | ⟨1, _⟩ => show win2_3.index t (1 : Fin 2) * 64 + 1 * o.val = o.val; rw [h1]; omega

/-- The bias row's block is the whole row. -/
private theorem bias_block_apply (t : Fin cfg2.N) (o : Fin 64) :
    (iblk2 V c 4 t : Vec Ideal S1x64 .f32) (ix2 (0 : Fin 1) o) = V c main_v22 (ix2 (0 : Fin 1) o) := by
  unfold iblk2
  rw [View.read_apply]
  show V c main_v22 _ = V c main_v22 _
  congr 1
  funext a
  apply Fin.ext
  obtain ⟨-, -, -, -, -, -, -, -, h0, h1, -⟩ := block_index t
  match a with
  | ⟨0, _⟩ => show win2_4.index t (0 : Fin 2) * 1 + 1 * 0 = 0; rw [h0]
  | ⟨1, _⟩ => show win2_4.index t (1 : Fin 2) * 64 + 1 * o.val = o.val; rw [h1]; omega

/-- The 64 × 1 column's block is the whole column. -/
private theorem w3_block_apply (t : Fin cfg2.N) (o : Fin 64) :
    (iblk2 V c 5 t : Vec Ideal S64x1 .f32) (ix2 o (0 : Fin 1)) = V c main_v23 (ix2 o (0 : Fin 1)) := by
  unfold iblk2
  rw [View.read_apply]
  show V c main_v23 _ = V c main_v23 _
  congr 1
  funext a
  apply Fin.ext
  obtain ⟨-, -, -, -, -, -, -, -, -, -, h0, h1, -⟩ := block_index t
  match a with
  | ⟨0, _⟩ => show win2_5.index t (0 : Fin 2) * 64 + 1 * o.val = o.val; rw [h0]; omega
  | ⟨1, _⟩ => show win2_5.index t (1 : Fin 2) * 1 + 1 * 0 = 0; rw [h1]

variable (L : (⟨2, ![64, 128]⟩ : Shape).Idx → EReal) (b : (⟨1, ![64]⟩ : Shape).Idx → EReal) (w : (⟨2, ![1, 64]⟩ : Shape).Idx → EReal)

/-- WHAT TILE `t` WRITES BACK is rows `8192 t … 8192 t + 8191` of the score array: at row `p` the tile's result is the sum
    over `o` above, its operands are rows `8192 t + p` of `hs`, `hd` and the whole small arrays, and the four hypotheses turn
    each summand into the score's summand for edge `8192 t + p`. -/
private theorem tile_written
    (hw1s : ∀ (d o : Fin 64), V c main_v19 (ix2 d o) = L (ix2 o (Fin.castAdd 64 d)))
    (hw1d : ∀ (d o : Fin 64), V c main_v21 (ix2 d o) = L (ix2 o (Fin.natAdd 64 d)))
    (hb : ∀ o : Fin 64, V c main_v22 (ix2 0 o) = b (ix1 o))
    (hw3 : ∀ o : Fin 64, V c main_v23 (ix2 o 0) = w (ix2 0 o)) (t : Fin cfg2.N) :
    (dat2 (F := Ideal) V c).flushed 6 t
      = ((cfg2.win 6).blk t).view.read (Elt Ideal) (Cert.Spec.score (V c main_v10) (V c main_v17) L b w) := by
  show (cfg2.win 6).cut (grid2.coords t) ((dat2 V c).after 6 t) = _
  rw [after2_6]
  refine funext fun (y : S8192x1.Idx) => ?_
  obtain ⟨p, z, rfl⟩ : ∃ (p : Fin 8192) (z : Fin 1), y = ix2 p z := ⟨y 0, y 1, eq_ix2 y⟩
  obtain rfl : z = 0 := Subsingleton.elim _ _
  rw [View.read_apply]
  have hN : cfg2.N = 128 := N_2
  have ht : t.val < 128 := hN ▸ t.isLt
  obtain ⟨-, -, -, -, -, -, -, -, -, -, -, -, h0, h1⟩ := block_index t
  have hlt : 8192 * t.val + p.val < 1048576 := by omega
  have he : (((cfg2.win 6).blk t).view.emb (ix2 p (0 : Fin 1)) : S1048576x1.Idx) (0 : Fin 2) = (⟨8192 * t.val + p.val, hlt⟩ : Fin 1048576) := by
    apply Fin.ext
    show win2_6.index t (0 : Fin 2) * 8192 + 1 * p.val = 8192 * t.val + p.val
    rw [h0]; omega
  show k2_pay1 (iblk2 V c 0 t) (iblk2 V c 1 t) (iblk2 V c 2 t) (iblk2 V c 3 t) (iblk2 V c 4 t) (iblk2 V c 5 t) (ix2 p (0 : Fin 1))
      = Cert.Spec.scoreAt (V c main_v10) (V c main_v17) L b w ((((cfg2.win 6).blk t).view.emb (ix2 p (0 : Fin 1)) : S1048576x1.Idx) (0 : Fin 2))
  rw [he]
  refine (tile_score_apply _ _ _ _ _ _ p 0).trans ?_
  unfold Cert.Spec.scoreAt
  refine Finset.sum_congr rfl fun o _ => ?_
  rw [bias_block_apply V c t o, w3_block_apply V c t o, hb o, hw3 o]
  refine congrArg (fun x => Ideal.logistic (x + b (ix1 o)) * w (ix2 0 o)) ?_
  refine congrArg₂ (· + ·) (Finset.sum_congr rfl fun d _ => ?_) (Finset.sum_congr rfl fun d _ => ?_)
  · rw [src_block_apply V c t p d ⟨8192 * t.val + p.val, hlt⟩ rfl, w1s_block_apply V c t d o, hw1s d o]
  · rw [dst_block_apply V c t p d ⟨8192 * t.val + p.val, hlt⟩ rfl, w1d_block_apply V c t d o, hw1d d o]

/-- An index of the output is in tile `t`'s block iff each coordinate is in the block's range on its axis. -/
private theorem mem_tile (t : Fin cfg2.N) (i : S1048576x1.Idx) :
    i ∈ ((cfg2.win 6).blk t).view.set ↔ ∀ a : Fin 2, win2_6.index t a * S8192x1.size a ≤ (i a).val ∧ (i a).val < win2_6.index t a * S8192x1.size a + S8192x1.size a := by
  show i ∈ ((View.whole main_v24).slice (win2_6.rect t)).set ↔ _
  rw [View.set_slice_whole, Rect.mem_set_unit]
  exact Iff.rfl

/-- Edge `e` lies in tile `e / 8192`, and every tile is written back: the tiles cover the output. -/
private theorem tiles_cover (i : S1048576x1.Idx) : ∃ t : Fin cfg2.N, (cfg2.win 6).flush t = true ∧ i ∈ ((cfg2.win 6).blk t).view.set := by
  have hN : cfg2.N = 128 := N_2
  have hi0 : (i 0).val < 1048576 := (i 0).isLt
  have hi1 : (i 1).val < 1 := (i 1).isLt
  refine ⟨⟨(i 0).val / 8192, by rw [hN]; omega⟩, flush2_6 _, ?_⟩
  rw [mem_tile]
  obtain ⟨-, -, -, -, -, -, -, -, -, -, -, -, h0, h1⟩ := block_index ⟨(i 0).val / 8192, by rw [hN]; omega⟩
  intro a
  match a with
  | ⟨0, _⟩ =>
    show win2_6.index _ (0 : Fin 2) * 8192 ≤ (i 0).val ∧ (i 0).val < win2_6.index _ (0 : Fin 2) * 8192 + 8192
    rw [h0]; show (i 0).val / 8192 * 8192 ≤ (i 0).val ∧ (i 0).val < (i 0).val / 8192 * 8192 + 8192; omega
  | ⟨1, _⟩ =>
    show win2_6.index _ (1 : Fin 2) * 1 ≤ (i 1).val ∧ (i 1).val < win2_6.index _ (1 : Fin 2) * 1 + 1
    rw [h1]; omega

end Tiles

/-- THE SCORER'S VALUE: entered with the core's buffers at `V`, the region leaves in its output array the edge
    scores of the first two windows' arrays (the gathered endpoint rows), where the four small windows' arrays are
    the two halves of `L` transposed, the bias as a row and `w` as a column. -/
theorem score_value (V : (c : Dev nD) → (b : Ref sig .tc) → Buf (Elt Ideal) ((c : Thread nD τ).loc b)) (c : Dev nD)
    (L : (⟨2, ![64, 128]⟩ : Shape).Idx → EReal) (b : (⟨1, ![64]⟩ : Shape).Idx → EReal) (w : (⟨2, ![1, 64]⟩ : Shape).Idx → EReal)
    (hw1s : ∀ (d o : Fin 64), V c main_v19 (ix2 d o) = L (ix2 o (Fin.castAdd 64 d)))
    (hw1d : ∀ (d o : Fin 64), V c main_v21 (ix2 d o) = L (ix2 o (Fin.natAdd 64 d)))
    (hb : ∀ o : Fin 64, V c main_v22 (ix2 0 o) = b (ix1 o))
    (hw3 : ∀ o : Fin 64, V c main_v23 (ix2 o 0) = w (ix2 0 o)) :
    (dat2 (F := Ideal) V c).arrAt 6 cfg2.N = Cert.Spec.score (V c main_v10) (V c main_v17) L b w :=
  (dat2 (F := Ideal) V c).arrAt_eq_of_cover 6 (Cert.Spec.score (V c main_v10) (V c main_v17) L b w)
    (fun t _ => tile_written V c L b w hw1s hw1d hb hw3 t) (tiles_cover)

end Cert.KernelIdeal.Hand

end
-- ==== Proof.KernelIdeal.Value.lean ====
/- The idealized kernel program's results as functions of its arguments, over the extended reals.

   Read boundary by boundary: the first region is entered with `A` and `X` as launched and the first weight matrix
   transposed, so it leaves `H₁ = relu ((A · X) · W₁ᵀ)`; the second is entered with `A`, `H₁` and the second weight
   matrix transposed, so it leaves `H₂ = relu ((A · H₁) · W₃ᵀ)`; the host operations before the scorer gather the rows of
   `H₂` at the edges' endpoints and prepare the two halves of the first linear map transposed (a transposed slice of
   `L` at `(d, o)` is `L` at `(o, d)`, respectively `(o, 64 + d)`), the bias as a row and the second map as a column; so the
   scorer leaves the edge scores of `Spec.lean`. The second result is the argument `A`, the third the constant zero. -/
import proofs.«166696_j11622181503541_1_alg».proof.Proof.Gen.KernelIdeal.Launch
import proofs.«166696_j11622181503541_1_alg».proof.Proof.Gen.KernelIdeal.Skeleton
import proofs.«166696_j11622181503541_1_alg».proof.Proof.Gen.KernelIdeal.Points
import proofs.«166696_j11622181503541_1_alg».proof.Proof.LibStore
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«166696_j11622181503541_1_alg».proof.Proof.KernelIdeal.Ends
import proofs.«166696_j11622181503541_1_alg».proof.Proof.KernelIdeal.Layer0Value
import proofs.«166696_j11622181503541_1_alg».proof.Proof.KernelIdeal.Layer1Value
import proofs.«166696_j11622181503541_1_alg».proof.Proof.KernelIdeal.ScoreValue
import proofs.«166696_j11622181503541_1_alg».proof.Proof.Spec
import Idealize.ShloMosaic.Lib.StableHlo.Run
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibStore Idealize.ShloMosaic.ValueIdx Idealize.ShloMosaic.StableHlo

variable (m : (ℓ : Loc nD τ sig) → Buf (Elt Ideal) ℓ) (ρ : Dev nD → PrngReg)

/-- The rows of `H` at the node numbers `e`, a negative number counted from the end: the host's gather over the
    normalised indices, kept as one function. -/
def rowsK (H : (⟨S16384x64, .f32⟩ : BufTy).Contents (Elt Ideal)) (e : (⟨S1048576, .i32⟩ : BufTy).Contents (Elt Ideal)) :
    (⟨S1048576x64, .f32⟩ : BufTy).Contents (Elt Ideal) :=
  Host.gather gather_S16384x64_S1048576x1_S1048576x64_1_0_n_n_0_1_164 H
    (broadcastInDim S1048576x1 ![0] bcast_S1048576_S1048576x1_0
      (select (cmpi .slt e (broadcastInDim S1048576 ![] bcast_S_S1048576 (constantI S_ 32 0#32)))
        (addi e (broadcastInDim S1048576 ![] bcast_S_S1048576 (constantI S_ 32 16384#32))) e))

/-! ## Region 0's entry -/

theorem in1_A (c : Dev nD) : in1 m c main_arg1 = m ((c : Thread nD τ).loc main_arg1) :=
  (StableHlo.after_of_writes_sub hostOps0 _ hostOps0_writes (by decide)).trans rfl
theorem in1_X (c : Dev nD) : in1 m c main_arg0 = m ((c : Thread nD τ).loc main_arg0) :=
  (StableHlo.after_of_writes_sub hostOps0 _ hostOps0_writes (by decide)).trans rfl
theorem in1_W (c : Dev nD) (d o : Fin 64) : in1 m c main_v0 (ix2 d o) = m ((c : Thread nD τ).loc main_arg2) (ix2 o d) := by
  have e : in1 m c main_v0 = transpose S64x64 [1, 0] (m ((c : Thread nD τ).loc main_arg2)) transposes_S64x64_S64x64_1_0 := by
    show StableHlo.after hostOps0 (at0 m c) (Proc.devRef .tc main_v0) = _
    after_results
    all_goals rfl
  rw [e]
  exact transpose_apply _ _ _ _ _ (fun b => by fin_cases b <;> rfl)

/-- The first layer's result. -/
theorem out2_H1 (c : Dev nD) :
    out2 m c main_v1 = Cert.Spec.layer (m ((c : Thread nD τ).loc main_arg1)) (m ((c : Thread nD τ).loc main_arg0)) (m ((c : Thread nD τ).loc main_arg2)) := by
  have h := layer0_value (in1 m) c (m ((c : Thread nD τ).loc main_arg2)) (in1_W m c)
  rw [in1_A, in1_X] at h
  exact (at2_arr m c 3).trans h

/-! ## Region 1's entry -/

/-- A buffer neither of the first two host stretches writes and that is no output of the first two regions is, when the
    third stretch starts, as launched. -/
theorem at4_untouched (c : Dev nD) (b : Ref sig .tc) (h0 : b ∉ hostOps0_W) (h1 : b ∉ hostOps1_W) (hv1 : b ≠ main_v1) (hv3 : b ≠ main_v3) :
    at4 m c (Proc.devRef .tc b) = m ((c : Thread nD τ).loc b) :=
  (at4_keep m c b hv3).trans <|
  (StableHlo.after_of_writes_sub hostOps1 _ hostOps1_writes h1).trans <|
  (at2_keep m c b hv1).trans <|
  (StableHlo.after_of_writes_sub hostOps0 _ hostOps0_writes h0).trans rfl

theorem in3_A (c : Dev nD) : in3 m c main_arg1 = m ((c : Thread nD τ).loc main_arg1) :=
  (StableHlo.after_of_writes_sub hostOps1 _ hostOps1_writes (by decide)).trans <|
  (at2_keep m c main_arg1 (by decide)).trans (in1_A m c)
theorem in3_Y (c : Dev nD) :
    in3 m c main_v1 = Cert.Spec.layer (m ((c : Thread nD τ).loc main_arg1)) (m ((c : Thread nD τ).loc main_arg0)) (m ((c : Thread nD τ).loc main_arg2)) :=
  (StableHlo.after_of_writes_sub hostOps1 _ hostOps1_writes (by decide)).trans (out2_H1 m c)
theorem in3_W (c : Dev nD) (d o : Fin 64) : in3 m c main_v2 (ix2 d o) = m ((c : Thread nD τ).loc main_arg3) (ix2 o d) := by
  have e : in3 m c main_v2 = transpose S64x64 [1, 0] (at2 m c (Proc.devRef .tc main_arg3)) transposes_S64x64_S64x64_1_0 := by
    show StableHlo.after hostOps1 (at2 m c) (Proc.devRef .tc main_v2) = _
    after_results
    all_goals rfl
  rw [e, show at2 m c (Proc.devRef .tc main_arg3) = m ((c : Thread nD τ).loc main_arg3) from
    (at2_keep m c main_arg3 (by decide)).trans ((StableHlo.after_of_writes_sub hostOps0 _ hostOps0_writes (by decide)).trans rfl)]
  exact transpose_apply _ _ _ _ _ (fun b => by fin_cases b <;> rfl)

/-- The two layers' result `H₂`. -/
abbrev H2 (c : Dev nD) : (⟨2, ![16384, 64]⟩ : Shape).Idx → EReal :=
  Cert.Spec.layer (m ((c : Thread nD τ).loc main_arg1))
    (Cert.Spec.layer (m ((c : Thread nD τ).loc main_arg1)) (m ((c : Thread nD τ).loc main_arg0)) (m ((c : Thread nD τ).loc main_arg2)))
    (m ((c : Thread nD τ).loc main_arg3))

theorem out4_H2 (c : Dev nD) : out4 m c main_v3 = H2 m c := by
  have h := layer1_value (in3 m) c (m ((c : Thread nD τ).loc main_arg3)) (in3_W m c)
  rw [in3_A, in3_Y] at h
  exact (at4_arr m c 3).trans h

/-! ## Region 2's entry -/

theorem in5_hs (c : Dev nD) : in5 m c main_v10 = rowsK (H2 m c) (m ((c : Thread nD τ).loc main_arg7)) := by
  have e : in5 m c main_v10 = rowsK (at4 m c (Proc.devRef .tc main_v3)) (at4 m c (Proc.devRef .tc main_arg7)) := by
    show StableHlo.after hostOps2 (at4 m c) (Proc.devRef .tc main_v10) = _
    after_results_simp
    all_goals rfl
  rw [e, at4_untouched m c main_arg7 (by decide) (by decide) (by decide) (by decide)]
  exact congrArg (fun H => rowsK H _) (out4_H2 m c)
theorem in5_hd (c : Dev nD) : in5 m c main_v17 = rowsK (H2 m c) (m ((c : Thread nD τ).loc main_arg8)) := by
  have e : in5 m c main_v17 = rowsK (at4 m c (Proc.devRef .tc main_v3)) (at4 m c (Proc.devRef .tc main_arg8)) := by
    show StableHlo.after hostOps2 (at4 m c) (Proc.devRef .tc main_v17) = _
    after_results_simp
    all_goals rfl
  rw [e, at4_untouched m c main_arg8 (by decide) (by decide) (by decide) (by decide)]
  exact congrArg (fun H => rowsK H _) (out4_H2 m c)
theorem in5_w1s (c : Dev nD) (d o : Fin 64) :
    in5 m c main_v19 (ix2 d o) = m ((c : Thread nD τ).loc main_arg4) (ix2 o (Fin.castAdd 64 d)) := by
  have e : in5 m c main_v19 = transpose S64x64 [1, 0] (extractStridedSlice S64x64 ![0, 0] (at4 m c (Proc.devRef .tc main_arg4)) slices_S64x128_S64x64_0_0) transposes_S64x64_S64x64_1_0 := by
    show StableHlo.after hostOps2 (at4 m c) (Proc.devRef .tc main_v19) = _
    after_results_simp
    all_goals rfl
  rw [e, at4_untouched m c main_arg4 (by decide) (by decide) (by decide) (by decide)]
  refine (transpose_apply _ _ _ (ix2 d o) (ix2 o d) (fun b => by fin_cases b <;> rfl)).trans ?_
  exact extractStridedSlice_apply _ _ _ (ix2 o d) (ix2 o (Fin.castAdd 64 d)) (fun a => by fin_cases a <;> simp)
theorem in5_w1d (c : Dev nD) (d o : Fin 64) :
    in5 m c main_v21 (ix2 d o) = m ((c : Thread nD τ).loc main_arg4) (ix2 o (Fin.natAdd 64 d)) := by
  have e : in5 m c main_v21 = transpose S64x64 [1, 0] (extractStridedSlice S64x64 ![0, 64] (at4 m c (Proc.devRef .tc main_arg4)) slices_S64x128_S64x64_0_64) transposes_S64x64_S64x64_1_0 := by
    show StableHlo.after hostOps2 (at4 m c) (Proc.devRef .tc main_v21) = _
    after_results_simp
    all_goals rfl
  rw [e, at4_untouched m c main_arg4 (by decide) (by decide) (by decide) (by decide)]
  refine (transpose_apply _ _ _ (ix2 d o) (ix2 o d) (fun b => by fin_cases b <;> rfl)).trans ?_
  exact extractStridedSlice_apply _ _ _ (ix2 o d) (ix2 o (Fin.natAdd 64 d)) (fun a => by
    fin_cases a
    · show (o : ℕ) = 0 + (o : ℕ); omega
    · show 64 + (d : ℕ) = 64 + (d : ℕ); rfl)
theorem in5_b (c : Dev nD) (o : Fin 64) : in5 m c main_v22 (ix2 0 o) = m ((c : Thread nD τ).loc main_arg5) (ix1 o) := by
  have e : in5 m c main_v22 = shapeCast S1x64 (at4 m c (Proc.devRef .tc main_arg5)) shapeCasts_S64_S1x64 := by
    show StableHlo.after hostOps2 (at4 m c) (Proc.devRef .tc main_v22) = _
    after_results_simp
    all_goals rfl
  rw [e, at4_untouched m c main_arg5 (by decide) (by decide) (by decide) (by decide)]
  exact shapeCast_apply _ _ (ix2 0 o) (ix1 o) (by
    rw [Shape.rowMajor_val_one, Shape.rowMajor_val_two]; simp)
theorem in5_w3 (c : Dev nD) (o : Fin 64) : in5 m c main_v23 (ix2 o 0) = m ((c : Thread nD τ).loc main_arg6) (ix2 0 o) := by
  have e : in5 m c main_v23 = transpose S64x1 [1, 0] (at4 m c (Proc.devRef .tc main_arg6)) transposes_S1x64_S64x1_1_0 := by
    show StableHlo.after hostOps2 (at4 m c) (Proc.devRef .tc main_v23) = _
    after_results_simp
    all_goals rfl
  rw [e, at4_untouched m c main_arg6 (by decide) (by decide) (by decide) (by decide)]
  exact transpose_apply _ _ _ _ _ (fun b => by fin_cases b <;> rfl)

/-! ## The results -/

/-- The kernel program's edge scores, as a function of the launch memory. -/
abbrev kerOut (c : Dev nD) : (⟨2, ![1048576, 1]⟩ : Shape).Idx → EReal :=
  Cert.Spec.score (rowsK (H2 m c) (m ((c : Thread nD τ).loc main_arg7))) (rowsK (H2 m c) (m ((c : Thread nD τ).loc main_arg8)))
    (m ((c : Thread nD τ).loc main_arg4)) (m ((c : Thread nD τ).loc main_arg5)) (m ((c : Thread nD τ).loc main_arg6))

theorem at7_scores_eq (c : Dev nD) : at7 m c (Proc.devRef .tc main_v24) = kerOut m c := by
  have h := score_value (in5 m) c (m ((c : Thread nD τ).loc main_arg4)) (m ((c : Thread nD τ).loc main_arg5)) (m ((c : Thread nD τ).loc main_arg6))
    (in5_w1s m c) (in5_w1d m c) (in5_b m c) (in5_w3 m c)
  rw [in5_hs, in5_hd] at h
  exact (at7_scores m c).trans h

theorem at7_zero (c : Dev nD) : at7 m c (Proc.devRef .tc main_cst) = constant (F := Ideal) S_ .f32 0x00000000#32 := by
  show StableHlo.after hostOps3 (at6 m c) (Proc.devRef .tc main_cst) = _
  after_results

/-- THE VALUE RUN: every weakly fair execution terminates, nothing faulting, with the scores at `kerOut`, the second
    result the argument `A`, the third the constant zero, and every argument unchanged. -/
theorem run_value : θ_run defs (onTc (τ := τ) (main (F := Ideal))) ⟨m, fun _ => 0, ρ⟩ (fun r => ∀ c : Dev nD,
      r.2.mem ((c.tc : Thread nD τ).loc main_v24) = kerOut m c
      ∧ r.2.mem ((c.tc : Thread nD τ).loc main_arg1) = m ((c.tc : Thread nD τ).loc main_arg1)
      ∧ r.2.mem ((c.tc : Thread nD τ).loc main_cst) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v24 (by decide))).trans (at7_scores_eq m c),
     (h c _ (mem_uc main_arg1 (by decide))).trans (at7_untouched m c main_arg1 (by decide) (by decide) (by decide) (by decide) (by decide) (by decide) (by decide)),
     (h c _ (mem_uc main_cst (by decide))).trans (at7_zero m c),
     (h c _ (mem_uc main_arg0 (by decide))).trans (at7_untouched m c main_arg0 (by decide) (by decide) (by decide) (by decide) (by decide) (by decide) (by decide)),
     (h c _ (mem_uc main_arg1 (by decide))).trans (at7_untouched m c main_arg1 (by decide) (by decide) (by decide) (by decide) (by decide) (by decide) (by decide)),
     (h c _ (mem_uc main_arg2 (by decide))).trans (at7_untouched m c main_arg2 (by decide) (by decide) (by decide) (by decide) (by decide) (by decide) (by decide)),
     (h c _ (mem_uc main_arg3 (by decide))).trans (at7_untouched m c main_arg3 (by decide) (by decide) (by decide) (by decide) (by decide) (by decide) (by decide)),
     (h c _ (mem_uc main_arg4 (by decide))).trans (at7_untouched m c main_arg4 (by decide) (by decide) (by decide) (by decide) (by decide) (by decide) (by decide)),
     (h c _ (mem_uc main_arg5 (by decide))).trans (at7_untouched m c main_arg5 (by decide) (by decide) (by decide) (by decide) (by decide) (by decide) (by decide)),
     (h c _ (mem_uc main_arg6 (by decide))).trans (at7_untouched m c main_arg6 (by decide) (by decide) (by decide) (by decide) (by decide) (by decide) (by decide)),
     (h c _ (mem_uc main_arg7 (by decide))).trans (at7_untouched m c main_arg7 (by decide) (by decide) (by decide) (by decide) (by decide) (by decide) (by decide)),
     (h c _ (mem_uc main_arg8 (by decide))).trans (at7_untouched m c main_arg8 (by decide) (by decide) (by decide) (by decide) (by decide) (by decide) (by decide))⟩)
    (run_all m ρ)

end Cert.KernelIdeal.Hand

end
-- ==== Proof.RefValue.lean ====
/- The reference program's result at the ideal instance is the common value of `Spec.lean`.

   Read one host operation at a time, the reference computes: two propagation layers `H₁ = relu ((A · X) · W₁ᵀ)`,
   `H₂ = relu ((A · H₁) · W₃ᵀ)`; the rows of `H₂` at the source and destination node of every edge (a negative node
   number counted from the end, as array indexing does); their concatenation times the transpose of the 64 × 128 map `L`,
   plus the bias, through `1 / (1 + e⁻ˣ)`, times the transpose of the row `w`. A sum over the 128 concatenated
   columns is the sum over the source half plus the sum over the destination half, which is how the common value
   states it; `1 / (1 + e⁻ˣ)` is the logistic function on the extended reals by definition; a transposed matrix read
   at `(j, o)` is the matrix at `(o, j)`. -/
import proofs.«166696_j11622181503541_1_alg».proof.Proof.Gen.ReferenceIdeal.Run
import proofs.«166696_j11622181503541_1_alg».proof.Proof.Gen.ReferenceIdeal.Read
import proofs.«166696_j11622181503541_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The rows of `H` at the node numbers `e`, a negative number counted from the end: the host's gather over the
    normalised indices, kept as one function (both programs apply it to equal arrays). -/
def rows (H : (⟨S16384x64, .f32⟩ : BufTy).Contents (Elt Ideal)) (e : (⟨S1048576, .i32⟩ : BufTy).Contents (Elt Ideal)) :
    (⟨S1048576x64, .f32⟩ : BufTy).Contents (Elt Ideal) :=
  Host.gather gather_S16384x64_S1048576x1_S1048576x64_1_0_n_n_0_1_164 H
    (broadcastInDim S1048576x1 ![0] bcast_S1048576_S1048576x1_0
      (select (cmpi .slt e (broadcastInDim S1048576 ![] bcast_S_S1048576 (constantI S_ 32 0#32)))
        (addi e (broadcastInDim S1048576 ![] bcast_S_S1048576 (constantI S_ 32 16384#32))) e))

/-- One propagation layer, index by index: at row `r`, column `o` the host takes the maximum with `0` (the zero word
    denotes `0`) of the sum over the 64 features `d` of `(∑ j, A r j · Y j d)` times the transposed weights at `(d, o)`,
    and a transposed matrix read at `(d, o)` is the matrix at `(o, d)`. -/
private theorem layer_eq (Y : (⟨S16384x64, .f32⟩ : BufTy).Contents (Elt Ideal)) (A : (⟨S16384x16384, .f32⟩ : BufTy).Contents (Elt Ideal))
    (W : (⟨S64x64, .f32⟩ : BufTy).Contents (Elt Ideal)) :
    val_main_v3 (F := Ideal) Y A W = Cert.Spec.layer A Y W := by
  funext i
  rw [val_main_v3_apply, val_main_call0_v0_apply, val_main_call0_cst_apply, val_main_v2_apply,
    Ideal.ofBits_def, Ideal.ofBits_zero_f32, Ideal.maximumf_def]
  show max _ 0 = max _ 0
  refine congrArg (fun t : EReal => max t 0) ?_
  refine Finset.sum_congr rfl fun k _ => ?_
  rw [val_main_v0_apply, val_main_v1_apply]
  -- the inner product reads `A` at `(r, j)` and `Y` at `(j, d)`; the transposed weights at `(d, o)` are `W` at `(o, d)`
  have e1 : ∀ j : Fin 16384, lidx_main_v0 (lidx_main_v2 i k) j = ix2 (i 0) j := fun j => funext fun a => by
    match a with
    | ⟨0, _⟩ => rfl
    | ⟨1, _⟩ => rfl
  have e2 : ∀ j : Fin 16384, ridx_main_v0 (lidx_main_v2 i k) j = ix2 j k := fun j => funext fun a => by
    match a with
    | ⟨0, _⟩ => rfl
    | ⟨1, _⟩ => rfl
  have e3 : idx_main_v1 (ridx_main_v2 i k) = ix2 (i 1) k := funext fun a => by
    match a with
    | ⟨0, _⟩ => rfl
    | ⟨1, _⟩ => rfl
  simp only [e1, e2, e3]
  rfl

/-- The second layer is the first layer's operations again, applied to the first layer's result and the second weight matrix. -/
private theorem v7_eq (x0 : (⟨S16384x64, .f32⟩ : BufTy).Contents (Elt Ideal)) (x1 : (⟨S16384x16384, .f32⟩ : BufTy).Contents (Elt Ideal))
    (x2 x3 : (⟨S64x64, .f32⟩ : BufTy).Contents (Elt Ideal)) :
    val_main_v7 (F := Ideal) x0 x1 x2 x3 = val_main_v3 (F := Ideal) (val_main_v3 (F := Ideal) x0 x1 x2) x1 x3 := rfl

/-- The two layers together: `H₂ = relu ((A · relu ((A · X) · W₁ᵀ)) · W₃ᵀ)`. -/
private theorem H_eq (x0 : (⟨S16384x64, .f32⟩ : BufTy).Contents (Elt Ideal)) (x1 : (⟨S16384x16384, .f32⟩ : BufTy).Contents (Elt Ideal))
    (x2 x3 : (⟨S64x64, .f32⟩ : BufTy).Contents (Elt Ideal)) :
    val_main_v7 (F := Ideal) x0 x1 x2 x3 = Cert.Spec.layer x1 (Cert.Spec.layer x1 x0 x2) x3 := by
  rw [v7_eq, layer_eq, layer_eq]

/-- The rows gathered at the source node numbers are `rows` of the second layer: the comparison with `0`, the shift by
    16384 and the choice between the two are the index normalisation `rows` carries. -/
private theorem v14_eq (x0 : (⟨S16384x64, .f32⟩ : BufTy).Contents (Elt Ideal)) (x1 : (⟨S16384x16384, .f32⟩ : BufTy).Contents (Elt Ideal))
    (x2 x3 : (⟨S64x64, .f32⟩ : BufTy).Contents (Elt Ideal)) (x7 : (⟨S1048576, .i32⟩ : BufTy).Contents (Elt Ideal)) :
    val_main_v14 (F := Ideal) x0 x1 x2 x3 x7 = rows (Cert.Spec.layer x1 (Cert.Spec.layer x1 x0 x2) x3) x7 := by
  rw [← H_eq]; rfl

/-- The same at the destination node numbers. -/
private theorem v21_eq (x0 : (⟨S16384x64, .f32⟩ : BufTy).Contents (Elt Ideal)) (x1 : (⟨S16384x16384, .f32⟩ : BufTy).Contents (Elt Ideal))
    (x2 x3 : (⟨S64x64, .f32⟩ : BufTy).Contents (Elt Ideal)) (x8 : (⟨S1048576, .i32⟩ : BufTy).Contents (Elt Ideal)) :
    val_main_v21 (F := Ideal) x0 x1 x2 x3 x8 = rows (Cert.Spec.layer x1 (Cert.Spec.layer x1 x0 x2) x3) x8 := by
  rw [← H_eq]; rfl

/-- Column `d < 64` of the joined 128-column array is column `d` of the source rows. -/
private theorem v22_left (x0 : (⟨S16384x64, .f32⟩ : BufTy).Contents (Elt Ideal)) (x1 : (⟨S16384x16384, .f32⟩ : BufTy).Contents (Elt Ideal))
    (x2 x3 : (⟨S64x64, .f32⟩ : BufTy).Contents (Elt Ideal)) (x7 x8 : (⟨S1048576, .i32⟩ : BufTy).Contents (Elt Ideal))
    (j : S1048576x64.Idx) (d : Fin 64) :
    val_main_v22 (F := Ideal) x0 x1 x2 x3 x7 x8 (lidx_main_v24 j (Fin.castAdd 64 d))
      = val_main_v14 (F := Ideal) x0 x1 x2 x3 x7 (ix2 (j 0) d) := by
  unfold val_main_v22
  exact concatenate_pair_apply_left (1 : Fin S1048576x128.rank) _ _ concatenates_S1048576x64_S1048576x64_S1048576x128_d1
    (lidx_main_v24 j (Fin.castAdd 64 d)) rfl (ix2 (j 0) d) (fun b => by
      match b with
      | ⟨0, _⟩ => rfl
      | ⟨1, _⟩ => rfl)

/-- Column `64 + d` of the joined array is column `d` of the destination rows. -/
private theorem v22_right (x0 : (⟨S16384x64, .f32⟩ : BufTy).Contents (Elt Ideal)) (x1 : (⟨S16384x16384, .f32⟩ : BufTy).Contents (Elt Ideal))
    (x2 x3 : (⟨S64x64, .f32⟩ : BufTy).Contents (Elt Ideal)) (x7 x8 : (⟨S1048576, .i32⟩ : BufTy).Contents (Elt Ideal))
    (j : S1048576x64.Idx) (d : Fin 64) :
    val_main_v22 (F := Ideal) x0 x1 x2 x3 x7 x8 (lidx_main_v24 j (Fin.natAdd 64 d))
      = val_main_v21 (F := Ideal) x0 x1 x2 x3 x8 (ix2 (j 0) d) := by
  unfold val_main_v22
  exact concatenate_pair_apply_right (1 : Fin S1048576x128.rank) _ _ concatenates_S1048576x64_S1048576x64_S1048576x128_d1
    (lidx_main_v24 j (Fin.natAdd 64 d)) rfl rfl (ix2 (j 0) d) (fun b hb => by
      match b, hb with
      | ⟨0, _⟩, _ => rfl
      | ⟨1, _⟩, hb => exact absurd rfl hb) (Nat.add_comm _ _)

/-- The word `0x3F800000` denotes the real number `1`. -/
private theorem one_eq : Ideal.ofBits .f32 0x3F800000#32 = 1 := by
  simp [Ideal.ofBits, Ideal.ieee, -EReal.coe_mul]; norm_num

/-- THE REFERENCE'S VALUE: its last stage, as a function of the nine argument arrays, is the edge score of the
    gathered rows of the second layer. -/
theorem val_eq (x0 : (⟨S16384x64, .f32⟩ : BufTy).Contents (Elt Ideal)) (x1 : (⟨S16384x16384, .f32⟩ : BufTy).Contents (Elt Ideal))
    (x2 x3 : (⟨S64x64, .f32⟩ : BufTy).Contents (Elt Ideal)) (x4 : (⟨S64x128, .f32⟩ : BufTy).Contents (Elt Ideal))
    (x5 : (⟨S64, .f32⟩ : BufTy).Contents (Elt Ideal)) (x6 : (⟨S1x64, .f32⟩ : BufTy).Contents (Elt Ideal))
    (x7 x8 : (⟨S1048576, .i32⟩ : BufTy).Contents (Elt Ideal)) :
    val_main_v35 (F := Ideal) x0 x1 x2 x3 x4 x5 x6 x7 x8
      = Cert.Spec.score (rows (Cert.Spec.layer x1 (Cert.Spec.layer x1 x0 x2) x3) x7)
          (rows (Cert.Spec.layer x1 (Cert.Spec.layer x1 x0 x2) x3) x8) x4 x5 x6 := by
  funext i
  -- the last product: edge `e = i 0`'s score is the sum over the 64 hidden features `o` of the activation times `wᵀ` at `(o, 0)`
  rw [val_main_v35_apply]
  show _ = Cert.Spec.scoreAt _ _ x4 x5 x6 (i 0)
  unfold Cert.Spec.scoreAt
  refine Finset.sum_congr rfl fun o _ => ?_
  -- the activation at `(e, o)` is `1 / (1 + e^(-(z + b o)))`, `z` the sum over the 128 joined columns, taken as its two halves
  rw [val_main_v34_apply, val_main_v33_apply, val_main_v32_apply, val_main_cst_3_apply, val_main_v31_apply,
    val_main_v30_apply, val_main_cst_apply, val_main_v29_apply, val_main_v28_apply, val_main_v27_apply,
    val_main_v26_apply, val_main_v25_apply, val_main_v24_apply, Cert.Spec.sum_halves]
  rw [Ideal.hostDivf_def, Ideal.addf_def, Ideal.hostUnary_exp_def, Ideal.hostNegf_def, Ideal.negf_def, Ideal.addf_def,
    Ideal.ofBits_def, one_eq]
  -- the first half reads the source rows, the second the destination rows, both of the second layer
  have hA : ∀ d : Fin 64, val_main_v22 (F := Ideal) x0 x1 x2 x3 x7 x8 (lidx_main_v24 (lidx_main_v35 i o) (Fin.castAdd 64 d))
      = rows (Cert.Spec.layer x1 (Cert.Spec.layer x1 x0 x2) x3) x7 (ix2 (i 0) d) := fun d => by
    rw [v22_left, v14_eq]; rfl
  have hB : ∀ d : Fin 64, val_main_v22 (F := Ideal) x0 x1 x2 x3 x7 x8 (lidx_main_v24 (lidx_main_v35 i o) (Fin.natAdd 64 d))
      = rows (Cert.Spec.layer x1 (Cert.Spec.layer x1 x0 x2) x3) x8 (ix2 (i 0) d) := fun d => by
    rw [v22_right, v21_eq]; rfl
  -- the transposed `L` at `(k, o)` is `L` at `(o, k)`
  have hL : ∀ k : Fin 128, val_main_v23 (F := Ideal) x4 (ridx_main_v24 (lidx_main_v35 i o) k) = x4 (ix2 o k) := fun k => by
    rw [val_main_v23_apply]
    exact congrArg x4 (funext fun a => by
      match a with
      | ⟨0, _⟩ => rfl
      | ⟨1, _⟩ => rfl)
  -- the bias row repeated over the edges is `b` at `o`
  have hb : idx_main_v25 (idx_main_v26 (lidx_main_v35 i o)) = ix1 o := funext fun a => by
    match a with
    | ⟨0, _⟩ => rfl
  -- the transposed `w` at `(o, 0)` is `w` at `(0, o)`: the result's one column is column `0`
  have hw : idx_main_v34 (ridx_main_v35 i o) = ix2 0 o := funext fun a => by
    match a with
    | ⟨0, _⟩ => exact Fin.ext (by have h := idx2_lt1 i; show (i 1).val = 0; omega)
    | ⟨1, _⟩ => rfl
  simp only [hA, hB, hL, hb, hw]
  -- `1 / (1 + e⁻ˣ)` is the logistic function on the extended reals by definition
  rfl

end Cert.ReferenceIdeal.RefValue

end
-- ==== Proof.lean ====
/- A two-layer graph propagation followed by an edge scorer, computed two ways, is one function of the inputs.

   The kernel program tiles `A` (16384 × 16384) into 2048 × 1024 blocks and, for each row tile, accumulates the 16
   tile products `A_tile · Y_tile` in a running sum before multiplying by the layer's weight and rectifying; it does
   this twice (`Y = X`, then `Y = H₁`), gathers the rows of `H₂` at the edges' endpoints, and scores the edges 8192 at a
   time, applying the first linear map as two half-products (source half, destination half) plus bias, the logistic
   function, and the second linear map. The reference computes `relu ((A · Y) · Wᵀ)` with whole matrix products,
   concatenates the gathered endpoint rows, multiplies by the transposed 64 × 128 map, adds the bias, takes
   `1 / (1 + e⁻ˣ)`, and multiplies by the transposed second map.

   Over the extended reals with exact operations the two agree entry by entry: a sum over 16384 columns taken in
   16 blocks of 1024 is the same sum; a sum over the 128 concatenated columns is the sum over the first 64 plus the sum
   over the last 64; the format changes are the identity; `1 / (1 + e⁻ˣ)` is the logistic function by definition, also
   at `±∞`. Only commutativity and associativity of addition are used, so nothing is asked of the inputs: the
   precondition that they are finite is not opened. Both programs gather with the same host operation on equal
   arrays, so no index is ever read.

   The frames: each kernel program (word-level and idealized alike) runs as four stretches of host operations around
   three pipelined regions; every region's body obligation is the symbolic run of its body, the running sum of the
   propagation regions being the region invariant; the arguments are written by no host operation and are no region's
   output. The reference program's frame is its run with the results dropped. The idealization rewrote nothing. -/
import proofs.«166696_j11622181503541_1_alg».proof.Defs
import proofs.«166696_j11622181503541_1_alg».proof.Proof.Gen.Kernel
import proofs.«166696_j11622181503541_1_alg».proof.Proof.Gen.KernelIdeal
import proofs.«166696_j11622181503541_1_alg».proof.Proof.Gen.ReferenceIdeal
import proofs.«166696_j11622181503541_1_alg».proof.Proof.Gen.Pre_finite_inputs
import proofs.«166696_j11622181503541_1_alg».proof.Proof.Gen.ReferenceIdeal.Run
import proofs.«166696_j11622181503541_1_alg».proof.Proof.Gen.ReferenceIdeal.Read
import proofs.«166696_j11622181503541_1_alg».proof.Proof.Kernel.Ends
import proofs.«166696_j11622181503541_1_alg».proof.Proof.KernelIdeal.Ends
import proofs.«166696_j11622181503541_1_alg».proof.Proof.KernelIdeal.Value
import proofs.«166696_j11622181503541_1_alg».proof.Proof.RefValue
import Idealize.ShloMosaic.Adequacy
import Idealize.ShloMosaic.Init

noncomputable section

namespace Cert.Proof

open Idealize.ShloMosaic Idealize.SL.Sem

/-- The word-level kernel program runs to the end, faults nowhere and leaves its arguments unchanged. -/
theorem frame_k : Cert.frame_Kernel := fun m ρ _ => Cert.Kernel.Hand.run_frame (F := Bits) m ρ

/-- So does the idealized kernel program. -/
theorem frame_ki : Cert.frame_KernelIdeal := fun m ρ _ => Cert.KernelIdeal.Hand.run_frame (F := Ideal) m ρ

/-- The reference program's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- The two programs' row gathers are one function: the same host operation with the same dimension numbers. -/
theorem rows_eq (H : (⟨Cert.ReferenceIdeal.S16384x64, .f32⟩ : BufTy).Contents (Elt Ideal))
    (e : (⟨Cert.ReferenceIdeal.S1048576, .i32⟩ : BufTy).Contents (Elt Ideal)) :
    Cert.ReferenceIdeal.RefValue.rows H e = Cert.KernelIdeal.Hand.rowsK H e := rfl

/-- From memories that agree on the arguments both idealized programs end with the edge scores of the common value,
    the second result the argument `A`, the third the constant zero. -/
theorem algebraic : Cert.algebraic_KernelIdeal_ReferenceIdeal := by
  intro m ρ m' ρ' _ hagree
  refine ⟨fun c => Cert.KernelIdeal.Hand.kerOut m c,
    fun c => m ((c.tc : Thread Cert.KernelIdeal.nD Cert.KernelIdeal.τ).loc Cert.KernelIdeal.main_arg1),
    fun _ => constant (F := Ideal) Cert.KernelIdeal.S_ .f32 0x00000000#32,
    Cert.KernelIdeal.Hand.run_value m ρ, ?_⟩
  refine (θ_run Cert.ReferenceIdeal.defs _ _).mono (fun _ h c => ⟨?_, ?_, ?_, (h c).2.2.2⟩)
    (Cert.ReferenceIdeal.Value.run (F := Ideal) m' ρ')
  · obtain ⟨h0, h1, h2, h3, h4, h5, h6, h7, h8⟩ := hagree c
    rw [(h c).1, Cert.ReferenceIdeal.Read.val_main_v35_eq, Cert.ReferenceIdeal.RefValue.val_eq,
      h0, h1, h2, h3, h4, h5, h6, h7, h8, rows_eq, rows_eq]
  · rw [(h c).2.1, (hagree c).2.1]
  · exact (h c).2.2.1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
